-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v7_0)) (v2 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_v7_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x512x512 : Shape := ⟨4, ![8, 4, 512, 512]⟩
abbrev S8x12x512x512 : Shape := ⟨4, ![8, 12, 512, 512]⟩
abbrev S12 : Shape := ⟨1, ![12]⟩
abbrev S8x512x512 : Shape := ⟨3, ![8, 512, 512]⟩
abbrev S_ : Shape := ⟨0, ![]⟩

class Facts : Prop where
  bcast_S_S8x4x512x512 : S_.BroadcastsInDim S8x4x512x512 (![] : Fin 0 → Fin S8x4x512x512.rank)
  reducesTo_S8x4x512x512_S_d0_1_2_3 : S8x4x512x512.ReducesTo [0, 1, 2, 3] S_
  h_S_ : 0 < S_.numel
  bcast_S_S8x12x512x512 : S_.BroadcastsInDim S8x12x512x512 (![] : Fin 0 → Fin S8x12x512x512.rank)
  reducesTo_S8x12x512x512_S_d0_1_2_3 : S8x12x512x512.ReducesTo [0, 1, 2, 3] S_
  bcast_S_S12 : S_.BroadcastsInDim S12 (![] : Fin 0 → Fin S12.rank)
  reducesTo_S12_S_d0 : S12.ReducesTo [0] S_
  bcast_S_S8x512x512 : S_.BroadcastsInDim S8x512x512 (![] : Fin 0 → Fin S8x512x512.rank)
  reducesTo_S8x512x512_S_d0_1_2 : S8x512x512.ReducesTo [0, 1, 2] S_

variable [Facts]

def fn_part1 {F : FTy → Type} [FloatOps F] (main_arg3 : IVec S8x512x512 32) (main_arg4 : IVec S12 32) (main_v13 : IVec S_ 1) (main_v15 : IVec S8x512x512 1) (main_c_5 : IVec S_ 32) : IVec S_ 1 :=
  let main_v16 : IVec S8x512x512 32 := broadcastInDim S8x512x512 ![] bcast_S_S8x512x512 main_c_5
  let main_v17 : IVec S8x512x512 1 := cmpi .slt main_arg3 main_v16
  let main_v18 : IVec S8x512x512 1 := andi main_v15 main_v17
  let main_c_6 : IVec S_ 1 := constantI S_ 1 1#1
  let main_v19 : IVec S_ 1 := (fun x v => Host.reduce IntOp.andi x v reducesTo_S8x512x512_S_d0_1_2 h_S_) main_v18 main_c_6
  let main_v20 : IVec S_ 1 := andi main_v13 main_v19
  let main_c_7 : IVec S_ 32 := constantI S_ 32 0#32
  let main_v21 : IVec S12 32 := broadcastInDim S12 ![] bcast_S_S12 main_c_7
  let main_v22 : IVec S12 1 := cmpi .sge main_arg4 main_v21
  let main_c_8 : IVec S_ 32 := constantI S_ 32 4#32
  let main_v23 : IVec S12 32 := broadcastInDim S12 ![] bcast_S_S12 main_c_8
  let main_v24 : IVec S12 1 := cmpi .slt main_arg4 main_v23
  let main_v25 : IVec S12 1 := andi main_v22 main_v24
  let main_c_9 : IVec S_ 1 := constantI S_ 1 1#1
  let main_v26 : IVec S_ 1 := (fun x v => Host.reduce IntOp.andi x v reducesTo_S12_S_d0 h_S_) main_v25 main_c_9
  let main_v27 : IVec S_ 1 := andi main_v20 main_v26
  main_v27

def fn {F : FTy → Type} [FloatOps F] (main_arg0 : FVec F S8x4x512x512 .f32) (main_arg1 : FVec F S8x12x512x512 .f32) (main_arg2 : FVec F S12 .f32) (main_arg3 : IVec S8x512x512 32) (main_arg4 : IVec S12 32) : IVec S_ 1 :=
  let main_v0 : FVec F S8x4x512x512 .f32 := Host.absf main_arg0
  let main_cst : FVec F S_ .f32 := constant S_ .f32 0x7F800000#32
  let main_v1 : FVec F S8x4x512x512 .f32 := broadcastInDim S8x4x512x512 ![] bcast_S_S8x4x512x512 main_cst
  let main_v2 : IVec S8x4x512x512 1 := cmpf .olt main_v0 main_v1
  let main_c : IVec S_ 1 := constantI S_ 1 1#1
  let main_v3 : IVec S_ 1 := (fun x v => Host.reduce IntOp.andi x v reducesTo_S8x4x512x512_S_d0_1_2_3 h_S_) main_v2 main_c
  let main_v4 : FVec F S8x12x512x512 .f32 := Host.absf main_arg1
  let main_cst_0 : FVec F S_ .f32 := constant S_ .f32 0x7F800000#32
  let main_v5 : FVec F S8x12x512x512 .f32 := broadcastInDim S8x12x512x512 ![] bcast_S_S8x12x512x512 main_cst_0
  let main_v6 : IVec S8x12x512x512 1 := cmpf .olt main_v4 main_v5
  let main_c_1 : IVec S_ 1 := constantI S_ 1 1#1
  let main_v7 : IVec S_ 1 := (fun x v => Host.reduce IntOp.andi x v reducesTo_S8x12x512x512_S_d0_1_2_3 h_S_) main_v6 main_c_1
  let main_v8 : IVec S_ 1 := andi main_v3 main_v7
  let main_v9 : FVec F S12 .f32 := Host.absf main_arg2
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  let main_c_3 : IVec S_ 1 := constantI S_ 1 1#1
  let main_v12 : IVec S_ 1 := (fun x v => Host.reduce IntOp.andi x v reducesTo_S12_S_d0 h_S_) main_v11 main_c_3
  let main_v13 : IVec S_ 1 := andi main_v8 main_v12
  let main_c_4 : IVec S_ 32 := constantI S_ 32 0#32
  let main_v14 : IVec S8x512x512 32 := broadcastInDim S8x512x512 ![] bcast_S_S8x512x512 main_c_4
  let main_v15 : IVec S8x512x512 1 := cmpi .sge main_arg3 main_v14
  let main_c_5 : IVec S_ 32 := constantI S_ 32 12#32
  fn_part1 (F := F) main_arg3 main_arg4 main_v13 main_v15 main_c_5
-- ==== Kernel.lean ====
abbrev S8x4x512x512 : Shape := ⟨4, ![8, 4, 512, 512]⟩
abbrev S8x12x512x512 : Shape := ⟨4, ![8, 12, 512, 512]⟩
abbrev S12 : Shape := ⟨1, ![12]⟩
abbrev S8x512x512 : Shape := ⟨3, ![8, 512, 512]⟩
abbrev S12x1 : Shape := ⟨2, ![12, 1]⟩
abbrev S4 : Shape := ⟨1, ![4]⟩
abbrev S1x4 : Shape := ⟨2, ![1, 4]⟩
abbrev S12x4 : Shape := ⟨2, ![12, 4]⟩
abbrev S8x8x3x12 : Shape := ⟨4, ![8, 8, 3, 12]⟩
abbrev S8x8x3x4 : Shape := ⟨4, ![8, 8, 3, 4]⟩
abbrev S1x12x64x512 : Shape := ⟨4, ![1, 12, 64, 512]⟩
abbrev S1x4x64x512 : Shape := ⟨4, ![1, 4, 64, 512]⟩
abbrev S1x64x512 : Shape := ⟨3, ![1, 64, 512]⟩
abbrev S1x1x3x12 : Shape := ⟨4, ![1, 1, 3, 12]⟩
abbrev S1x1x3x4 : Shape := ⟨4, ![1, 1, 3, 4]⟩
abbrev S64x512 : Shape := ⟨2, ![64, 512]⟩
abbrev S12x64x512 : Shape := ⟨3, ![12, 64, 512]⟩
abbrev S12x64 : Shape := ⟨2, ![12, 64]⟩
abbrev S1x1x1x12 : Shape := ⟨4, ![1, 1, 1, 12]⟩
abbrev S4x64x512 : Shape := ⟨3, ![4, 64, 512]⟩
abbrev S12x1x1 : Shape := ⟨3, ![12, 1, 1]⟩
abbrev S4x64 : Shape := ⟨2, ![4, 64]⟩
abbrev S1x1x1x4 : Shape := ⟨4, ![1, 1, 1, 4]⟩
abbrev S_ : Shape := ⟨0, ![]⟩
abbrev S3x12 : Shape := ⟨2, ![3, 12]⟩
abbrev S3x4 : Shape := ⟨2, ![3, 4]⟩
abbrev S1x12 : Shape := ⟨2, ![1, 12]⟩

abbrev nBuf : Space → Nat
  | .hbm => 73
  | .vmem => 15
  | .smem => 0
  | _ => 0

abbrev bufTy : (tb : Table) → Fin (tcTables nBuf tb) → BufTy
  | .hbm, ⟨0, _⟩ => ⟨S8x4x512x512, .f32⟩
  | .hbm, ⟨1, _⟩ => ⟨S8x12x512x512, .f32⟩
  | .hbm, ⟨2, _⟩ => ⟨S12, .f32⟩
  | .hbm, ⟨3, _⟩ => ⟨S8x512x512, .i32⟩
  | .hbm, ⟨4, _⟩ => ⟨S12, .i32⟩
  | .hbm, ⟨5, _⟩ => ⟨S12x1, .i32⟩
  | .hbm, ⟨6, _⟩ => ⟨S4, .i32⟩
  | .hbm, ⟨7, _⟩ => ⟨S1x4, .i32⟩
  | .hbm, ⟨8, _⟩ => ⟨S12x4, .i32⟩
  | .hbm, ⟨9, _⟩ => ⟨S12x4, .i32⟩
  | .hbm, ⟨10, _⟩ => ⟨S12x4, .i1⟩
  | .hbm, ⟨11, _⟩ => ⟨S12x4, .f32⟩
  | .hbm, ⟨12, _⟩ => ⟨S8x12x512x512, .f32⟩
  | .hbm, ⟨13, _⟩ => ⟨S8x12x512x512, .f32⟩
  | .hbm, ⟨14, _⟩ => ⟨S8x8x3x12, .f32⟩
  | .hbm, ⟨15, _⟩ => ⟨S8x8x3x4, .f32⟩
  | .hbm, ⟨16, _⟩ => ⟨S_, .f32⟩
  | .hbm, ⟨17, _⟩ => ⟨S3x12, .f32⟩
  | .hbm, ⟨18, _⟩ => ⟨S_, .f32⟩
  | .hbm, ⟨19, _⟩ => ⟨S3x4, .f32⟩
  | .hbm, ⟨20, _⟩ => ⟨S1x12, .f32⟩
  | .hbm, ⟨21, _⟩ => ⟨S12, .f32⟩
  | .hbm, ⟨22, _⟩ => ⟨S1x12, .f32⟩
  | .hbm, ⟨23, _⟩ => ⟨S12, .f32⟩
  | .hbm, ⟨24, _⟩ => ⟨S1x12, .f32⟩
  | .hbm, ⟨25, _⟩ => ⟨S12, .f32⟩
  | .hbm, ⟨26, _⟩ => ⟨S1x4, .f32⟩
  | .hbm, ⟨27, _⟩ => ⟨S4, .f32⟩
  | .hbm, ⟨28, _⟩ => ⟨S1x4, .f32⟩
  | .hbm, ⟨29, _⟩ => ⟨S4, .f32⟩
  | .hbm, ⟨30, _⟩ => ⟨S1x4, .f32⟩
  | .hbm, ⟨31, _⟩ => ⟨S4, .f32⟩
  | .hbm, ⟨32, _⟩ => ⟨S_, .f32⟩
  | .hbm, ⟨33, _⟩ => ⟨S12, .f32⟩
  | .hbm, ⟨34, _⟩ => ⟨S12, .f32⟩
  | .hbm, ⟨35, _⟩ => ⟨S_, .f32⟩
  | .hbm, ⟨36, _⟩ => ⟨S12, .f32⟩
  | .hbm, ⟨37, _⟩ => ⟨S12, .f32⟩
  | .hbm, ⟨38, _⟩ => ⟨S12, .f32⟩
  | .hbm, ⟨39, _⟩ => ⟨S_, .f32⟩
  | .hbm, ⟨40, _⟩ => ⟨S12, .f32⟩
  | .hbm, ⟨41, _⟩ => ⟨S12, .f32⟩
  | .hbm, ⟨42, _⟩ => ⟨S12, .f32⟩
  | .hbm, ⟨43, _⟩ => ⟨S_, .f32⟩
  | .hbm, ⟨44, _⟩ => ⟨S12, .f32⟩
  | .hbm, ⟨45, _⟩ => ⟨S12, .f32⟩
  | .hbm, ⟨46, _⟩ => ⟨S_, .f32⟩
  | .hbm, ⟨47, _⟩ => ⟨S4, .f32⟩
  | .hbm, ⟨48, _⟩ => ⟨S4, .f32⟩
  | .hbm, ⟨49, _⟩ => ⟨S_, .f32⟩
  | .hbm, ⟨50, _⟩ => ⟨S4, .f32⟩
  | .hbm, ⟨51, _⟩ => ⟨S4, .f32⟩
  | .hbm, ⟨52, _⟩ => ⟨S4, .f32⟩
  | .hbm, ⟨53, _⟩ => ⟨S_, .f32⟩
  | .hbm, ⟨54, _⟩ => ⟨S4, .f32⟩
  | .hbm, ⟨55, _⟩ => ⟨S4, .f32⟩
  | .hbm, ⟨56, _⟩ => ⟨S4, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S12, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .local _ .vmem, ⟨0, _⟩ => ⟨S12x4, .f32⟩
  | .local _ .vmem, ⟨1, _⟩ => ⟨S1x12x64x512, .f32⟩
  | .local _ .vmem, ⟨2, _⟩ => ⟨S1x12x64x512, .f32⟩
  | .local _ .vmem, ⟨3, _⟩ => ⟨S1x4x64x512, .f32⟩
  | .local _ .vmem, ⟨4, _⟩ => ⟨S1x4x64x512, .f32⟩
  | .local _ .vmem, ⟨5, _⟩ => ⟨S1x64x512, .i32⟩
  | .local _ .vmem, ⟨6, _⟩ => ⟨S1x64x512, .i32⟩
  | .local _ .vmem, ⟨7, _⟩ => ⟨S1x12x64x512, .f32⟩
  | .local _ .vmem, ⟨8, _⟩ => ⟨S1x12x64x512, .f32⟩
  | .local _ .vmem, ⟨9, _⟩ => ⟨S1x12x64x512, .f32⟩
  | .local _ .vmem, ⟨10, _⟩ => ⟨S1x12x64x512, .f32⟩
  | .local _ .vmem, ⟨11, _⟩ => ⟨S1x1x3x12, .f32⟩
  | .local _ .vmem, ⟨12, _⟩ => ⟨S1x1x3x12, .f32⟩
  | .local _ .vmem, ⟨13, _⟩ => ⟨S1x1x3x4, .f32⟩
  | .local _ .vmem, ⟨14, _⟩ => ⟨S1x1x3x4, .f32⟩
  | _, _ => ⟨S8x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S12x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x12x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x12x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x12x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x3x12 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x3x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S12_S12x1_0 : S12.BroadcastsInDim S12x1 (![0] : Fin 1 → Fin S12x1.rank)
  bcast_S4_S1x4_1 : S4.BroadcastsInDim S1x4 (![1] : Fin 1 → Fin S1x4.rank)
  bcast_S12x1_S12x4_0_1 : S12x1.BroadcastsInDim S12x4 (![0, 1] : Fin 2 → Fin S12x4.rank)
  bcast_S1x4_S12x4_0_1 : S1x4.BroadcastsInDim S12x4 (![0, 1] : Fin 2 → Fin S12x4.rank)
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  iota_S12x64x512_d0_w32 : S12x64x512.Iotas .tc 32 [0]
  shapeCasts_S64x512_S1x64x512 : S64x512.ShapeCasts S1x64x512
  shapeCasts_S1x64x512_S1x64x512 : S1x64x512.ShapeCasts S1x64x512
  broadcasts_S1x64x512_S12x64x512 : S1x64x512.Broadcasts S12x64x512
  natLt_1_32 : 1 < 32
  inb_S1x12x64x512_S1x12x64x512_0_0_0_0 : ∀ a, (![0, 0, 0, 0] : Fin 4 → Nat) a + S1x12x64x512.size a ≤ S1x12x64x512.size a
  h_S1x12x64x512 : 0 < S1x12x64x512.numel
  shapeCasts_S1x12x64x512_S12x64x512 : S1x12x64x512.ShapeCasts S12x64x512
  shapeCasts_S12x64x512_S1x12x64x512 : S12x64x512.ShapeCasts S1x12x64x512
  reduces_S12x64x512_S12x64 : S12x64x512.Reduces [2] S12x64
  reduces_S12x64_S12 : S12x64.Reduces [1] S12
  inb_S1x1x3x12_S1x1x1x12_0_0_0_0 : ∀ a, (![0, 0, 0, 0] : Fin 4 → Nat) a + S1x1x1x12.size a ≤ S1x1x3x12.size a
  h_S1x1x1x12 : 0 < S1x1x1x12.numel
  shapeCasts_S1x1x1x12_S12 : S1x1x1x12.ShapeCasts S12
  shapeCasts_S12_S1x1x1x12 : S12.ShapeCasts S1x1x1x12
  inb_S1x1x3x12_S1x1x1x12_0_0_1_0 : ∀ a, (![0, 0, 1, 0] : Fin 4 → Nat) a + S1x1x1x12.size a ≤ S1x1x3x12.size a
  inb_S1x1x3x12_S1x1x1x12_0_0_2_0 : ∀ a, (![0, 0, 2, 0] : Fin 4 → Nat) a + S1x1x1x12.size a ≤ S1x1x3x12.size a
  inb_S12x4_S12x4_0_0 : ∀ a, (![0, 0] : Fin 2 → Nat) a + S12x4.size a ≤ S12x4.size a
  h_S12x4 : 0 < S12x4.numel
  shapeCasts_S12x4_S12x4 : S12x4.ShapeCasts S12x4
  inb_S1x4x64x512_S1x4x64x512_0_0_0_0 : ∀ a, (![0, 0, 0, 0] : Fin 4 → Nat) a + S1x4x64x512.size a ≤ S1x4x64x512.size a
  h_S1x4x64x512 : 0 < S1x4x64x512.numel
  shapeCasts_S1x4x64x512_S4x64x512 : S1x4x64x512.ShapeCasts S4x64x512
  slices_S12x4_o0_0_S12x1 : S12x4.Slices ![0, 0] S12x1
  shapeCasts_S12x1_S12 : S12x1.ShapeCasts S12
  shapeCasts_S12_S12x1x1 : S12.ShapeCasts S12x1x1
  broadcasts_S12x1x1_S12x64x512 : S12x1x1.Broadcasts S12x64x512
  reduces_S12x64x512_S64x512 : S12x64x512.Reduces [0] S64x512
  slices_S4x64x512_o0_0_0_S1x64x512 : S4x64x512.Slices ![0, 0, 0] S1x64x512
  slices_S12x4_o0_1_S12x1 : S12x4.Slices ![0, 1] S12x1
  slices_S4x64x512_o1_0_0_S1x64x512 : S4x64x512.Slices ![1, 0, 0] S1x64x512
  slices_S12x4_o0_2_S12x1 : S12x4.Slices ![0, 2] S12x1
  slices_S4x64x512_o2_0_0_S1x64x512 : S4x64x512.Slices ![2, 0, 0] S1x64x512
  slices_S12x4_o0_3_S12x1 : S12x4.Slices ![0, 3] S12x1
  slices_S4x64x512_o3_0_0_S1x64x512 : S4x64x512.Slices ![3, 0, 0] S1x64x512
  concatenates_S1x64x512_S1x64x512_S1x64x512_S1x64x512_S4x64x512_d0 : Shape.Concatenates [S1x64x512, S1x64x512, S1x64x512, S1x64x512] S4x64x512 0
  reduces_S4x64x512_S4x64 : S4x64x512.Reduces [2] S4x64
  reduces_S4x64_S4 : S4x64.Reduces [1] S4
  inb_S1x1x3x4_S1x1x1x4_0_0_0_0 : ∀ a, (![0, 0, 0, 0] : Fin 4 → Nat) a + S1x1x1x4.size a ≤ S1x1x3x4.size a
  h_S1x1x1x4 : 0 < S1x1x1x4.numel
  shapeCasts_S1x1x1x4_S4 : S1x1x1x4.ShapeCasts S4
  shapeCasts_S4_S1x1x1x4 : S4.ShapeCasts S1x1x1x4
  inb_S1x1x3x4_S1x1x1x4_0_0_1_0 : ∀ a, (![0, 0, 1, 0] : Fin 4 → Nat) a + S1x1x1x4.size a ≤ S1x1x3x4.size a
  inb_S1x1x3x4_S1x1x1x4_0_0_2_0 : ∀ a, (![0, 0, 2, 0] : Fin 4 → Nat) a + S1x1x1x4.size a ≤ S1x1x3x4.size a
  reducesTo_S8x8x3x12_S3x12_d0_1 : S8x8x3x12.ReducesTo [0, 1] S3x12
  h_S_ : 0 < S_.numel
  reducesTo_S8x8x3x4_S3x4_d0_1 : S8x8x3x4.ReducesTo [0, 1] S3x4
  slices_S3x12_S1x12_0_0 : S3x12.Slices ![0, 0] S1x12
  shapeCasts_S1x12_S12 : S1x12.ShapeCasts S12
  slices_S3x12_S1x12_1_0 : S3x12.Slices ![1, 0] S1x12
  slices_S3x12_S1x12_2_0 : S3x12.Slices ![2, 0] S1x12
  slices_S3x4_S1x4_0_0 : S3x4.Slices ![0, 0] S1x4
  shapeCasts_S1x4_S4 : S1x4.ShapeCasts S4
  slices_S3x4_S1x4_1_0 : S3x4.Slices ![1, 0] S1x4
  slices_S3x4_S1x4_2_0 : S3x4.Slices ![2, 0] S1x4
  bcast_S_S12 : S_.BroadcastsInDim S12 (![] : Fin 0 → Fin S12.rank)
  bcast_S_S4 : S_.BroadcastsInDim S4 (![] : Fin 0 → Fin S4.rank)
  reducesTo_S12_S_d0 : S12.ReducesTo [0] S_
  reducesTo_S4_S_d0 : S4.ReducesTo [0] S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S12x4.size a ≤ S12x4.size a
  hwx0_0 : ∀ i : grid0.Coords, EltTy.bits .f32 = 32 ∨ (Rect.block (s := S12x4) S12x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x12x64x512.size a ≤ S8x12x512x512.size a
  hwx0_1 : ∀ i : grid0.Coords, EltTy.bits .f32 = 32 ∨ (Rect.block (s := S8x12x512x512) S1x12x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x64x512.size a ≤ S8x4x512x512.size a
  hwx0_2 : ∀ i : grid0.Coords, EltTy.bits .f32 = 32 ∨ (Rect.block (s := S8x4x512x512) S1x4x64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x512.size a ≤ S8x512x512.size a
  hwx0_3 : ∀ i : grid0.Coords, EltTy.bits .i32 = 32 ∨ (Rect.block (s := S8x512x512) S1x64x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x12x64x512.size a ≤ S8x12x512x512.size a
  hwx0_4 : ∀ i : grid0.Coords, EltTy.bits .f32 = 32 ∨ (Rect.block (s := S8x12x512x512) S1x12x64x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x12x64x512.size a ≤ S8x12x512x512.size a
  hwx0_5 : ∀ i : grid0.Coords, EltTy.bits .f32 = 32 ∨ (Rect.block (s := S8x12x512x512) S1x12x64x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x3x12.size a ≤ S8x8x3x12.size a
  hwx0_6 : ∀ i : grid0.Coords, EltTy.bits .f32 = 32 ∨ (Rect.block (s := S8x8x3x12) S1x1x3x12.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x3x4.size a ≤ S8x8x3x4.size a
  hwx0_7 : ∀ i : grid0.Coords, EltTy.bits .f32 = 32 ∨ (Rect.block (s := S8x8x3x4) S1x1x3x4.size (cc0_transform_7 i) (hinb0_7 i)).WholeWords (EltTy.packing .f32)

variable [Facts₀]

abbrev win0_0 : Pipeline.Window sig grid0 :=
  Pipeline.Window.ofSpec (Memref.whole main_v6) S12x4.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x12x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x4x64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S1x12x64x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1x12x64x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_2) S1x1x3x12.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_3) S1x1x3x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x4x512x512 : Shape := ⟨4, ![8, 4, 512, 512]⟩
abbrev S8x12x512x512 : Shape := ⟨4, ![8, 12, 512, 512]⟩
abbrev S12 : Shape := ⟨1, ![12]⟩
abbrev S8x512x512 : Shape := ⟨3, ![8, 512, 512]⟩
abbrev S_ : Shape := ⟨0, ![]⟩
abbrev S8x512x512x1 : Shape := ⟨4, ![8, 512, 512, 1]⟩
abbrev S8x1x512x512 : Shape := ⟨4, ![8, 1, 512, 512]⟩
abbrev S1x12x1x1 : Shape := ⟨4, ![1, 12, 1, 1]⟩
abbrev S4 : Shape := ⟨1, ![4]⟩
abbrev S1x4x1x1 : Shape := ⟨4, ![1, 4, 1, 1]⟩
abbrev S12x1 : Shape := ⟨2, ![12, 1]⟩

abbrev nBuf : Space → Nat
  | .hbm => 93
  | .vmem => 0
  | .smem => 0
  | _ => 0

abbrev bufTy : (tb : Table) → Fin (tcTables nBuf tb) → BufTy
  | .hbm, ⟨0, _⟩ => ⟨S8x4x512x512, .f32⟩
  | .hbm, ⟨1, _⟩ => ⟨S8x12x512x512, .f32⟩
  | .hbm, ⟨2, _⟩ => ⟨S12, .f32⟩
  | .hbm, ⟨3, _⟩ => ⟨S8x512x512, .i32⟩
  | .hbm, ⟨4, _⟩ => ⟨S12, .i32⟩
  | .hbm, ⟨5, _⟩ => ⟨S_, .i32⟩
  | .hbm, ⟨6, _⟩ => ⟨S8x512x512, .i32⟩
  | .hbm, ⟨7, _⟩ => ⟨S8x512x512, .i1⟩
  | .hbm, ⟨8, _⟩ => ⟨S_, .i32⟩
  | .hbm, ⟨9, _⟩ => ⟨S8x512x512, .i32⟩
  | .hbm, ⟨10, _⟩ => ⟨S8x512x512, .i32⟩
  | .hbm, ⟨11, _⟩ => ⟨S8x512x512, .i32⟩
  | .hbm, ⟨12, _⟩ => ⟨S8x512x512x1, .i32⟩
  | .hbm, ⟨13, _⟩ => ⟨S8x512x512, .i32⟩
  | .hbm, ⟨14, _⟩ => ⟨S12, .i32⟩
  | .hbm, ⟨15, _⟩ => ⟨S8x1x512x512, .i32⟩
  | .hbm, ⟨16, _⟩ => ⟨S1x12x1x1, .i32⟩
  | .hbm, ⟨17, _⟩ => ⟨S8x12x512x512, .i32⟩
  | .hbm, ⟨18, _⟩ => ⟨S8x12x512x512, .i32⟩
  | .hbm, ⟨19, _⟩ => ⟨S8x12x512x512, .i1⟩
  | .hbm, ⟨20, _⟩ => ⟨S8x12x512x512, .f32⟩
  | .hbm, ⟨21, _⟩ => ⟨S4, .i32⟩
  | .hbm, ⟨22, _⟩ => ⟨S8x1x512x512, .i32⟩
  | .hbm, ⟨23, _⟩ => ⟨S1x4x1x1, .i32⟩
  | .hbm, ⟨24, _⟩ => ⟨S8x4x512x512, .i32⟩
  | .hbm, ⟨25, _⟩ => ⟨S8x4x512x512, .i32⟩
  | .hbm, ⟨26, _⟩ => ⟨S8x4x512x512, .i1⟩
  | .hbm, ⟨27, _⟩ => ⟨S8x4x512x512, .f32⟩
  | .hbm, ⟨28, _⟩ => ⟨S8x4x512x512, .f32⟩
  | .hbm, ⟨29, _⟩ => ⟨S_, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4, .f32⟩
  | .hbm, ⟨41, _⟩ => ⟨S4, .f32⟩
  | .hbm, ⟨42, _⟩ => ⟨S_, .f32⟩
  | .hbm, ⟨43, _⟩ => ⟨S4, .f32⟩
  | .hbm, ⟨44, _⟩ => ⟨S4, .f32⟩
  | .hbm, ⟨45, _⟩ => ⟨S4, .f32⟩
  | .hbm, ⟨46, _⟩ => ⟨S_, .f32⟩
  | .hbm, ⟨47, _⟩ => ⟨S4, .f32⟩
  | .hbm, ⟨48, _⟩ => ⟨S4, .f32⟩
  | .hbm, ⟨49, _⟩ => ⟨S_, .f32⟩
  | .hbm, ⟨50, _⟩ => ⟨S_, .f32⟩
  | .hbm, ⟨51, _⟩ => ⟨S8x12x512x512, .f32⟩
  | .hbm, ⟨52, _⟩ => ⟨S_, .f32⟩
  | .hbm, ⟨53, _⟩ => ⟨S12, .f32⟩
  | .hbm, ⟨54, _⟩ => ⟨S_, .f32⟩
  | .hbm, ⟨55, _⟩ => ⟨S12, .f32⟩
  | .hbm, ⟨56, _⟩ => ⟨S_, .f32⟩
  | .hbm, ⟨57, _⟩ => ⟨S12, .f32⟩
  | .hbm, ⟨58, _⟩ => ⟨S_, .f32⟩
  | .hbm, ⟨59, _⟩ => ⟨S12, .f32⟩
  | .hbm, ⟨60, _⟩ => ⟨S12, .f32⟩
  | .hbm, ⟨61, _⟩ => ⟨S_, .f32⟩
  | .hbm, ⟨62, _⟩ => ⟨S12, .f32⟩
  | .hbm, ⟨63, _⟩ => ⟨S12, .f32⟩
  | .hbm, ⟨64, _⟩ => ⟨S12, .f32⟩
  | .hbm, ⟨65, _⟩ => ⟨S_, .f32⟩
  | .hbm, ⟨66, _⟩ => ⟨S12, .f32⟩
  | .hbm, ⟨67, _⟩ => ⟨S12, .f32⟩
  | .hbm, ⟨68, _⟩ => ⟨S12, .f32⟩
  | .hbm, ⟨69, _⟩ => ⟨S_, .f32⟩
  | .hbm, ⟨70, _⟩ => ⟨S12, .f32⟩
  | .hbm, ⟨71, _⟩ => ⟨S12, .f32⟩
  | .hbm, ⟨72, _⟩ => ⟨S12, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .i32⟩
  | .hbm, ⟨84, _⟩ => ⟨S12, .i32⟩
  | .hbm, ⟨85, _⟩ => ⟨S12, .i1⟩
  | .hbm, ⟨86, _⟩ => ⟨S_, .i32⟩
  | .hbm, ⟨87, _⟩ => ⟨S12, .i32⟩
  | .hbm, ⟨88, _⟩ => ⟨S12, .i32⟩
  | .hbm, ⟨89, _⟩ => ⟨S12, .i32⟩
  | .hbm, ⟨90, _⟩ => ⟨S12x1, .i32⟩
  | .hbm, ⟨91, _⟩ => ⟨S8x12x512x512, .f32⟩
  | .hbm, ⟨92, _⟩ => ⟨S8x12x512x512, .f32⟩
  | _, _ => ⟨S8x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_14 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_15 : Ref sig .tc := ⟨.hbm, 73, rfl⟩
abbrev main_v51 : Ref sig .tc := ⟨.hbm, 74, rfl⟩
abbrev main_cst_16 : Ref sig .tc := ⟨.hbm, 75, rfl⟩
abbrev main_v52 : Ref sig .tc := ⟨.hbm, 76, rfl⟩
abbrev main_cst_17 : Ref sig .tc := ⟨.hbm, 77, rfl⟩
abbrev main_v53 : Ref sig .tc := ⟨.hbm, 78, rfl⟩
abbrev main_cst_18 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_19 : Ref sig .tc := ⟨.hbm, 83, rfl⟩
abbrev main_v57 : Ref sig .tc := ⟨.hbm, 84, rfl⟩
abbrev main_v58 : Ref sig .tc := ⟨.hbm, 85, rfl⟩
abbrev main_c_20 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩

abbrev nD : Nat := 1
abbrev τ : Topo := Topo.v7x

variable {F : FTy → Type} [FloatOps F]

class Facts₀ : Prop where
  bcast_S_S8x512x512 : S_.BroadcastsInDim S8x512x512 (![] : Fin 0 → Fin S8x512x512.rank)
  bcast_S8x512x512_S8x512x512x1_0_1_2 : S8x512x512.BroadcastsInDim S8x512x512x1 (![0, 1, 2] : Fin 3 → Fin S8x512x512x1.rank)
  bcast_S8x512x512_S8x1x512x512_0_2_3 : S8x512x512.BroadcastsInDim S8x1x512x512 (![0, 2, 3] : Fin 3 → Fin S8x1x512x512.rank)
  bcast_S12_S1x12x1x1_1 : S12.BroadcastsInDim S1x12x1x1 (![1] : Fin 1 → Fin S1x12x1x1.rank)
  bcast_S8x1x512x512_S8x12x512x512_0_1_2_3 : S8x1x512x512.BroadcastsInDim S8x12x512x512 (![0, 1, 2, 3] : Fin 4 → Fin S8x12x512x512.rank)
  bcast_S1x12x1x1_S8x12x512x512_0_1_2_3 : S1x12x1x1.BroadcastsInDim S8x12x512x512 (![0, 1, 2, 3] : Fin 4 → Fin S8x12x512x512.rank)
  bcast_S4_S1x4x1x1_1 : S4.BroadcastsInDim S1x4x1x1 (![1] : Fin 1 → Fin S1x4x1x1.rank)
  bcast_S8x1x512x512_S8x4x512x512_0_1_2_3 : S8x1x512x512.BroadcastsInDim S8x4x512x512 (![0, 1, 2, 3] : Fin 4 → Fin S8x4x512x512.rank)
  bcast_S1x4x1x1_S8x4x512x512_0_1_2_3 : S1x4x1x1.BroadcastsInDim S8x4x512x512 (![0, 1, 2, 3] : Fin 4 → Fin S8x4x512x512.rank)
  reducesTo_S8x4x512x512_S4_d0_2_3 : S8x4x512x512.ReducesTo [0, 2, 3] S4
  h_S_ : 0 < S_.numel
  bcast_S_S4 : S_.BroadcastsInDim S4 (![] : Fin 0 → Fin S4.rank)
  reducesTo_S4_S_d0 : S4.ReducesTo [0] S_
  reducesTo_S8x12x512x512_S12_d0_2_3 : S8x12x512x512.ReducesTo [0, 2, 3] S12
  bcast_S_S12 : S_.BroadcastsInDim S12 (![] : Fin 0 → Fin S12.rank)
  reducesTo_S12_S_d0 : S12.ReducesTo [0] S_
  bcast_S12_S12x1_0 : S12.BroadcastsInDim S12x1 (![0] : Fin 1 → Fin S12x1.rank)
  gather_S12_S8x512x512x1_S8x512x512_n_0_n_n_0_3_1_wf : GatherDims.WF S12 S8x512x512x1 S8x512x512 [] [0] [] [0] [] 3 ![1]
  gather_S8x4x512x512_S12x1_S8x12x512x512_023_1_n_n_1_1_81512512_wf : GatherDims.WF S8x4x512x512 S12x1 S8x12x512x512 [0, 2, 3] [1] [] [1] [] 1 ![8, 1, 512, 512]

variable [Facts₀]

def gather_S12_S8x512x512x1_S8x512x512_n_0_n_n_0_3_1 : GatherDims S12 S8x512x512x1 S8x512x512 where
  offsetDims := []
  collapsedSliceDims := [0]
  operandBatchingDims := []
  startIndicesBatchingDims := []
  startIndexMap := [0]
  indexVectorDim := 3
  sliceSizes := ![1]
  wf := gather_S12_S8x512x512x1_S8x512x512_n_0_n_n_0_3_1_wf
def gather_S8x4x512x512_S12x1_S8x12x512x512_023_1_n_n_1_1_81512512 : GatherDims S8x4x512x512 S12x1 S8x12x512x512 where
  offsetDims := [0, 2, 3]
  collapsedSliceDims := [1]
  operandBatchingDims := []
  startIndicesBatchingDims := []
  startIndexMap := [1]
  indexVectorDim := 1
  sliceSizes := ![8, 1, 512, 512]
  wf := gather_S8x4x512x512_S12x1_S8x12x512x512_023_1_n_n_1_1_81512512_wf

class Facts : Prop extends Facts₀ where

variable [Facts]
-- ==== Proof.PreDecode.lean ====
/-
  The precondition read back: it is the conjunction of five "all entries satisfy" tests, three of finiteness (not
  needed here) and two of range, each a reduction by "and" of an elementwise test. From its being all ones: every label
  is inside 0 … 11 and every class's superclass is inside 0 … 3. A word that is at least 0 and below n as a signed
  integer is below n as a natural number.
-/
import proofs.«402975_j51522427682884_1_alg».proof.Pre_finite_inputs
import proofs.«402975_j51522427682884_1_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.Pre_finite_inputs.Decode

open Cert.Pre_finite_inputs Idealize.ShloMosaic Idealize.ShloMosaic.ValueIdx

/-- The scalar shape has one index. -/
private instance : Subsingleton S_.Idx := ⟨fun a b => funext fun d => d.elim0⟩

/-- A word that is at least 0 and below n as a signed integer is below n as a natural number. -/
private theorem toNat_lt_of_signed (v : BitVec 32) (n : Nat) (hn : n < 2 ^ 31)
    (h0 : (0#32 : BitVec 32).toInt ≤ v.toInt) (h1 : v.toInt < (BitVec.ofNat 32 n).toInt) : v.toNat < n := by
  have z : (0#32 : BitVec 32).toInt = 0 := by decide
  rw [z] at h0
  have hv : 2 * v.toNat < 2 ^ 32 := BitVec.toInt_pos_iff.1 h0
  rw [BitVec.toInt_eq_toNat_of_lt hv, StableHlo.Predicate.toInt_ofNat_small n hn] at h1
  omega

/-- The elementwise range test "a ≥ lo and a < hi" being 1 at an index, with lo 0 and hi n there. -/
private theorem range_of_tests {s : Shape} {a lo hi : IVec s 32} {j : s.Idx}
    (e : andi (cmpi .sge a lo) (cmpi .slt a hi) j = 1#1) (n : Nat) (hn : n < 2 ^ 31)
    (hlo : lo j = 0#32) (hhi : hi j = BitVec.ofNat 32 n) : (a j).toNat < n := by
  have e' : IntOp.andi (IntOp.cmpi .sge (a j) (lo j)) (IntOp.cmpi .slt (a j) (hi j)) = 1#1 := e
  obtain ⟨e0, e1⟩ := IntOp.andi_eq_one.1 e'
  have g0 : (lo j).toInt ≤ (a j).toInt := IntOp.cmpi_sge.1 e0
  have g1 : (a j).toInt < (hi j).toInt := IntOp.cmpi_slt.1 e1
  rw [hlo] at g0
  rw [hhi] at g1
  exact toNat_lt_of_signed _ n hn g0 g1

/-- The two ranges the precondition states. -/
theorem ranges_of_pre (a0 : FVec Ideal S8x4x512x512 .f32) (a1 : FVec Ideal S8x12x512x512 .f32) (a2 : FVec Ideal S12 .f32)
    (a3 : IVec S8x512x512 32) (a4 : IVec S12 32)
    (h : Cert.Pre_finite_inputs.fn (F := Ideal) a0 a1 a2 a3 a4 = fun _ => 1#1) :
    (∀ i, (a3 i).toNat < 12) ∧ (∀ k, (a4 k).toNat < 4) := by
  -- the result at its one index: an "and" of the first four tests with the last
  have h0 : Cert.Pre_finite_inputs.fn (F := Ideal) a0 a1 a2 a3 a4 ix0 = 1#1 := congrFun h ix0
  have e1 := IntOp.andi_eq_one.1 h0
  have e2 := IntOp.andi_eq_one.1 e1.1
  refine ⟨fun i => ?_, fun k => ?_⟩
  · -- the fourth test: every label is at least 0 and below 12
    have t := Host.reduce_andi_all _ _ _ _ ix0 e2.2 i
    exact range_of_tests t 12 (by norm_num) rfl rfl
  · -- the fifth test: every class's superclass is at least 0 and below 4
    have t := Host.reduce_andi_all _ _ _ _ ix0 e1.2 k
    exact range_of_tests t 4 (by norm_num) rfl rfl

end Cert.Pre_finite_inputs.Decode

end
-- ==== Proof.Spec.lean ====
/-
  The mathematics both programs compute, stated once over the argument arrays at the extended reals.

  Arrays: superclass scores sup[b, s, h, w] (8 x 4 x 512 x 512), class scores cls[b, c, h, w]
  (8 x 12 x 512 x 512), class weights wts[c] (12), integer labels tgt[b, h, w] (8 x 512 x 512) and the
  class-to-superclass map sub[c] (12).

  * the one-hot of the labels: hot (tgt[b,h,w]) c, which is 1 when the label is c and 0 otherwise;
  * the table wt[c, s] = hot (sub[c]) s;
  * the super one-hot: 1 when sub[tgt[b,h,w]] is s — mixed by the kernel as the sum over c of
    hot (tgt[b,h,w]) c * wt[c, s], a sum with at most one non-zero term;
  * the gathered super score sup[b, sub[c], h, w] — mixed by the kernel as the sum over s of
    wt[c, s] * sup[b,s,h,w], accumulated from zero;
  * three sums over (b, h, w) per class and per superclass — taken by the kernel tile by tile (64 rows of one batch
    entry at a time) and then over the 8 x 8 tiles — and from them the dice loss.
-/
import Idealize.ShloMosaic.PureOps.Ideal
import Idealize.ShloMosaic.Lib.ValueIdx

noncomputable section

namespace Cert.Dice

open Idealize.ShloMosaic Idealize.ShloMosaic.ValueIdx

abbrev ShSup : Shape := ⟨4, ![8, 4, 512, 512]⟩
abbrev ShCls : Shape := ⟨4, ![8, 12, 512, 512]⟩
abbrev ShTgt : Shape := ⟨3, ![8, 512, 512]⟩
abbrev Sh12 : Shape := ⟨1, ![12]⟩
abbrev Sh4 : Shape := ⟨1, ![4]⟩
abbrev Sh12x4 : Shape := ⟨2, ![12, 4]⟩

/-- 1 when the word is the number k, 0 otherwise. -/
def hot (t : BitVec 32) (k : Nat) : EReal := if t = BitVec.ofNat 32 k then 1 else 0

/-- The label one-hot, [8, 12, 512, 512]. -/
def oneHot (tgt : ShTgt.Idx → BitVec 32) : ShCls.Idx → EReal :=
  fun i => hot (tgt (ix3 (i 0) (i 2) (i 3))) (i 1).val

/-- The class-to-superclass one-hot table, [12, 4]. -/
def mixW (sub : Sh12.Idx → BitVec 32) : Sh12x4.Idx → EReal :=
  fun i => hot (sub (ix1 (i 0))) (i 1).val

/-- The super one-hot mixed through a table wt[c, s]: a sum over the twelve classes. -/
def superHotBy (wt : Sh12x4.Idx → EReal) (tgt : ShTgt.Idx → BitVec 32) : ShSup.Idx → EReal :=
  fun i => ∑ c : Fin 12, hot (tgt (ix3 (i 0) (i 2) (i 3))) c.val * wt (ix2 c (i 1))

/-- The super score mixed through a table wt[c, s], accumulated from zero over the four superclasses. -/
def gatheredBy (wt : Sh12x4.Idx → EReal) (sup : ShSup.Idx → EReal) : ShCls.Idx → EReal :=
  fun i => (((0 + wt (ix2 (i 1) 0) * sup (ix4 (i 0) 0 (i 2) (i 3)))
      + wt (ix2 (i 1) 1) * sup (ix4 (i 0) 1 (i 2) (i 3)))
      + wt (ix2 (i 1) 2) * sup (ix4 (i 0) 2 (i 2) (i 3)))
      + wt (ix2 (i 1) 3) * sup (ix4 (i 0) 3 (i 2) (i 3))

/-- The super one-hot read directly: 1 when the superclass of the pixel's label is s (the label held inside 0 … 11). -/
def superHotAt (sub : Sh12.Idx → BitVec 32) (tgt : ShTgt.Idx → BitVec 32) : ShSup.Idx → EReal :=
  fun i => hot (sub (ix1 ⟨min (tgt (ix3 (i 0) (i 2) (i 3))).toNat 11, by omega⟩)) (i 1).val

/-- The super score of class c's superclass, read directly (the superclass held inside 0 … 3). -/
def gatheredAt (sub : Sh12.Idx → BitVec 32) (sup : ShSup.Idx → EReal) : ShCls.Idx → EReal :=
  fun i => sup (ix4 (i 0) ⟨min (sub (ix1 (i 1))).toNat 3, by omega⟩ (i 2) (i 3))

/-- The sum over batch, row and column of one channel k of a [8, K, 512, 512] array. -/
def chanSum {K : Nat} (x : (⟨4, ![8, K, 512, 512]⟩ : Shape).Idx → EReal) (k : Fin K) : EReal :=
  ∑ b : Fin 8, ∑ h : Fin 512, ∑ w : Fin 512, x (ix4 b k h w)

/-- Row h of tile t: row 64 t + h of the picture. -/
def tileRow (t : Fin 8) (h : Fin 64) : Fin 512 := ⟨t.val * 64 + h.val, by omega⟩

/-- The sum over one tile (batch entry b, rows 64 t … 64 t + 63, all columns) of channel k. -/
def tileSum {K : Nat} (x : (⟨4, ![8, K, 512, 512]⟩ : Shape).Idx → EReal) (b t : Fin 8) (k : Fin K) : EReal :=
  ∑ h : Fin 64, ∑ w : Fin 512, x (ix4 b k (tileRow t h) w)

/-- A statistics array [8, 8, 3, K]: at (b, t, r, k) the tile sum of the r-th of three arrays. -/
def statsArr {K : Nat} (x0 x1 x2 : (⟨4, ![8, K, 512, 512]⟩ : Shape).Idx → EReal) :
    (⟨4, ![8, 8, 3, K]⟩ : Shape).Idx → EReal :=
  fun i => if (i 2).val = 0 then tileSum x0 (i 0) (i 1) (i 3)
    else if (i 2).val = 1 then tileSum x1 (i 0) (i 1) (i 3) else tileSum x2 (i 0) (i 1) (i 3)

/-- Row r of a statistics array summed over the 8 x 8 tiles, from zero. -/
def tilesSum {K : Nat} (A : (⟨4, ![8, 8, 3, K]⟩ : Shape).Idx → EReal) (r : Fin 3) (k : Fin K) : EReal :=
  0 + ∑ b : Fin 8, ∑ t : Fin 8, A (ix4 b t r k)

/-- One dice term from the three sums of a channel. -/
def dice (inter isum tsum : EReal) : EReal :=
  Ideal.ofBits .f32 0x3F800000#32
    - Ideal.div (Ideal.ofBits .f32 0x40000000#32 * inter + Ideal.ofBits .f32 0x33D6BF95#32)
        (isum + tsum + Ideal.ofBits .f32 0x33D6BF95#32)

/-- The loss from the six families of sums and the class weights. -/
def lossOf (ic sc tc : Fin 12 → EReal) (is ss ts : Fin 4 → EReal) (wts : Fin 12 → EReal) : EReal :=
  Ideal.div (Ideal.ofBits .f32 0x3DCCCCCD#32 * (0 + ∑ s : Fin 4, dice (is s) (ss s) (ts s))) (Ideal.ofBits .f32 0x40800000#32)
    + Ideal.div (0 + ∑ c : Fin 12, dice (ic c) (sc c) (tc c) * wts c) (0 + ∑ c : Fin 12, wts c)

end Cert.Dice

end
-- ==== Proof.SpecLaws.lean ====
/-
  The laws that join the kernel's arrangement to the reference's:
  * rows 0 … 511 are the 8 tiles of 64 rows, so a sum over the rows is the sum over the tiles of the sums inside a tile;
  * hence a channel's sum over (batch, row, column) is the sum over the 8 x 8 tiles of its tile sums, which is what
    summing a statistics array over its tiles gives;
  * with the label inside 0 … 11, the twelve-term mix of the label one-hot through the table hot (sub[c]) s has one
    non-zero term, the label's own: it is the super one-hot read directly;
  * with the superclass inside 0 … 3, the four-term mix of the super scores through the same table, accumulated from
    zero, has one non-zero term: the gathered score. (0 * x = 0 and 0 + x = x hold for every extended real.)
-/
import proofs.«402975_j51522427682884_1_alg».proof.Proof.Spec
import Mathlib.Logic.Equiv.Fin.Basic
import Mathlib.Data.Fintype.BigOperators

noncomputable section

namespace Cert.Dice

open Idealize.ShloMosaic Idealize.ShloMosaic.ValueIdx

/-- A sum over the 512 rows, tile by tile. -/
theorem sum_tiles {M : Type*} [AddCommMonoid M] (g : Fin 512 → M) :
    ∑ t : Fin 8, ∑ h : Fin 64, g (tileRow t h) = ∑ H : Fin 512, g H := by
  -- the double sum is the sum over the pairs (t, h); the pairs are the rows through (t, h) ↦ h + 64 t
  refine (Fintype.sum_prod_type' (fun (t : Fin 8) (h : Fin 64) => g (tileRow t h))).symm.trans ?_
  refine Fintype.sum_equiv (finProdFinEquiv (m := 8) (n := 64)) _ g fun p => congrArg g (Fin.ext ?_)
  show p.1.val * 64 + p.2.val = p.2.val + 64 * p.1.val
  omega

/-- A channel's sum is the sum over the tiles of its tile sums. -/
theorem chanSum_eq_tiles {K : Nat} (x : (⟨4, ![8, K, 512, 512]⟩ : Shape).Idx → EReal) (k : Fin K) :
    chanSum x k = ∑ b : Fin 8, ∑ t : Fin 8, tileSum x b t k := by
  unfold chanSum tileSum
  refine Finset.sum_congr rfl fun b _ => ?_
  exact (sum_tiles (fun H : Fin 512 => ∑ w : Fin 512, x (ix4 b k H w))).symm

/-- Row 0, 1 or 2 of a statistics array, summed over the tiles from zero, is the channel sum of that row's array. -/
theorem tilesSum_statsArr0 {K : Nat} (x0 x1 x2 : (⟨4, ![8, K, 512, 512]⟩ : Shape).Idx → EReal) (k : Fin K) :
    tilesSum (statsArr x0 x1 x2) 0 k = chanSum x0 k := by
  unfold tilesSum statsArr
  rw [zero_add, chanSum_eq_tiles]
  refine Finset.sum_congr rfl fun b _ => Finset.sum_congr rfl fun t _ => ?_
  -- the row coordinate is 0: the first branch
  exact if_pos rfl
theorem tilesSum_statsArr1 {K : Nat} (x0 x1 x2 : (⟨4, ![8, K, 512, 512]⟩ : Shape).Idx → EReal) (k : Fin K) :
    tilesSum (statsArr x0 x1 x2) 1 k = chanSum x1 k := by
  unfold tilesSum statsArr
  rw [zero_add, chanSum_eq_tiles]
  refine Finset.sum_congr rfl fun b _ => Finset.sum_congr rfl fun t _ => ?_
  -- the row coordinate is 1: not the first branch, the second
  exact (if_neg (show ¬ ((1 : Fin 3).val = 0) by decide)).trans (if_pos rfl)
theorem tilesSum_statsArr2 {K : Nat} (x0 x1 x2 : (⟨4, ![8, K, 512, 512]⟩ : Shape).Idx → EReal) (k : Fin K) :
    tilesSum (statsArr x0 x1 x2) 2 k = chanSum x2 k := by
  unfold tilesSum statsArr
  rw [zero_add, chanSum_eq_tiles]
  refine Finset.sum_congr rfl fun b _ => Finset.sum_congr rfl fun t _ => ?_
  -- the row coordinate is 2: neither the first branch nor the second
  exact (if_neg (show ¬ ((2 : Fin 3).val = 0) by decide)).trans
    (if_neg (show ¬ ((2 : Fin 3).val = 1) by decide))

/-- For a number below 2^32, the one-hot test on words is the test on their values. -/
private theorem hot_eq (t : BitVec 32) (k : Nat) (hk : k < 2 ^ 32) :
    hot t k = if t.toNat = k then 1 else 0 := by
  unfold hot
  by_cases h : t.toNat = k
  · have e : t = BitVec.ofNat 32 k := by
      apply BitVec.eq_of_toNat_eq
      rw [BitVec.toNat_ofNat, h]
      exact (Nat.mod_eq_of_lt hk).symm
    rw [if_pos h, if_pos e]
  · have e : ¬ t = BitVec.ofNat 32 k := by
      intro e
      apply h
      rw [e, BitVec.toNat_ofNat]
      exact Nat.mod_eq_of_lt hk
    rw [if_neg h, if_neg e]

/-- A twelve-term mix through the one-hot of a word below 12 picks that word's term. -/
private theorem mix12 (t : BitVec 32) (ht : t.toNat < 12) (g : Fin 12 → EReal) (hm : min t.toNat 11 < 12) :
    ∑ c : Fin 12, hot t c.val * g c = g ⟨min t.toNat 11, hm⟩ := by
  have e : (⟨min t.toNat 11, hm⟩ : Fin 12) = ⟨t.toNat, ht⟩ :=
    Fin.ext (show min t.toNat 11 = t.toNat by omega)
  rw [e, Finset.sum_eq_single (⟨t.toNat, ht⟩ : Fin 12)]
  · -- the word's own class: the one-hot is 1
    have h1 : hot t t.toNat = 1 := by rw [hot_eq t t.toNat (by omega), if_pos rfl]
    exact (congrArg (· * g ⟨t.toNat, ht⟩) h1).trans (one_mul _)
  · -- any other class: the one-hot is 0
    intro c _ hc
    have hne : ¬ t.toNat = c.val := fun e => hc (Fin.ext e.symm)
    rw [hot_eq t c.val (by omega), if_neg hne, zero_mul]
  · intro h
    exact absurd (Finset.mem_univ _) h

/-- The mixed super one-hot is the super one-hot read directly, where the label is inside 0 … 11. -/
theorem superHotBy_mixW (sub : Sh12.Idx → BitVec 32) (tgt : ShTgt.Idx → BitVec 32) (i : ShSup.Idx)
    (ht : (tgt (ix3 (i 0) (i 2) (i 3))).toNat < 12) :
    superHotBy (mixW sub) tgt i = superHotAt sub tgt i := by
  unfold superHotBy superHotAt mixW
  exact mix12 (tgt (ix3 (i 0) (i 2) (i 3))) ht (fun c => hot (sub (ix1 c)) (i 1).val) _

/-- The four-term mix, accumulated from zero, through the tests "n is 0", …, "n is 3" of a number below 4. -/
private theorem mix4_nat (n : Nat) (hn : n < 4) (f : Fin 4 → EReal) :
    (((0 + (if n = 0 then 1 else 0) * f 0) + (if n = 1 then 1 else 0) * f 1)
        + (if n = 2 then 1 else 0) * f 2) + (if n = 3 then 1 else 0) * f 3 = f ⟨n, hn⟩ := by
  match n, hn with
  | 0, _ =>
    show (((0 + 1 * f 0) + 0 * f 1) + 0 * f 2) + 0 * f 3 = f 0
    rw [one_mul, zero_mul, zero_mul, zero_mul, zero_add, add_zero, add_zero, add_zero]
  | 1, _ =>
    show (((0 + 0 * f 0) + 1 * f 1) + 0 * f 2) + 0 * f 3 = f 1
    rw [one_mul, zero_mul, zero_mul, zero_mul, zero_add, zero_add, add_zero, add_zero]
  | 2, _ =>
    show (((0 + 0 * f 0) + 0 * f 1) + 1 * f 2) + 0 * f 3 = f 2
    rw [one_mul, zero_mul, zero_mul, zero_mul, zero_add, zero_add, zero_add, add_zero]
  | 3, _ =>
    show (((0 + 0 * f 0) + 0 * f 1) + 0 * f 2) + 1 * f 3 = f 3
    rw [one_mul, zero_mul, zero_mul, zero_mul, zero_add, zero_add, zero_add, zero_add]
  | n + 4, h => exact absurd h (by omega)

/-- A four-term mix through the one-hot of a word below 4, accumulated from zero, picks that word's term. -/
private theorem mix4 (v : BitVec 32) (hv : v.toNat < 4) (f : Fin 4 → EReal) (hm : min v.toNat 3 < 4) :
    (((0 + hot v 0 * f 0) + hot v 1 * f 1) + hot v 2 * f 2) + hot v 3 * f 3
      = f ⟨min v.toNat 3, hm⟩ := by
  have e : (⟨min v.toNat 3, hm⟩ : Fin 4) = ⟨v.toNat, hv⟩ :=
    Fin.ext (show min v.toNat 3 = v.toNat by omega)
  rw [e, hot_eq v 0 (by norm_num), hot_eq v 1 (by norm_num), hot_eq v 2 (by norm_num), hot_eq v 3 (by norm_num)]
  exact mix4_nat v.toNat hv f

/-- The mixed super score is the gathered one, where the class's superclass is inside 0 … 3. -/
theorem gatheredBy_mixW (sub : Sh12.Idx → BitVec 32) (sup : ShSup.Idx → EReal) (i : ShCls.Idx)
    (hs : (sub (ix1 (i 1))).toNat < 4) :
    gatheredBy (mixW sub) sup i = gatheredAt sub sup i := by
  unfold gatheredBy gatheredAt mixW
  exact mix4 (sub (ix1 (i 1))) hs (fun s => sup (ix4 (i 0) s (i 2) (i 3))) _

end Cert.Dice

end
-- ==== Proof.KernelBlocksC.lean ====
/-
  What one grid point leaves in three of its output blocks, read at an index, as a function of its input blocks:
  the class-to-superclass table wt[c, s] (12 x 4), the class scores x[0, c, h, w] (1 x 12 x 64 x 512), the superclass
  scores y[0, s, h, w] (1 x 4 x 64 x 512) and the labels t[0, h, w] (1 x 64 x 512). Here: the label one-hot block,
  the product block and the class statistics block (three rows of twelve sums over the tile).
-/
import proofs.«402975_j51522427682884_1_alg».proof.Proof.Gen.KernelIdeal.Frame
import proofs.«402975_j51522427682884_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks

open Cert.KernelIdeal Cert.KernelIdeal.Gen Cert.Dice
open Idealize.ShloMosaic Idealize.ShloMosaic.ValueIdx

variable (wt : S12x4.Idx → EReal) (x : S1x12x64x512.Idx → EReal) (y : S1x4x64x512.Idx → EReal) (t : S1x64x512.Idx → BitVec 32)

/-! ## Zero offsets, however spelt -/

private theorem zeros2 : (![0, 0] : Fin 2 → Nat) = fun _ => 0 := funext fun a => by fin_cases a <;> rfl
private theorem zeros3 : (![0, 0, 0] : Fin 3 → Nat) = fun _ => 0 := funext fun a => by fin_cases a <;> rfl
private theorem zeros4 : (![0, 0, 0, 0] : Fin 4 → Nat) = fun _ => 0 := funext fun a => by fin_cases a <;> rfl

/-! ## The one-hot of a label word -/

/-- The comparison bit of a word with the number k, widened and read as a signed integer, is 1 or 0: the one-hot. -/
private theorem hot_word (a : BitVec 32) (k : Nat) :
    FloatOps.sitofp (F := Ideal) .f32 ((IntOp.cmpi .eq a (BitVec.ofNat 32 k)).setWidth 32) = hot a k := by
  show ((((BitVec.ofBool (a == BitVec.ofNat 32 k)).setWidth 32).toInt : ℝ) : EReal) = hot a k
  unfold hot
  by_cases h : a = BitVec.ofNat 32 k
  · rw [if_pos h, show (a == BitVec.ofNat 32 k) = true from by simpa using h,
      show ((BitVec.ofBool true).setWidth 32).toInt = 1 from by decide]
    simp
  · rw [if_neg h, show (a == BitVec.ofNat 32 k) = false from by simpa using h,
      show ((BitVec.ofBool false).setWidth 32).toInt = 0 from by decide]
    simp

/-- The labels viewed [64, 512], viewed [1, 64, 512] again and repeated over the twelve classes read the label of the pixel. -/
private theorem labels_repeated (c : Fin 12) (h : Fin 64) (w : Fin 512) :
    broadcastTo S12x64x512 (shapeCast S1x64x512 (shapeCast S1x64x512 (shapeCast S64x512 t shapeCasts_S1x64x512_S64x512)
      shapeCasts_S64x512_S1x64x512) shapeCasts_S1x64x512_S1x64x512) broadcasts_S1x64x512_S12x64x512 (ix3 c h w)
      = t (ix3 0 h w) := by
  rw [shapeCast_self, shapeCast_shapeCast]
  exact broadcastTo_apply t _ (ix3 c h w) (ix3 0 h w) (fun a => by
    match a with
    | ⟨0, _⟩ => rfl
    | ⟨1, _⟩ => rfl
    | ⟨2, _⟩ => rfl)

/-- The body's one-hot at (c, h, w): 1 where the pixel's label word is the class number c. -/
private theorem pay2_apply (c : Fin 12) (h : Fin 64) (w : Fin 512) :
    k0_pay2 (F := Ideal) t (ix3 c h w) = hot (t (ix3 0 h w)) c.val := by
  unfold k0_pay2
  show FloatOps.sitofp (F := Ideal) .f32 ((IntOp.cmpi .eq
      (broadcastTo S12x64x512 (shapeCast S1x64x512 (shapeCast S1x64x512 (shapeCast S64x512 t shapeCasts_S1x64x512_S64x512)
        shapeCasts_S64x512_S1x64x512) shapeCasts_S1x64x512_S1x64x512) broadcasts_S1x64x512_S12x64x512 (ix3 c h w))
      (iota .tc S12x64x512 32 [0] iota_S12x64x512_d0_w32 (ix3 c h w))).setWidth 32) = _
  rw [labels_repeated, iota_single_apply]
  exact hot_word _ _

/-- A [12, 64, 512] value stored as a [1, 12, 64, 512] block. -/
private theorem stored4 {α : Type} (v : S12x64x512.Idx → α) (hc : S12x64x512.ShapeCasts S1x12x64x512)
    (c : Fin 12) (h : Fin 64) (w : Fin 512) : shapeCast S1x12x64x512 v hc (ix4 0 c h w) = v (ix3 c h w) :=
  shapeCast_abc_1abc_apply v hc 0 c h w

/-- A [1, 12, 64, 512] block read as a [12, 64, 512] value. -/
private theorem loaded4 {α : Type} {n : Nat} (v : (⟨4, ![1, n, 64, 512]⟩ : Shape).Idx → α)
    (hc : (⟨4, ![1, n, 64, 512]⟩ : Shape).ShapeCasts ⟨3, ![n, 64, 512]⟩)
    (c : Fin n) (h : Fin 64) (w : Fin 512) : shapeCast ⟨3, ![n, 64, 512]⟩ v hc (ix3 c h w) = v (ix4 0 c h w) :=
  shapeCast_1abc_abc_apply v hc c h w

/-! ## The product block -/

/-- Column o of the table as a [12] vector, viewed [12, 1, 1] and repeated over the tile, reads the table at (c, o). -/
private theorem column_repeated {α : Type} (v : S12x4.Idx → α) (o : Nat) (s : Fin 4) (ho : s.val = o + (0 : Fin 1).val)
    (hs : S12x4.Slices ![0, o] S12x1) (h1 : S12x1.ShapeCasts S12) (h2 : S12.ShapeCasts S12x1x1)
    (hb : S12x1x1.Broadcasts S12x64x512) (c : Fin 12) (h : Fin 64) (w : Fin 512) :
    broadcastTo S12x64x512 (shapeCast S12x1x1 (shapeCast S12 (extractStridedSlice S12x1 ![0, o] v hs) h1) h2) hb (ix3 c h w)
      = v (ix2 c s) := by
  refine (broadcastTo_apply _ hb (ix3 c h w) (ix3 c (0 : Fin 1) (0 : Fin 1)) (fun a => by
    match a with
    | ⟨0, _⟩ => rfl
    | ⟨1, _⟩ => rfl
    | ⟨2, _⟩ => rfl)).trans ?_
  refine (shapeCast_apply _ h2 (ix3 c (0 : Fin 1) (0 : Fin 1)) (ix1 c) (by
    rw [Shape.rowMajor_val_one, Shape.rowMajor_val_three]
    show c.val = (c.val * 1 + 0) * 1 + 0
    omega)).trans ?_
  refine (shapeCast_apply _ h1 (ix1 c) (ix2 c (0 : Fin 1)) (by
    rw [Shape.rowMajor_val_two, Shape.rowMajor_val_one]
    show c.val * 1 + 0 = c.val
    omega)).trans ?_
  exact slice2_axis1_apply o v hs c (0 : Fin 1) s ho

/-- Plane o of a [4, 64, 512] value, cut out, viewed [64, 512], viewed [1, 64, 512] again and repeated over the twelve
    classes, reads the value at (o, h, w). -/
private theorem plane_repeated {α : Type} (v : S4x64x512.Idx → α) (o : Nat) (s : Fin 4) (ho : s.val = o + (0 : Fin 1).val)
    (hs : S4x64x512.Slices ![o, 0, 0] S1x64x512) (h1 : S1x64x512.ShapeCasts S64x512) (h2 : S64x512.ShapeCasts S1x64x512)
    (hb : S1x64x512.Broadcasts S12x64x512) (c : Fin 12) (h : Fin 64) (w : Fin 512) :
    broadcastTo S12x64x512 (shapeCast S1x64x512 (shapeCast S64x512 (extractStridedSlice S1x64x512 ![o, 0, 0] v hs) h1) h2) hb
      (ix3 c h w) = v (ix3 s h w) := by
  rw [shapeCast_shapeCast]
  refine (broadcastTo_apply _ hb (ix3 c h w) (ix3 (0 : Fin 1) h w) (fun a => by
    match a with
    | ⟨0, _⟩ => rfl
    | ⟨1, _⟩ => rfl
    | ⟨2, _⟩ => rfl)).trans ?_
  exact extractStridedSlice_apply _ v hs (ix3 (0 : Fin 1) h w) (ix3 s h w) (fun a => by
    match a with
    | ⟨0, _⟩ => exact ho
    | ⟨1, _⟩ => exact (Nat.zero_add _).symm
    | ⟨2, _⟩ => exact (Nat.zero_add _).symm)

/-- One term of the mix: the table's entry (c, s) times the super score (s, h, w). -/
private theorem mix_term (o : Nat) (s : Fin 4) (ho : s.val = o + (0 : Fin 1).val)
    (hs : S12x4.Slices ![0, o] S12x1) (h1 : S12x1.ShapeCasts S12) (h2 : S12.ShapeCasts S12x1x1)
    (hb : S12x1x1.Broadcasts S12x64x512)
    (hs' : S4x64x512.Slices ![o, 0, 0] S1x64x512) (h1' : S1x64x512.ShapeCasts S64x512) (h2' : S64x512.ShapeCasts S1x64x512)
    (hb' : S1x64x512.Broadcasts S12x64x512) (hy : S1x4x64x512.ShapeCasts S4x64x512) (c : Fin 12) (h : Fin 64) (w : Fin 512) :
    broadcastTo S12x64x512 (shapeCast S12x1x1 (shapeCast S12 (extractStridedSlice S12x1 ![0, o] wt hs) h1) h2) hb (ix3 c h w)
      * broadcastTo S12x64x512 (shapeCast S1x64x512 (shapeCast S64x512
          (extractStridedSlice S1x64x512 ![o, 0, 0] (shapeCast S4x64x512 y hy) hs') h1') h2') hb' (ix3 c h w)
      = wt (ix2 c s) * y (ix4 0 s h w) :=
  congrArg₂ (· * ·) (column_repeated wt o s ho hs h1 h2 hb c h w)
    ((plane_repeated _ o s ho hs' h1' h2' hb' c h w).trans (loaded4 y hy s h w))

/-! ## The class statistics block -/

/-- A [12] vector stored as a [1, 1, 1, 12] row. -/
private theorem stored_row {α : Type} (v : S12.Idx → α) (hc : S12.ShapeCasts S1x1x1x12) (c : Fin 12) :
    shapeCast S1x1x1x12 v hc (ix4 (0 : Fin 1) (0 : Fin 1) (0 : Fin 1) c) = v (ix1 c) :=
  shapeCast_apply v hc _ _ (by
    rw [Shape.rowMajor_val_one, Shape.rowMajor_val_four]
    show c.val = ((0 * 1 + 0) * 1 + 0) * 12 + c.val
    omega)

/-- Two nested lane sums of a [12, 64, 512] value, over the columns and then over the rows: the double sum over the tile. -/
private theorem tile_sum (v : FVec Ideal S12x64x512 .f32) (h2 : S12x64x512.Reduces [2] S12x64) (h1 : S12x64.Reduces [1] S12)
    (hφ2 hφ1 : FKind.Formats .f32) (hacc2 : (0x00000000#32 : BitVec 32) = FKind.add.neutral .f32 hφ2)
    (hacc1 : (0x00000000#32 : BitVec 32) = FKind.add.neutral .f32 hφ1) (c : Fin 12) :
    multiReduction .add [1] S12 (multiReduction .add [2] S12x64 v 0x00000000#32 h2 hφ2 hacc2) 0x00000000#32 h1 hφ1 hacc1 (ix1 c)
      = ∑ h : Fin 64, ∑ w : Fin 512, v (ix3 c h w) := by
  refine (Ideal.multiReduction_add_single _ 0x00000000#32 h1 hφ1 hacc1 (ix1 c)).trans ?_
  refine Finset.sum_congr rfl fun (h : Fin 64) _ => ?_
  have e1 : h1.lift (ix1 c) h = ix2 c h := funext fun a => Fin.ext (by
    match a with
    | ⟨0, _⟩ => rfl
    | ⟨1, _⟩ => rfl)
  rw [e1]
  refine (Ideal.multiReduction_add_single v 0x00000000#32 h2 hφ2 hacc2 (ix2 c h)).trans ?_
  refine Finset.sum_congr rfl fun (w : Fin 512) _ => ?_
  exact congrArg v (funext fun a => Fin.ext (by
    match a with
    | ⟨0, _⟩ => rfl
    | ⟨1, _⟩ => rfl
    | ⟨2, _⟩ => rfl))

/-- Column c of the row stored at offset row 2 sits at (0, 0, 2, c) of the block. -/
private theorem emb_row2 (c : Fin 12) :
    r0_4.emb (ix4 (0 : Fin 1) (0 : Fin 1) (0 : Fin 1) c) = (ix4 (0 : Fin 1) (0 : Fin 1) (2 : Fin 3) c : S1x1x3x12.Idx) := by
  funext a; refine Fin.ext ?_
  match a with
  | ⟨0, _⟩ => rfl
  | ⟨1, _⟩ => rfl
  | ⟨2, _⟩ => rfl
  | ⟨3, _⟩ => show 0 + 1 * c.val = c.val; omega

/-- … at offset row 1 at (0, 0, 1, c) … -/
private theorem emb_row1 (c : Fin 12) :
    r0_3.emb (ix4 (0 : Fin 1) (0 : Fin 1) (0 : Fin 1) c) = (ix4 (0 : Fin 1) (0 : Fin 1) (1 : Fin 3) c : S1x1x3x12.Idx) := by
  funext a; refine Fin.ext ?_
  match a with
  | ⟨0, _⟩ => rfl
  | ⟨1, _⟩ => rfl
  | ⟨2, _⟩ => rfl
  | ⟨3, _⟩ => show 0 + 1 * c.val = c.val; omega

/-- … and at offset row 0 at (0, 0, 0, c). -/
private theorem emb_row0 (c : Fin 12) :
    r0_2.emb (ix4 (0 : Fin 1) (0 : Fin 1) (0 : Fin 1) c) = (ix4 (0 : Fin 1) (0 : Fin 1) (0 : Fin 3) c : S1x1x3x12.Idx) := by
  funext a; refine Fin.ext ?_
  match a with
  | ⟨0, _⟩ => rfl
  | ⟨1, _⟩ => rfl
  | ⟨2, _⟩ => rfl
  | ⟨3, _⟩ => show 0 + 1 * c.val = c.val; omega

/-- Rows 0 and 1 lie outside the rectangle of the store at row 2 … -/
private theorem not_mem_row2 (r : Fin 3) (hr : r.val < 2) (c : Fin 12) :
    (ix4 (0 : Fin 1) (0 : Fin 1) r c : S1x1x3x12.Idx) ∉ r0_4.set := fun hm =>
  absurd (Rect.mem_set_unit.mp hm 2).1 (show ¬ (2 ≤ r.val) by omega)

/-- … and row 0 outside the rectangle of the store at row 1. -/
private theorem not_mem_row1 (c : Fin 12) :
    (ix4 (0 : Fin 1) (0 : Fin 1) (0 : Fin 3) c : S1x1x3x12.Idx) ∉ r0_3.set := fun hm =>
  absurd (Rect.mem_set_unit.mp hm 2).1 (show ¬ ((1 : Nat) ≤ 0) by decide)

/-- Of the three stores, the one at row 2 gives row 2 … -/
private theorem canon_row2 (p2 p1 p0 : Vec Ideal S1x1x1x12 .f32) (c : Fin 12) :
    View.canon ([⟨r0_4, p2⟩, ⟨r0_3, p1⟩, ⟨r0_2, p0⟩] : List (View.Piece (Elt Ideal) S1x1x3x12 .f32))
      (ix4 (0 : Fin 1) (0 : Fin 1) (2 : Fin 3) c) = p2 (ix4 (0 : Fin 1) (0 : Fin 1) (0 : Fin 1) c) := by
  rw [← emb_row2 c]
  exact View.canon_cons_emb r0_4 p2 _ _

/-- … the one at row 1 gives row 1 … -/
private theorem canon_row1 (p2 p1 p0 : Vec Ideal S1x1x1x12 .f32) (c : Fin 12) :
    View.canon ([⟨r0_4, p2⟩, ⟨r0_3, p1⟩, ⟨r0_2, p0⟩] : List (View.Piece (Elt Ideal) S1x1x3x12 .f32))
      (ix4 (0 : Fin 1) (0 : Fin 1) (1 : Fin 3) c) = p1 (ix4 (0 : Fin 1) (0 : Fin 1) (0 : Fin 1) c) := by
  rw [View.canon_cons_of_not_mem (⟨r0_4, p2⟩ : View.Piece (Elt Ideal) S1x1x3x12 .f32) _ (not_mem_row2 1 (by decide) c),
    ← emb_row1 c]
  exact View.canon_cons_emb r0_3 p1 _ _

/-- … and the one at row 0 gives row 0. -/
private theorem canon_row0 (p2 p1 p0 : Vec Ideal S1x1x1x12 .f32) (c : Fin 12) :
    View.canon ([⟨r0_4, p2⟩, ⟨r0_3, p1⟩, ⟨r0_2, p0⟩] : List (View.Piece (Elt Ideal) S1x1x3x12 .f32))
      (ix4 (0 : Fin 1) (0 : Fin 1) (0 : Fin 3) c) = p0 (ix4 (0 : Fin 1) (0 : Fin 1) (0 : Fin 1) c) := by
  rw [View.canon_cons_of_not_mem (⟨r0_4, p2⟩ : View.Piece (Elt Ideal) S1x1x3x12 .f32) _ (not_mem_row2 0 (by decide) c),
    View.canon_cons_of_not_mem (⟨r0_3, p1⟩ : View.Piece (Elt Ideal) S1x1x3x12 .f32) _ (not_mem_row1 c),
    ← emb_row0 c]
  exact View.canon_cons_emb r0_2 p0 _ _

/-! ## The three blocks -/

/-- The label block's one-hot, as the body computes it: 1 where the label word equals the class number. -/
theorem onehot_block (c : Fin 12) (h : Fin 64) (w : Fin 512) :
    out0_5 (F := Ideal) wt x y t (ix4 0 c h w) = hot (t (ix3 0 h w)) c.val := by
  unfold out0_5
  rw [View.canon_unit_zero zeros4]
  simp only [View.ld_unit_zero (S := S1x64x512) zeros3]
  unfold k0_pay3
  exact (stored4 _ _ c h w).trans (pay2_apply t c h w)

/-- The product block: the class score times the super scores mixed by the table, accumulated from zero. -/
theorem final_block (c : Fin 12) (h : Fin 64) (w : Fin 512) :
    out0_4 (F := Ideal) wt x y t (ix4 0 c h w)
      = x (ix4 0 c h w) * ((((0 + wt (ix2 c 0) * y (ix4 0 0 h w)) + wt (ix2 c 1) * y (ix4 0 1 h w))
          + wt (ix2 c 2) * y (ix4 0 2 h w)) + wt (ix2 c 3) * y (ix4 0 3 h w)) := by
  unfold out0_4
  rw [View.canon_unit_zero zeros4]
  simp only [View.ld_unit_zero (S := S1x12x64x512) zeros4, View.ld_unit_zero (S := S12x4) zeros2,
    View.ld_unit_zero (S := S1x4x64x512) zeros4]
  unfold k0_pay1
  refine (stored4 _ _ c h w).trans ?_
  unfold k0_pay25 k0_pay15 k0_pay18 k0_pay19 k0_pay20 k0_pay16 k0_pay13 k0_pay11 k0_pay4 k0_pay10 k0_pay9
  simp only [mulf_apply, addf_apply, broadcast_apply, shapeCast_self]
  refine congrArg₂ (· * ·) (loaded4 x _ c h w) ?_
  refine congrArg₂ (· + ·) (congrArg₂ (· + ·) (congrArg₂ (· + ·) (congrArg₂ (· + ·) Ideal.ofBits_zero_f32 ?_) ?_) ?_) ?_
  · exact mix_term wt y 0 0 (by decide) _ _ _ _ _ _ _ _ _ c h w
  · exact mix_term wt y 1 1 (by decide) _ _ _ _ _ _ _ _ _ c h w
  · exact mix_term wt y 2 2 (by decide) _ _ _ _ _ _ _ _ _ c h w
  · exact mix_term wt y 3 3 (by decide) _ _ _ _ _ _ _ _ _ c h w

/-- The class statistics block, row 0: the sum over the tile of score times one-hot. -/
theorem statsC_row0 (c : Fin 12) :
    out0_6 (F := Ideal) wt x y t (ix4 0 0 0 c)
      = ∑ h : Fin 64, ∑ w : Fin 512, x (ix4 0 c h w) * hot (t (ix3 0 h w)) c.val := by
  unfold out0_6
  refine (canon_row0 _ _ _ c).trans ?_
  simp only [View.ld_unit_zero (S := S1x64x512) zeros3, View.ld_unit_zero (S := S1x12x64x512) zeros4]
  unfold k0_pay6
  refine (stored_row _ _ c).trans ?_
  refine (tile_sum _ _ _ _ _ _ _ c).trans ?_
  refine Finset.sum_congr rfl fun h _ => Finset.sum_congr rfl fun w _ => ?_
  unfold k0_pay4
  exact congrArg₂ (· * ·) (loaded4 x _ c h w) (pay2_apply t c h w)

/-- Row 1: the sum over the tile of the score. -/
theorem statsC_row1 (c : Fin 12) :
    out0_6 (F := Ideal) wt x y t (ix4 0 0 1 c) = ∑ h : Fin 64, ∑ w : Fin 512, x (ix4 0 c h w) := by
  unfold out0_6
  refine (canon_row1 _ _ _ c).trans ?_
  simp only [View.ld_unit_zero (S := S1x12x64x512) zeros4]
  unfold k0_pay7
  refine (stored_row _ _ c).trans ?_
  refine (tile_sum _ _ _ _ _ _ _ c).trans ?_
  refine Finset.sum_congr rfl fun h _ => Finset.sum_congr rfl fun w _ => ?_
  unfold k0_pay4
  exact loaded4 x _ c h w

/-- Row 2: the sum over the tile of the one-hot. -/
theorem statsC_row2 (c : Fin 12) :
    out0_6 (F := Ideal) wt x y t (ix4 0 0 2 c) = ∑ h : Fin 64, ∑ w : Fin 512, hot (t (ix3 0 h w)) c.val := by
  unfold out0_6
  refine (canon_row2 _ _ _ c).trans ?_
  simp only [View.ld_unit_zero (S := S1x64x512) zeros3]
  unfold k0_pay8 k0_pay5
  refine (stored_row _ _ c).trans ?_
  refine (tile_sum _ _ _ _ _ _ _ c).trans ?_
  exact Finset.sum_congr rfl fun h _ => Finset.sum_congr rfl fun w _ => pay2_apply t c h w

end Cert.KernelIdeal.Blocks

end
-- ==== Proof.KernelBlocksS.lean ====
/-
  What one grid point leaves in its superclass statistics block, read at an index, as a function of its input blocks:
  the class-to-superclass table wt[c, s] (12 x 4), the superclass scores y[0, s, h, w] (1 x 4 x 64 x 512) and the labels
  t[0, h, w] (1 x 64 x 512). The body first mixes the label one-hot through the table into a super one-hot, one
  superclass at a time, and stacks the four; then takes three rows of four sums over the tile.
-/
import proofs.«402975_j51522427682884_1_alg».proof.Proof.Gen.KernelIdeal.Frame
import proofs.«402975_j51522427682884_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks

open Cert.KernelIdeal Cert.KernelIdeal.Gen Cert.Dice
open Idealize.ShloMosaic Idealize.ShloMosaic.ValueIdx

variable (wt : S12x4.Idx → EReal) (x : S1x12x64x512.Idx → EReal) (y : S1x4x64x512.Idx → EReal) (t : S1x64x512.Idx → BitVec 32)

/-- The super one-hot at a pixel of the tile, as the body mixes it: the sum over the classes of one-hot times table. -/
def superMixBlk (s : Fin 4) (h : Fin 64) (w : Fin 512) : EReal :=
  ∑ c : Fin 12, hot (t (ix3 0 h w)) c.val * wt (ix2 c s)

/-- A label compared with a class number, widened to a word and converted: 1 when they agree, 0 otherwise. -/
private theorem hot_word (a : BitVec 32) (k : Nat) :
    (FloatOps.sitofp (F := Ideal) .f32 ((IntOp.cmpi .eq a (BitVec.ofNat 32 k)).setWidth 32) : EReal) = hot a k := by
  unfold hot
  by_cases h : a = BitVec.ofNat 32 k
  · rw [if_pos h]
    have e1 : IntOp.cmpi .eq a (BitVec.ofNat 32 k) = 1#1 := by simp [IntOp.cmpi, h]
    have e2 : ((1#1 : BitVec 1).setWidth 32).toInt = 1 := by decide
    rw [e1]
    show ((((1#1 : BitVec 1).setWidth 32).toInt : ℝ) : EReal) = 1
    rw [e2]; simp
  · rw [if_neg h]
    have hb : (a == BitVec.ofNat 32 k) = false := by
      first | exact beq_eq_false_iff_ne.mpr h | simp [h]
    have e1 : IntOp.cmpi .eq a (BitVec.ofNat 32 k) = 0#1 := by
      show BitVec.ofBool (a == BitVec.ofNat 32 k) = 0#1
      rw [hb]; rfl
    have e2 : ((0#1 : BitVec 1).setWidth 32).toInt = 0 := by decide
    rw [e1]
    show ((((0#1 : BitVec 1).setWidth 32).toInt : ℝ) : EReal) = 0
    rw [e2]; simp

/-- The label one-hot slab at (c, h, w): whether the label at (h, w) is c. -/
private theorem oneHot_apply (t : S1x64x512.Idx → BitVec 32) (c : Fin 12) (h : Fin 64) (w : Fin 512) :
    k0_pay2 (F := Ideal) t (ix3 c h w) = hot (t (ix3 0 h w)) c.val := by
  have e1 : k0_pay2 (F := Ideal) t (ix3 c h w)
      = FloatOps.sitofp (F := Ideal) .f32 ((IntOp.cmpi .eq
          (broadcastTo S12x64x512 (shapeCast S1x64x512 (shapeCast S1x64x512 (shapeCast S64x512 t shapeCasts_S1x64x512_S64x512)
            shapeCasts_S64x512_S1x64x512) shapeCasts_S1x64x512_S1x64x512) broadcasts_S1x64x512_S12x64x512 (ix3 c h w))
          (iota .tc S12x64x512 32 [0] iota_S12x64x512_d0_w32 (ix3 c h w))).setWidth 32) := rfl
  rw [e1, broadcastTo_apply _ _ (ix3 c h w) (ix3 (0 : Fin 1) h w)
      (fun a => match a with | ⟨0, _⟩ => rfl | ⟨1, _⟩ => rfl | ⟨2, _⟩ => rfl),
    shapeCast_self, shapeCast_shapeCast, iota_single_apply]
  exact hot_word (t (ix3 0 h w)) c.val

/-- Column o of the table, cut out as a 12 x 1 slice and flattened, at class c. -/
private theorem col_apply (wt : FVec Ideal S12x4 .f32) (o : Nat) (ho : o < 4) (hs : S12x4.Slices ![0, o] S12x1) (c : Fin 12) :
    shapeCast S12 (extractStridedSlice S12x1 ![0, o] wt hs) shapeCasts_S12x1_S12 (ix1 c) = wt (ix2 c ⟨o, ho⟩) := by
  refine (shapeCast_apply _ _ (ix1 c) (ix2 c (0 : Fin 1)) ?_).trans ?_
  · rw [Shape.rowMajor_val_two, Shape.rowMajor_val_one]
    show c.val * 1 + 0 = c.val
    omega
  · exact extractStridedSlice_apply _ _ _ _ (ix2 c ⟨o, ho⟩) (fun a => match a with
      | ⟨0, _⟩ => by show c.val = 0 + c.val; omega
      | ⟨1, _⟩ => by show o = o + 0; rfl)

private theorem col0 (wt : FVec Ideal S12x4 .f32) (c : Fin 12) : k0_pay11 (F := Ideal) wt (ix1 c) = wt (ix2 c 0) := by
  have e : k0_pay11 (F := Ideal) wt = shapeCast S12 (extractStridedSlice S12x1 ![0, 0] wt slices_S12x4_o0_0_S12x1) shapeCasts_S12x1_S12 := by
    unfold k0_pay11 k0_pay9; rw [shapeCast_self]
  rw [e]; exact col_apply wt 0 (by decide) _ c

private theorem col1 (wt : FVec Ideal S12x4 .f32) (c : Fin 12) : k0_pay13 (F := Ideal) wt (ix1 c) = wt (ix2 c 1) := by
  have e : k0_pay13 (F := Ideal) wt = shapeCast S12 (extractStridedSlice S12x1 ![0, 1] wt slices_S12x4_o0_1_S12x1) shapeCasts_S12x1_S12 := by
    unfold k0_pay13 k0_pay9; rw [shapeCast_self]
  rw [e]; exact col_apply wt 1 (by decide) _ c

private theorem col2 (wt : FVec Ideal S12x4 .f32) (c : Fin 12) : k0_pay16 (F := Ideal) wt (ix1 c) = wt (ix2 c 2) := by
  have e : k0_pay16 (F := Ideal) wt = shapeCast S12 (extractStridedSlice S12x1 ![0, 2] wt slices_S12x4_o0_2_S12x1) shapeCasts_S12x1_S12 := by
    unfold k0_pay16 k0_pay9; rw [shapeCast_self]
  rw [e]; exact col_apply wt 2 (by decide) _ c

private theorem col3 (wt : FVec Ideal S12x4 .f32) (c : Fin 12) : k0_pay20 (F := Ideal) (k0_pay9 wt) (ix1 c) = wt (ix2 c 3) := by
  have e : k0_pay20 (F := Ideal) (k0_pay9 wt) = shapeCast S12 (extractStridedSlice S12x1 ![0, 3] wt slices_S12x4_o0_3_S12x1) shapeCasts_S12x1_S12 := by
    unfold k0_pay20 k0_pay9; rw [shapeCast_self]
  rw [e]; exact col_apply wt 3 (by decide) _ c

/-- The index of the class slab over pixel (h, w) with class c inserted on the class axis. -/
private theorem lift_c (hr : S12x64x512.Reduces [0] S64x512) (h : Fin 64) (w : Fin 512) (c : Fin 12) :
    hr.lift (ix2 h w) c = ix3 c h w := by
  funext a
  match a with
  | ⟨0, _⟩ => exact Fin.ext rfl
  | ⟨1, _⟩ => exact Fin.ext rfl
  | ⟨2, _⟩ => exact Fin.ext rfl

/-- The index of a 4 x 64 x 512 slab over (s, h) with column w inserted on the last axis. -/
private theorem lift_w (hr : S4x64x512.Reduces [2] S4x64) (s : Fin 4) (h : Fin 64) (w : Fin 512) :
    hr.lift (ix2 s h) w = ix3 s h w := by
  funext a
  match a with
  | ⟨0, _⟩ => exact Fin.ext rfl
  | ⟨1, _⟩ => exact Fin.ext rfl
  | ⟨2, _⟩ => exact Fin.ext rfl

/-- The index of a 4 x 64 array over s with row h inserted on the last axis. -/
private theorem lift_h (hr : S4x64.Reduces [1] S4) (s : Fin 4) (h : Fin 64) :
    hr.lift (ix1 s) h = ix2 s h := by
  funext a
  match a with
  | ⟨0, _⟩ => exact Fin.ext rfl
  | ⟨1, _⟩ => exact Fin.ext rfl

/-- One superclass's slab: the class slab times a column broadcast over the pixels, summed over the classes. -/
private theorem slab_apply (v8 : FVec Ideal S12x64x512 .f32) (col : FVec Ideal S12 .f32) (h : Fin 64) (w : Fin 512)
    (hφ : FKind.Formats .f32) (hacc : (0x00000000#32 : BitVec 32) = FKind.add.neutral .f32 hφ) :
    shapeCast S1x64x512 (multiReduction .add [0] S64x512
        (mulf v8 (broadcastTo S12x64x512 (shapeCast S12x1x1 col shapeCasts_S12_S12x1x1) broadcasts_S12x1x1_S12x64x512))
        0x00000000#32 reduces_S12x64x512_S64x512 hφ hacc) shapeCasts_S64x512_S1x64x512 (ix3 0 h w)
      = ∑ c : Fin 12, v8 (ix3 c h w) * col (ix1 c) := by
  refine (shapeCast_apply _ _ (ix3 (0 : Fin 1) h w) (ix2 h w) ?_).trans ?_
  · rw [Shape.rowMajor_val_two, Shape.rowMajor_val_three]
    show h.val * 512 + w.val = (0 * 64 + h.val) * 512 + w.val
    omega
  refine (Ideal.multiReduction_add_single _ _ _ hφ hacc (ix2 h w)).trans ?_
  show ∑ c : Fin 12, mulf v8 (broadcastTo S12x64x512 (shapeCast S12x1x1 col shapeCasts_S12_S12x1x1) broadcasts_S12x1x1_S12x64x512)
      (reduces_S12x64x512_S64x512.lift (ix2 h w) c) = _
  refine Finset.sum_congr rfl fun c _ => ?_
  rw [lift_c]
  show v8 (ix3 c h w) * broadcastTo S12x64x512 (shapeCast S12x1x1 col shapeCasts_S12_S12x1x1) broadcasts_S12x1x1_S12x64x512 (ix3 c h w) = _
  congr 1
  refine (broadcastTo_apply _ _ (ix3 c h w) (ix3 c (0 : Fin 1) (0 : Fin 1))
    (fun a => match a with | ⟨0, _⟩ => rfl | ⟨1, _⟩ => rfl | ⟨2, _⟩ => rfl)).trans ?_
  refine shapeCast_apply _ _ _ (ix1 c) ?_
  rw [Shape.rowMajor_val_one, Shape.rowMajor_val_three]
  show c.val = (c.val * 1 + 0) * 1 + 0
  omega

/-- Two nested sums, over the columns then over the rows, of a 4 x 64 x 512 slab, stored as a 1 x 1 x 1 x 4 row. -/
private theorem tile_sum (v : FVec Ideal S4x64x512 .f32) (s : Fin 4)
    (hφ : FKind.Formats .f32) (hacc : (0x00000000#32 : BitVec 32) = FKind.add.neutral .f32 hφ) :
    shapeCast S1x1x1x4 (multiReduction .add [1] S4
        (multiReduction .add [2] S4x64 v 0x00000000#32 reduces_S4x64x512_S4x64 hφ hacc)
        0x00000000#32 reduces_S4x64_S4 hφ hacc) shapeCasts_S4_S1x1x1x4 (ix4 0 0 0 s)
      = ∑ h : Fin 64, ∑ w : Fin 512, v (ix3 s h w) := by
  refine (shapeCast_apply _ _ (ix4 (0 : Fin 1) (0 : Fin 1) (0 : Fin 1) s) (ix1 s) ?_).trans ?_
  · rw [Shape.rowMajor_val_one, Shape.rowMajor_val_four]
    show s.val = ((0 * 1 + 0) * 1 + 0) * 4 + s.val
    omega
  refine (Ideal.multiReduction_add_single _ _ _ hφ hacc (ix1 s)).trans ?_
  show ∑ h : Fin 64, multiReduction .add [2] S4x64 v 0x00000000#32 reduces_S4x64x512_S4x64 hφ hacc
      (reduces_S4x64_S4.lift (ix1 s) h) = _
  refine Finset.sum_congr rfl fun h _ => ?_
  rw [lift_h]
  refine (Ideal.multiReduction_add_single _ _ _ hφ hacc (ix2 s h)).trans ?_
  show ∑ w : Fin 512, v (reduces_S4x64x512_S4x64.lift (ix2 s h) w) = _
  refine Finset.sum_congr rfl fun w _ => ?_
  rw [lift_w]

/-- A superclass's slab over the label one-hot, with the column known: the mixed super one-hot. -/
private theorem mix_of_col (wt : FVec Ideal S12x4 .f32) (t : S1x64x512.Idx → BitVec 32) (s : Fin 4) (h : Fin 64) (w : Fin 512)
    (col : FVec Ideal S12 .f32) (hcol : ∀ c : Fin 12, col (ix1 c) = wt (ix2 c s))
    (hφ : FKind.Formats .f32) (hacc : (0x00000000#32 : BitVec 32) = FKind.add.neutral .f32 hφ) :
    shapeCast S1x64x512 (multiReduction .add [0] S64x512
        (mulf (k0_pay2 (F := Ideal) t) (broadcastTo S12x64x512 (shapeCast S12x1x1 col shapeCasts_S12_S12x1x1) broadcasts_S12x1x1_S12x64x512))
        0x00000000#32 reduces_S12x64x512_S64x512 hφ hacc) shapeCasts_S64x512_S1x64x512 (ix3 0 h w)
      = superMixBlk wt t s h w := by
  refine (slab_apply _ col h w hφ hacc).trans ?_
  unfold superMixBlk
  exact Finset.sum_congr rfl fun c _ => by rw [oneHot_apply, hcol]

/-- The slabs of superclasses 0, 1, 2 and the stack of four, spelt out. -/
private theorem pay12_eq (v8 : FVec Ideal S12x64x512 .f32) (v30 : FVec Ideal S12x4 .f32) :
    k0_pay12 v8 v30 = shapeCast S1x64x512 (multiReduction .add [0] S64x512
        (mulf v8 (broadcastTo S12x64x512 (shapeCast S12x1x1 (k0_pay11 v30) shapeCasts_S12_S12x1x1) broadcasts_S12x1x1_S12x64x512))
        0x00000000#32 reduces_S12x64x512_S64x512 (.inl rfl) rfl) shapeCasts_S64x512_S1x64x512 := rfl
private theorem pay14_eq (v8 : FVec Ideal S12x64x512 .f32) (v30 : FVec Ideal S12x4 .f32) :
    k0_pay14 v8 v30 = shapeCast S1x64x512 (multiReduction .add [0] S64x512
        (mulf v8 (broadcastTo S12x64x512 (shapeCast S12x1x1 (k0_pay13 v30) shapeCasts_S12_S12x1x1) broadcasts_S12x1x1_S12x64x512))
        0x00000000#32 reduces_S12x64x512_S64x512 (.inl rfl) rfl) shapeCasts_S64x512_S1x64x512 := rfl
private theorem pay17_eq (v8 : FVec Ideal S12x64x512 .f32) (v30 : FVec Ideal S12x4 .f32) :
    k0_pay17 v8 v30 = shapeCast S1x64x512 (multiReduction .add [0] S64x512
        (mulf v8 (broadcastTo S12x64x512 (shapeCast S12x1x1 (k0_pay16 v30) shapeCasts_S12_S12x1x1) broadcasts_S12x1x1_S12x64x512))
        0x00000000#32 reduces_S12x64x512_S64x512 (.inl rfl) rfl) shapeCasts_S64x512_S1x64x512 := rfl
private theorem pay21_eq (v8 : FVec Ideal S12x64x512 .f32) (v31 : FVec Ideal S12x4 .f32) (v41 v56 v71 : FVec Ideal S1x64x512 .f32) :
    k0_pay21 v8 v31 v41 v56 v71 = concatenate S4x64x512 0 [⟨S1x64x512, v41⟩, ⟨S1x64x512, v56⟩, ⟨S1x64x512, v71⟩,
      ⟨S1x64x512, shapeCast S1x64x512 (multiReduction .add [0] S64x512
        (mulf v8 (broadcastTo S12x64x512 (shapeCast S12x1x1 (k0_pay20 v31) shapeCasts_S12_S12x1x1) broadcasts_S12x1x1_S12x64x512))
        0x00000000#32 reduces_S12x64x512_S64x512 (.inl rfl) rfl) shapeCasts_S64x512_S1x64x512⟩]
      concatenates_S1x64x512_S1x64x512_S1x64x512_S1x64x512_S4x64x512_d0 := rfl

/-- Off the stacking axis a piece's index (0, h, w) has the stacked index's coordinates. -/
private theorem hi_stack (s : Fin 4) (h : Fin 64) (w : Fin 512) :
    ∀ b : Fin S1x64x512.rank, b.cast (rfl : S1x64x512.rank = S4x64x512.rank) ≠ (0 : Fin S4x64x512.rank) →
      ((ix3 (0 : Fin 1) h w) b).val = ((ix3 s h w) (b.cast (rfl : S1x64x512.rank = S4x64x512.rank))).val
  | ⟨0, _⟩ => fun hb => (hb rfl).elim
  | ⟨1, _⟩ => fun _ => rfl
  | ⟨2, _⟩ => fun _ => rfl

/-- A stack of four 1 x 64 x 512 pieces along the first axis read at (s, h, w): piece s at (0, h, w). -/
private theorem stack0 (p0 p1 p2 p3 : FVec Ideal S1x64x512 .f32)
    (hc : Shape.Concatenates [S1x64x512, S1x64x512, S1x64x512, S1x64x512] S4x64x512 0) (h : Fin 64) (w : Fin 512) :
    concatenate S4x64x512 0 [⟨S1x64x512, p0⟩, ⟨S1x64x512, p1⟩, ⟨S1x64x512, p2⟩, ⟨S1x64x512, p3⟩] hc (ix3 (0 : Fin 4) h w)
      = p0 (ix3 0 h w) :=
  concatenate_apply_piece (0 : Fin S4x64x512.rank) [⟨S1x64x512, p0⟩, ⟨S1x64x512, p1⟩, ⟨S1x64x512, p2⟩, ⟨S1x64x512, p3⟩] hc
    (ix3 (0 : Fin 4) h w) 0 (by show 0 < 4; omega) S1x64x512 p0 rfl rfl 0 rfl (ix3 (0 : Fin 1) h w) (hi_stack 0 h w) rfl
private theorem stack1 (p0 p1 p2 p3 : FVec Ideal S1x64x512 .f32)
    (hc : Shape.Concatenates [S1x64x512, S1x64x512, S1x64x512, S1x64x512] S4x64x512 0) (h : Fin 64) (w : Fin 512) :
    concatenate S4x64x512 0 [⟨S1x64x512, p0⟩, ⟨S1x64x512, p1⟩, ⟨S1x64x512, p2⟩, ⟨S1x64x512, p3⟩] hc (ix3 (1 : Fin 4) h w)
      = p1 (ix3 0 h w) :=
  concatenate_apply_piece (0 : Fin S4x64x512.rank) [⟨S1x64x512, p0⟩, ⟨S1x64x512, p1⟩, ⟨S1x64x512, p2⟩, ⟨S1x64x512, p3⟩] hc
    (ix3 (1 : Fin 4) h w) 1 (by show 1 < 4; omega) S1x64x512 p1 rfl rfl 1 rfl (ix3 (0 : Fin 1) h w) (hi_stack 1 h w) rfl
private theorem stack2 (p0 p1 p2 p3 : FVec Ideal S1x64x512 .f32)
    (hc : Shape.Concatenates [S1x64x512, S1x64x512, S1x64x512, S1x64x512] S4x64x512 0) (h : Fin 64) (w : Fin 512) :
    concatenate S4x64x512 0 [⟨S1x64x512, p0⟩, ⟨S1x64x512, p1⟩, ⟨S1x64x512, p2⟩, ⟨S1x64x512, p3⟩] hc (ix3 (2 : Fin 4) h w)
      = p2 (ix3 0 h w) :=
  concatenate_apply_piece (0 : Fin S4x64x512.rank) [⟨S1x64x512, p0⟩, ⟨S1x64x512, p1⟩, ⟨S1x64x512, p2⟩, ⟨S1x64x512, p3⟩] hc
    (ix3 (2 : Fin 4) h w) 2 (by show 2 < 4; omega) S1x64x512 p2 rfl rfl 2 rfl (ix3 (0 : Fin 1) h w) (hi_stack 2 h w) rfl
private theorem stack3 (p0 p1 p2 p3 : FVec Ideal S1x64x512 .f32)
    (hc : Shape.Concatenates [S1x64x512, S1x64x512, S1x64x512, S1x64x512] S4x64x512 0) (h : Fin 64) (w : Fin 512) :
    concatenate S4x64x512 0 [⟨S1x64x512, p0⟩, ⟨S1x64x512, p1⟩, ⟨S1x64x512, p2⟩, ⟨S1x64x512, p3⟩] hc (ix3 (3 : Fin 4) h w)
      = p3 (ix3 0 h w) :=
  concatenate_apply_piece (0 : Fin S4x64x512.rank) [⟨S1x64x512, p0⟩, ⟨S1x64x512, p1⟩, ⟨S1x64x512, p2⟩, ⟨S1x64x512, p3⟩] hc
    (ix3 (3 : Fin 4) h w) 3 (by show 3 < 4; omega) S1x64x512 p3 rfl rfl 3 rfl (ix3 (0 : Fin 1) h w) (hi_stack 3 h w) rfl

/-- The stacked super one-hot at (s, h, w) is the mixed super one-hot of superclass s at pixel (h, w). -/
private theorem superMix_stack (wt : FVec Ideal S12x4 .f32) (t : S1x64x512.Idx → BitVec 32) (s : Fin 4) (h : Fin 64) (w : Fin 512) :
    k0_pay21 (F := Ideal) (k0_pay2 t) (k0_pay9 wt) (k0_pay12 (k0_pay2 t) wt) (k0_pay14 (k0_pay2 t) wt) (k0_pay17 (k0_pay2 t) wt) (ix3 s h w)
      = superMixBlk wt t s h w := by
  rw [pay21_eq]
  match s with
  | ⟨0, _⟩ =>
    refine (stack0 _ _ _ _ _ h w).trans ?_
    rw [pay12_eq]
    exact mix_of_col wt t 0 h w (k0_pay11 (F := Ideal) wt) (col0 wt) _ _
  | ⟨1, _⟩ =>
    refine (stack1 _ _ _ _ _ h w).trans ?_
    rw [pay14_eq]
    exact mix_of_col wt t 1 h w (k0_pay13 (F := Ideal) wt) (col1 wt) _ _
  | ⟨2, _⟩ =>
    refine (stack2 _ _ _ _ _ h w).trans ?_
    rw [pay17_eq]
    exact mix_of_col wt t 2 h w (k0_pay16 (F := Ideal) wt) (col2 wt) _ _
  | ⟨3, _⟩ =>
    refine (stack3 _ _ _ _ _ h w).trans ?_
    exact mix_of_col wt t 3 h w (k0_pay20 (F := Ideal) (k0_pay9 wt)) (col3 wt) _ _

/-- The super score slab at (s, h, w) is the block's score at (0, s, h, w). -/
private theorem pay10_apply (y : FVec Ideal S1x4x64x512 .f32) (s : Fin 4) (h : Fin 64) (w : Fin 512) :
    k0_pay10 (F := Ideal) y (ix3 s h w) = y (ix4 0 s h w) := by
  have e : k0_pay10 (F := Ideal) y = shapeCast S4x64x512 y shapeCasts_S1x4x64x512_S4x64x512 := rfl
  rw [e]
  refine shapeCast_apply _ _ _ (ix4 (0 : Fin 1) s h w) ?_
  rw [Shape.rowMajor_val_four, Shape.rowMajor_val_three]
  show ((0 * 4 + s.val) * 64 + h.val) * 512 + w.val = (s.val * 64 + h.val) * 512 + w.val
  omega

/-- The three rows' payloads, spelt out. -/
private theorem pay22_eq (v8 : FVec Ideal S12x64x512 .f32) (v31 : FVec Ideal S12x4 .f32) (v33 : FVec Ideal S4x64x512 .f32)
    (v41 v56 v71 : FVec Ideal S1x64x512 .f32) :
    k0_pay22 v8 v31 v33 v41 v56 v71 = shapeCast S1x1x1x4 (multiReduction .add [1] S4
        (multiReduction .add [2] S4x64 (mulf v33 (k0_pay21 v8 v31 v41 v56 v71)) 0x00000000#32 reduces_S4x64x512_S4x64 (.inl rfl) rfl)
        0x00000000#32 reduces_S4x64_S4 (.inl rfl) rfl) shapeCasts_S4_S1x1x1x4 := rfl
private theorem pay23_eq (v33 : FVec Ideal S4x64x512 .f32) :
    k0_pay23 v33 = shapeCast S1x1x1x4 (multiReduction .add [1] S4
        (multiReduction .add [2] S4x64 v33 0x00000000#32 reduces_S4x64x512_S4x64 (.inl rfl) rfl)
        0x00000000#32 reduces_S4x64_S4 (.inl rfl) rfl) shapeCasts_S4_S1x1x1x4 := rfl
private theorem pay24_eq (v8 : FVec Ideal S12x64x512 .f32) (v31 : FVec Ideal S12x4 .f32) (v41 v56 v71 : FVec Ideal S1x64x512 .f32) :
    k0_pay24 v8 v31 v41 v56 v71 = shapeCast S1x1x1x4 (multiReduction .add [1] S4
        (multiReduction .add [2] S4x64 (k0_pay21 v8 v31 v41 v56 v71) 0x00000000#32 reduces_S4x64x512_S4x64 (.inl rfl) rfl)
        0x00000000#32 reduces_S4x64_S4 (.inl rfl) rfl) shapeCasts_S4_S1x1x1x4 := rfl

private theorem hz2 : (![0, 0] : Fin 2 → Nat) = fun _ => 0 := by
  funext a; match a with | ⟨0, _⟩ => rfl | ⟨1, _⟩ => rfl
private theorem hz3 : (![0, 0, 0] : Fin 3 → Nat) = fun _ => 0 := by
  funext a; match a with | ⟨0, _⟩ => rfl | ⟨1, _⟩ => rfl | ⟨2, _⟩ => rfl
private theorem hz4 : (![0, 0, 0, 0] : Fin 4 → Nat) = fun _ => 0 := by
  funext a; match a with | ⟨0, _⟩ => rfl | ⟨1, _⟩ => rfl | ⟨2, _⟩ => rfl | ⟨3, _⟩ => rfl

/-- The block's three row stores with the whole-block loads read through. -/
private theorem out_eq (wt : S12x4.Idx → EReal) (x : S1x12x64x512.Idx → EReal) (y : S1x4x64x512.Idx → EReal) (t : S1x64x512.Idx → BitVec 32) :
    out0_7 (F := Ideal) wt x y t
      = View.canon ([⟨r0_9, k0_pay24 (F := Ideal) (k0_pay2 t) (k0_pay9 wt) (k0_pay12 (k0_pay2 t) wt) (k0_pay14 (k0_pay2 t) wt) (k0_pay17 (k0_pay2 t) wt)⟩,
          ⟨r0_8, k0_pay23 (F := Ideal) (k0_pay10 y)⟩,
          ⟨r0_7, k0_pay22 (F := Ideal) (k0_pay2 t) (k0_pay9 wt) (k0_pay10 y) (k0_pay12 (k0_pay2 t) wt) (k0_pay14 (k0_pay2 t) wt) (k0_pay17 (k0_pay2 t) wt)⟩] :
          List (View.Piece (Elt Ideal) S1x1x3x4 .f32)) := by
  unfold out0_7
  rw [View.ld_unit_zero (Val := Elt Ideal) (e := .i32) (S := S1x64x512) hz3 inb_S1x64x512_S1x64x512_0_0_0 t,
    View.ld_unit_zero (Val := Elt Ideal) (e := .f32) (S := S12x4) hz2 inb_S12x4_S12x4_0_0 wt,
    View.ld_unit_zero (Val := Elt Ideal) (e := .f32) (S := S1x4x64x512) hz4 inb_S1x4x64x512_S1x4x64x512_0_0_0_0 y]

/-- Row r of the block under the row's store rectangle. -/
private theorem emb9 (s : Fin 4) : r0_9.emb (ix4 (0 : Fin 1) (0 : Fin 1) (0 : Fin 1) s) = ix4 (0 : Fin 1) (0 : Fin 1) (2 : Fin 3) s := by
  funext a; apply Fin.ext
  match a with
  | ⟨0, _⟩ => rfl
  | ⟨1, _⟩ => rfl
  | ⟨2, _⟩ => rfl
  | ⟨3, _⟩ => show 0 + 1 * s.val = s.val; omega
private theorem emb8 (s : Fin 4) : r0_8.emb (ix4 (0 : Fin 1) (0 : Fin 1) (0 : Fin 1) s) = ix4 (0 : Fin 1) (0 : Fin 1) (1 : Fin 3) s := by
  funext a; apply Fin.ext
  match a with
  | ⟨0, _⟩ => rfl
  | ⟨1, _⟩ => rfl
  | ⟨2, _⟩ => rfl
  | ⟨3, _⟩ => show 0 + 1 * s.val = s.val; omega
private theorem emb7 (s : Fin 4) : r0_7.emb (ix4 (0 : Fin 1) (0 : Fin 1) (0 : Fin 1) s) = ix4 (0 : Fin 1) (0 : Fin 1) (0 : Fin 3) s := by
  funext a; apply Fin.ext
  match a with
  | ⟨0, _⟩ => rfl
  | ⟨1, _⟩ => rfl
  | ⟨2, _⟩ => rfl
  | ⟨3, _⟩ => show 0 + 1 * s.val = s.val; omega

/-- Rows 0 and 1 lie outside the rectangle of row 2's store, and row 0 outside that of row 1's. -/
private theorem not_mem9 (r : Fin 3) (hr : r.val < 2) (s : Fin 4) : ix4 (0 : Fin 1) (0 : Fin 1) r s ∉ r0_9.set := by
  intro hm
  have h2 := (Rect.mem_set_unit.mp hm 2).1
  change 2 ≤ r.val at h2
  omega
private theorem not_mem8 (s : Fin 4) : ix4 (0 : Fin 1) (0 : Fin 1) (0 : Fin 3) s ∉ r0_8.set := by
  intro hm
  have h2 := (Rect.mem_set_unit.mp hm 2).1
  change 1 ≤ 0 at h2
  omega

/-- The superclass statistics block, row 0: the sum over the tile of super score times mixed super one-hot. -/
theorem statsS_row0 (s : Fin 4) :
    out0_7 (F := Ideal) wt x y t (ix4 0 0 0 s)
      = ∑ h : Fin 64, ∑ w : Fin 512, y (ix4 0 s h w) * superMixBlk wt t s h w := by
  rw [out_eq]
  refine Eq.trans (View.canon_cons_of_not_mem _ _ ?_) ?_
  · exact not_mem9 0 (by decide) s
  refine Eq.trans (View.canon_cons_of_not_mem _ _ ?_) ?_
  · exact not_mem8 s
  refine ((congrArg _ (emb7 s).symm).trans (View.canon_cons_emb r0_7 _ _ (ix4 (0 : Fin 1) (0 : Fin 1) (0 : Fin 1) s))).trans ?_
  rw [pay22_eq]
  refine (tile_sum _ s _ _).trans ?_
  exact Finset.sum_congr rfl fun h _ => Finset.sum_congr rfl fun w _ =>
    (mulf_apply _ _ _).trans (congrArg₂ (· * ·) (pay10_apply y s h w) (superMix_stack wt t s h w))

/-- Row 1: the sum over the tile of the super score. -/
theorem statsS_row1 (s : Fin 4) :
    out0_7 (F := Ideal) wt x y t (ix4 0 0 1 s) = ∑ h : Fin 64, ∑ w : Fin 512, y (ix4 0 s h w) := by
  rw [out_eq]
  refine Eq.trans (View.canon_cons_of_not_mem _ _ ?_) ?_
  · exact not_mem9 1 (by decide) s
  refine ((congrArg _ (emb8 s).symm).trans (View.canon_cons_emb r0_8 _ _ (ix4 (0 : Fin 1) (0 : Fin 1) (0 : Fin 1) s))).trans ?_
  rw [pay23_eq]
  refine (tile_sum _ s _ _).trans ?_
  exact Finset.sum_congr rfl fun h _ => Finset.sum_congr rfl fun w _ => pay10_apply y s h w

/-- Row 2: the sum over the tile of the mixed super one-hot. -/
theorem statsS_row2 (s : Fin 4) :
    out0_7 (F := Ideal) wt x y t (ix4 0 0 2 s) = ∑ h : Fin 64, ∑ w : Fin 512, superMixBlk wt t s h w := by
  rw [out_eq]
  refine ((congrArg _ (emb9 s).symm).trans (View.canon_cons_emb r0_9 _ _ (ix4 (0 : Fin 1) (0 : Fin 1) (0 : Fin 1) s))).trans ?_
  rw [pay24_eq]
  refine (tile_sum _ s _ _).trans ?_
  exact Finset.sum_congr rfl fun h _ => Finset.sum_congr rfl fun w _ => superMix_stack wt t s h w

end Cert.KernelIdeal.Blocks

end
-- ==== Proof.KernelArrays.lean ====
/-
  From blocks to arrays: what each of the kernel's four output arrays holds after the whole grid, as one function of the
  arrays the region finds. Grid point (b, t) works on batch entry b and rows 64 t … 64 t + 63; its blocks of the two
  [8, 12, 512, 512] outputs are that slab, and its blocks of the two statistics arrays are the 3 x K rows at (b, t).
  Every index of every output lies in exactly one point's block, so each array ends at its function everywhere.
-/
import proofs.«402975_j51522427682884_1_alg».proof.Proof.Gen.KernelIdeal.Frame
import proofs.«402975_j51522427682884_1_alg».proof.Proof.Spec
import proofs.«402975_j51522427682884_1_alg».proof.Proof.KernelBlocksC
import proofs.«402975_j51522427682884_1_alg».proof.Proof.KernelBlocksS
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Arrays

open Cert.KernelIdeal Cert.KernelIdeal.Gen Cert.Dice
open Idealize.ShloMosaic Idealize.ShloMosaic.TcCoe Idealize.ShloMosaic.ValueIdx Idealize.SL.Sem

variable (m : (ℓ : Loc nD τ sig) → Buf (Elt Ideal) ℓ)

/-- The arrays as the region finds them, at their literal types. -/
abbrev wtArr (c : Dev nD) : S12x4.Idx → EReal := V m c main_v6
abbrev clsArr (c : Dev nD) : S8x12x512x512.Idx → EReal := V m c main_arg1
abbrev supArr (c : Dev nD) : S8x4x512x512.Idx → EReal := V m c main_arg0
abbrev tgtArr (c : Dev nD) : S8x512x512.Idx → BitVec 32 := V m c main_arg3

/-- The four output arrays after the run, at their literal types. -/
abbrev scoresOut (c : Dev nD) : S8x12x512x512.Idx → EReal := (dats m 0 c).arrAt 4 cfg0.N
abbrev onehotOut (c : Dev nD) : S8x12x512x512.Idx → EReal := (dats m 0 c).arrAt 5 cfg0.N
abbrev statsCOut (c : Dev nD) : S8x8x3x12.Idx → EReal := (dats m 0 c).arrAt 6 cfg0.N
abbrev statsSOut (c : Dev nD) : S8x8x3x4.Idx → EReal := (dats m 0 c).arrAt 7 cfg0.N

/-! ## The index maps over the grid -/

/-- The table's window stays at its one block at every grid point. -/
private theorem idx_tbl : ∀ t : Fin cfg0.N, win0_0.index t (0 : Fin 2) = 0 ∧ win0_0.index t (1 : Fin 2) = 0 :=
  (by decide +kernel : ∀ t : Fin grid0.N, _)

/-- Grid point number t is tile (t / 8, t % 8): the class scores' window sits at batch entry t / 8, row tile t % 8. -/
private theorem idx_cls : ∀ t : Fin cfg0.N, win0_1.index t (0 : Fin 4) = t.val / 8 ∧ win0_1.index t (1 : Fin 4) = 0
    ∧ win0_1.index t (2 : Fin 4) = t.val % 8 ∧ win0_1.index t (3 : Fin 4) = 0 :=
  (by decide +kernel : ∀ t : Fin grid0.N, _)

/-- The super scores' window: the same tile. -/
private theorem idx_sup : ∀ t : Fin cfg0.N, win0_2.index t (0 : Fin 4) = t.val / 8 ∧ win0_2.index t (1 : Fin 4) = 0
    ∧ win0_2.index t (2 : Fin 4) = t.val % 8 ∧ win0_2.index t (3 : Fin 4) = 0 :=
  (by decide +kernel : ∀ t : Fin grid0.N, _)

/-- The labels' window: the same tile. -/
private theorem idx_tgt : ∀ t : Fin cfg0.N, win0_3.index t (0 : Fin 3) = t.val / 8 ∧ win0_3.index t (1 : Fin 3) = t.val % 8
    ∧ win0_3.index t (2 : Fin 3) = 0 :=
  (by decide +kernel : ∀ t : Fin grid0.N, _)

/-- The product output's window: the same tile. -/
private theorem idx_scores : ∀ t : Fin cfg0.N, win0_4.index t (0 : Fin 4) = t.val / 8 ∧ win0_4.index t (1 : Fin 4) = 0
    ∧ win0_4.index t (2 : Fin 4) = t.val % 8 ∧ win0_4.index t (3 : Fin 4) = 0 :=
  (by decide +kernel : ∀ t : Fin grid0.N, _)

/-- The one-hot output's window: the same tile. -/
private theorem idx_onehot : ∀ t : Fin cfg0.N, win0_5.index t (0 : Fin 4) = t.val / 8 ∧ win0_5.index t (1 : Fin 4) = 0
    ∧ win0_5.index t (2 : Fin 4) = t.val % 8 ∧ win0_5.index t (3 : Fin 4) = 0 :=
  (by decide +kernel : ∀ t : Fin grid0.N, _)

/-- The class statistics' window: the 3 x 12 rows at (t / 8, t % 8). -/
private theorem idx_statsC : ∀ t : Fin cfg0.N, win0_6.index t (0 : Fin 4) = t.val / 8 ∧ win0_6.index t (1 : Fin 4) = t.val % 8
    ∧ win0_6.index t (2 : Fin 4) = 0 ∧ win0_6.index t (3 : Fin 4) = 0 :=
  (by decide +kernel : ∀ t : Fin grid0.N, _)

/-- The superclass statistics' window: the 3 x 4 rows at (t / 8, t % 8). -/
private theorem idx_statsS : ∀ t : Fin cfg0.N, win0_7.index t (0 : Fin 4) = t.val / 8 ∧ win0_7.index t (1 : Fin 4) = t.val % 8
    ∧ win0_7.index t (2 : Fin 4) = 0 ∧ win0_7.index t (3 : Fin 4) = 0 :=
  (by decide +kernel : ∀ t : Fin grid0.N, _)

/-! ## The input blocks at a point, read off the arrays -/

/-- The table's block at any point is the whole table. -/
private theorem tbl_blk (c : Dev nD) (t : Fin cfg0.N) (y : S12x4.Idx) (i : S12x4.Idx)
    (h0 : (i 0).val = (y 0).val) (h1 : (i 1).val = (y 1).val) :
    (iblk m c 0 t : S12x4.Idx → EReal) y = wtArr m c i := by
  obtain ⟨e0, e1⟩ := idx_tbl t
  show V m c main_v6 (((cfg0.win 0).blk t).view.emb y) = V m c main_v6 i
  refine congrArg _ (funext fun a => Fin.ext ?_)
  match a with
  | ⟨0, _⟩ => show win0_0.index t (0 : Fin 2) * 12 + 1 * (y 0).val = (i 0).val; omega
  | ⟨1, _⟩ => show win0_0.index t (1 : Fin 2) * 4 + 1 * (y 1).val = (i 1).val; omega

/-- The class scores' block at point t: batch entry t / 8, rows 64 (t % 8) and on, every class and column. -/
private theorem cls_blk (c : Dev nD) (t : Fin cfg0.N) (y : S1x12x64x512.Idx) (i : S8x12x512x512.Idx)
    (h0 : (i 0).val = t.val / 8) (h1 : (i 1).val = (y 1).val)
    (h2 : (i 2).val = t.val % 8 * 64 + (y 2).val) (h3 : (i 3).val = (y 3).val) :
    (iblk m c 1 t : S1x12x64x512.Idx → EReal) y = clsArr m c i := by
  obtain ⟨e0, e1, e2, e3⟩ := idx_cls t
  have hy0 : (y 0).val < 1 := (y 0).isLt
  show V m c main_arg1 (((cfg0.win 1).blk t).view.emb y) = V m c main_arg1 i
  refine congrArg _ (funext fun a => Fin.ext ?_)
  match a with
  | ⟨0, _⟩ => show win0_1.index t (0 : Fin 4) * 1 + 1 * (y 0).val = (i 0).val; omega
  | ⟨1, _⟩ => show win0_1.index t (1 : Fin 4) * 12 + 1 * (y 1).val = (i 1).val; omega
  | ⟨2, _⟩ => show win0_1.index t (2 : Fin 4) * 64 + 1 * (y 2).val = (i 2).val; omega
  | ⟨3, _⟩ => show win0_1.index t (3 : Fin 4) * 512 + 1 * (y 3).val = (i 3).val; omega

/-- The super scores' block at point t: the same slab, every superclass. -/
private theorem sup_blk (c : Dev nD) (t : Fin cfg0.N) (y : S1x4x64x512.Idx) (i : S8x4x512x512.Idx)
    (h0 : (i 0).val = t.val / 8) (h1 : (i 1).val = (y 1).val)
    (h2 : (i 2).val = t.val % 8 * 64 + (y 2).val) (h3 : (i 3).val = (y 3).val) :
    (iblk m c 2 t : S1x4x64x512.Idx → EReal) y = supArr m c i := by
  obtain ⟨e0, e1, e2, e3⟩ := idx_sup t
  have hy0 : (y 0).val < 1 := (y 0).isLt
  show V m c main_arg0 (((cfg0.win 2).blk t).view.emb y) = V m c main_arg0 i
  refine congrArg _ (funext fun a => Fin.ext ?_)
  match a with
  | ⟨0, _⟩ => show win0_2.index t (0 : Fin 4) * 1 + 1 * (y 0).val = (i 0).val; omega
  | ⟨1, _⟩ => show win0_2.index t (1 : Fin 4) * 4 + 1 * (y 1).val = (i 1).val; omega
  | ⟨2, _⟩ => show win0_2.index t (2 : Fin 4) * 64 + 1 * (y 2).val = (i 2).val; omega
  | ⟨3, _⟩ => show win0_2.index t (3 : Fin 4) * 512 + 1 * (y 3).val = (i 3).val; omega

/-- The labels' block at point t: the same rows and columns of batch entry t / 8. -/
private theorem tgt_blk (c : Dev nD) (t : Fin cfg0.N) (y : S1x64x512.Idx) (i : S8x512x512.Idx)
    (h0 : (i 0).val = t.val / 8) (h1 : (i 1).val = t.val % 8 * 64 + (y 1).val) (h2 : (i 2).val = (y 2).val) :
    (iblk m c 3 t : S1x64x512.Idx → BitVec 32) y = tgtArr m c i := by
  obtain ⟨e0, e1, e2⟩ := idx_tgt t
  have hy0 : (y 0).val < 1 := (y 0).isLt
  show V m c main_arg3 (((cfg0.win 3).blk t).view.emb y) = V m c main_arg3 i
  refine congrArg _ (funext fun a => Fin.ext ?_)
  match a with
  | ⟨0, _⟩ => show win0_3.index t (0 : Fin 3) * 1 + 1 * (y 0).val = (i 0).val; omega
  | ⟨1, _⟩ => show win0_3.index t (1 : Fin 3) * 64 + 1 * (y 1).val = (i 1).val; omega
  | ⟨2, _⟩ => show win0_3.index t (2 : Fin 3) * 512 + 1 * (y 2).val = (i 2).val; omega

/-- The table's block entry by entry. -/
private theorem tbl_tile (c : Dev nD) (t : Fin cfg0.N) (k : Fin 12) (s : Fin 4) :
    (iblk m c 0 t : S12x4.Idx → EReal) (ix2 k s) = wtArr m c (ix2 k s) :=
  tbl_blk m c t _ _ rfl rfl

/-- Row h of the class scores' block at tile (b, tt) is row 64 tt + h of batch entry b. -/
private theorem cls_tile (c : Dev nD) (t : Fin cfg0.N) (b tt : Fin 8) (hb : b.val = t.val / 8) (ht : tt.val = t.val % 8)
    (k : Fin 12) (h : Fin 64) (w : Fin 512) :
    (iblk m c 1 t : S1x12x64x512.Idx → EReal) (ix4 0 k h w) = clsArr m c (ix4 b k (tileRow tt h) w) :=
  cls_blk m c t _ _ hb rfl (by show tt.val * 64 + h.val = t.val % 8 * 64 + h.val; rw [ht]) rfl

/-- The same for the super scores. -/
private theorem sup_tile (c : Dev nD) (t : Fin cfg0.N) (b tt : Fin 8) (hb : b.val = t.val / 8) (ht : tt.val = t.val % 8)
    (s : Fin 4) (h : Fin 64) (w : Fin 512) :
    (iblk m c 2 t : S1x4x64x512.Idx → EReal) (ix4 0 s h w) = supArr m c (ix4 b s (tileRow tt h) w) :=
  sup_blk m c t _ _ hb rfl (by show tt.val * 64 + h.val = t.val % 8 * 64 + h.val; rw [ht]) rfl

/-- The same for the labels. -/
private theorem tgt_tile (c : Dev nD) (t : Fin cfg0.N) (b tt : Fin 8) (hb : b.val = t.val / 8) (ht : tt.val = t.val % 8)
    (h : Fin 64) (w : Fin 512) :
    (iblk m c 3 t : S1x64x512.Idx → BitVec 32) (ix3 0 h w) = tgtArr m c (ix3 b (tileRow tt h) w) :=
  tgt_blk m c t _ _ hb (by show tt.val * 64 + h.val = t.val % 8 * 64 + h.val; rw [ht]) rfl

/-! ## One block of each output as the block of one function of whole arrays -/

/-- The product at one entry of a block: when the table, the class score and the four super scores the block holds are
    those of whole arrays W, X, Y at array index i, the block's entry is X i times the mix of Y through W at i. -/
private theorem scores_point (wt : S12x4.Idx → EReal) (x : S1x12x64x512.Idx → EReal) (y : S1x4x64x512.Idx → EReal)
    (tg : S1x64x512.Idx → BitVec 32) (W : S12x4.Idx → EReal) (X : S8x12x512x512.Idx → EReal)
    (Y : S8x4x512x512.Idx → EReal) (j : S1x12x64x512.Idx) (i : S8x12x512x512.Idx)
    (h1 : (i 1).val = (j 1).val)
    (hW : ∀ (k : Fin 12) (s : Fin 4), wt (ix2 k s) = W (ix2 k s))
    (hX : x j = X i)
    (hY : ∀ s : Fin 4, y (ix4 0 s (j 2) (j 3)) = Y (ix4 (i 0) s (i 2) (i 3))) :
    out0_4 (F := Ideal) wt x y tg j = X i * gatheredBy W Y i := by
  obtain ⟨a, k, h, w, rfl⟩ : ∃ (a : Fin 1) (k : Fin 12) (h : Fin 64) (w : Fin 512), j = ix4 a k h w :=
    ⟨j 0, j 1, j 2, j 3, eq_ix4 j⟩
  obtain ⟨b, k', H, w', rfl⟩ : ∃ (b : Fin 8) (k' : Fin 12) (H : Fin 512) (w' : Fin 512), i = ix4 b k' H w' :=
    ⟨i 0, i 1, i 2, i 3, eq_ix4 i⟩
  obtain rfl : a = 0 := Fin.fin_one_eq_zero a
  obtain rfl : k = k' := (Fin.ext h1).symm
  have hX' : x (ix4 0 k h w) = X (ix4 b k H w') := hX
  have hY' : ∀ s : Fin 4, y (ix4 0 s h w) = Y (ix4 b s H w') := hY
  rw [Blocks.final_block wt x y tg k h w, hX', hW k 0, hW k 1, hW k 2, hW k 3, hY' 0, hY' 1, hY' 2, hY' 3]
  rfl

/-- The one-hot at one entry of a block. -/
private theorem onehot_point (wt : S12x4.Idx → EReal) (x : S1x12x64x512.Idx → EReal) (y : S1x4x64x512.Idx → EReal)
    (tg : S1x64x512.Idx → BitVec 32) (T : S8x512x512.Idx → BitVec 32) (j : S1x12x64x512.Idx) (i : S8x12x512x512.Idx)
    (h1 : (i 1).val = (j 1).val)
    (hT : tg (ix3 0 (j 2) (j 3)) = T (ix3 (i 0) (i 2) (i 3))) :
    out0_5 (F := Ideal) wt x y tg j = oneHot T i := by
  obtain ⟨a, k, h, w, rfl⟩ : ∃ (a : Fin 1) (k : Fin 12) (h : Fin 64) (w : Fin 512), j = ix4 a k h w :=
    ⟨j 0, j 1, j 2, j 3, eq_ix4 j⟩
  obtain ⟨b, k', H, w', rfl⟩ : ∃ (b : Fin 8) (k' : Fin 12) (H : Fin 512) (w' : Fin 512), i = ix4 b k' H w' :=
    ⟨i 0, i 1, i 2, i 3, eq_ix4 i⟩
  obtain rfl : a = 0 := Fin.fin_one_eq_zero a
  obtain rfl : k = k' := (Fin.ext h1).symm
  have hT' : tg (ix3 0 h w) = T (ix3 b H w') := hT
  rw [Blocks.onehot_block wt x y tg k h w, hT']
  rfl

/-- A tile sum written out. -/
private theorem tileSum_eq {K : Nat} (x : (⟨4, ![8, K, 512, 512]⟩ : Shape).Idx → EReal) (b tt : Fin 8) (k : Fin K) :
    tileSum x b tt k = ∑ h : Fin 64, ∑ w : Fin 512, x (ix4 b k (tileRow tt h) w) := rfl

/-- The three rows of a statistics array. -/
private theorem statsArr_row0 {K : Nat} (x0 x1 x2 : (⟨4, ![8, K, 512, 512]⟩ : Shape).Idx → EReal) (b tt : Fin 8) (k : Fin K) :
    statsArr x0 x1 x2 (ix4 b tt 0 k) = tileSum x0 b tt k := by
  unfold statsArr
  exact if_pos rfl

private theorem statsArr_row1 {K : Nat} (x0 x1 x2 : (⟨4, ![8, K, 512, 512]⟩ : Shape).Idx → EReal) (b tt : Fin 8) (k : Fin K) :
    statsArr x0 x1 x2 (ix4 b tt 1 k) = tileSum x1 b tt k := by
  unfold statsArr
  exact (if_neg (by show ¬ ((1 : Nat) = 0); omega)).trans (if_pos rfl)

private theorem statsArr_row2 {K : Nat} (x0 x1 x2 : (⟨4, ![8, K, 512, 512]⟩ : Shape).Idx → EReal) (b tt : Fin 8) (k : Fin K) :
    statsArr x0 x1 x2 (ix4 b tt 2 k) = tileSum x2 b tt k := by
  unfold statsArr
  exact (if_neg (by show ¬ ((2 : Nat) = 0); omega)).trans (if_neg (by show ¬ ((2 : Nat) = 1); omega))

/-- The class statistics at one entry of a block: when the block's class scores and labels are tile (i 0, i 1) of whole
    arrays X, T, the entry is the statistics array of X times one-hot, X and the one-hot of T at i. -/
private theorem statsC_point (wt : S12x4.Idx → EReal) (x : S1x12x64x512.Idx → EReal) (y : S1x4x64x512.Idx → EReal)
    (tg : S1x64x512.Idx → BitVec 32) (X : S8x12x512x512.Idx → EReal) (T : S8x512x512.Idx → BitVec 32)
    (j : S1x1x3x12.Idx) (i : S8x8x3x12.Idx)
    (h2 : (i 2).val = (j 2).val) (h3 : (i 3).val = (j 3).val)
    (hX : ∀ (k : Fin 12) (h : Fin 64) (w : Fin 512), x (ix4 0 k h w) = X (ix4 (i 0) k (tileRow (i 1) h) w))
    (hT : ∀ (h : Fin 64) (w : Fin 512), tg (ix3 0 h w) = T (ix3 (i 0) (tileRow (i 1) h) w)) :
    out0_6 (F := Ideal) wt x y tg j = statsArr (fun i => X i * oneHot T i) X (oneHot T) i := by
  obtain ⟨a0, a1, r, k, rfl⟩ : ∃ (a0 : Fin 1) (a1 : Fin 1) (r : Fin 3) (k : Fin 12), j = ix4 a0 a1 r k :=
    ⟨j 0, j 1, j 2, j 3, eq_ix4 j⟩
  obtain ⟨b, tt, r', k', rfl⟩ : ∃ (b : Fin 8) (tt : Fin 8) (r' : Fin 3) (k' : Fin 12), i = ix4 b tt r' k' :=
    ⟨i 0, i 1, i 2, i 3, eq_ix4 i⟩
  obtain rfl : a0 = 0 := Fin.fin_one_eq_zero a0
  obtain rfl : a1 = 0 := Fin.fin_one_eq_zero a1
  obtain rfl : r = r' := (Fin.ext h2).symm
  obtain rfl : k = k' := (Fin.ext h3).symm
  have hX' : ∀ (k : Fin 12) (h : Fin 64) (w : Fin 512), x (ix4 0 k h w) = X (ix4 b k (tileRow tt h) w) := hX
  have hT' : ∀ (h : Fin 64) (w : Fin 512), tg (ix3 0 h w) = T (ix3 b (tileRow tt h) w) := hT
  have hr := r.isLt
  rcases (by omega : r.val = 0 ∨ r.val = 1 ∨ r.val = 2) with hr0 | hr1 | hr2
  · obtain rfl : r = 0 := Fin.ext hr0
    rw [Blocks.statsC_row0 wt x y tg k, statsArr_row0, tileSum_eq]
    refine Finset.sum_congr rfl fun h _ => Finset.sum_congr rfl fun w _ => ?_
    rw [hX' k h w, hT' h w]
    rfl
  · obtain rfl : r = 1 := Fin.ext hr1
    rw [Blocks.statsC_row1 wt x y tg k, statsArr_row1, tileSum_eq]
    exact Finset.sum_congr rfl fun h _ => Finset.sum_congr rfl fun w _ => hX' k h w
  · obtain rfl : r = 2 := Fin.ext hr2
    rw [Blocks.statsC_row2 wt x y tg k, statsArr_row2, tileSum_eq]
    refine Finset.sum_congr rfl fun h _ => Finset.sum_congr rfl fun w _ => ?_
    rw [hT' h w]
    rfl

/-- The block's mixed super one-hot at a pixel is the whole arrays' at the pixel's place in the tile. -/
private theorem superMix_eq (wt : S12x4.Idx → EReal) (tg : S1x64x512.Idx → BitVec 32) (W : S12x4.Idx → EReal)
    (T : S8x512x512.Idx → BitVec 32) (b tt : Fin 8)
    (hW : ∀ (k : Fin 12) (s : Fin 4), wt (ix2 k s) = W (ix2 k s))
    (hT : ∀ (h : Fin 64) (w : Fin 512), tg (ix3 0 h w) = T (ix3 b (tileRow tt h) w))
    (s : Fin 4) (h : Fin 64) (w : Fin 512) :
    Blocks.superMixBlk wt tg s h w = superHotBy W T (ix4 b s (tileRow tt h) w) := by
  unfold Blocks.superMixBlk
  show _ = ∑ k : Fin 12, hot (T (ix3 b (tileRow tt h) w)) k.val * W (ix2 k s)
  refine Finset.sum_congr rfl fun k _ => ?_
  rw [hT h w, hW k s]

/-- The superclass statistics at one entry of a block. -/
private theorem statsS_point (wt : S12x4.Idx → EReal) (x : S1x12x64x512.Idx → EReal) (y : S1x4x64x512.Idx → EReal)
    (tg : S1x64x512.Idx → BitVec 32) (W : S12x4.Idx → EReal) (Y : S8x4x512x512.Idx → EReal)
    (T : S8x512x512.Idx → BitVec 32) (j : S1x1x3x4.Idx) (i : S8x8x3x4.Idx)
    (h2 : (i 2).val = (j 2).val) (h3 : (i 3).val = (j 3).val)
    (hW : ∀ (k : Fin 12) (s : Fin 4), wt (ix2 k s) = W (ix2 k s))
    (hY : ∀ (s : Fin 4) (h : Fin 64) (w : Fin 512), y (ix4 0 s h w) = Y (ix4 (i 0) s (tileRow (i 1) h) w))
    (hT : ∀ (h : Fin 64) (w : Fin 512), tg (ix3 0 h w) = T (ix3 (i 0) (tileRow (i 1) h) w)) :
    out0_7 (F := Ideal) wt x y tg j = statsArr (fun i => Y i * superHotBy W T i) Y (superHotBy W T) i := by
  obtain ⟨a0, a1, r, s, rfl⟩ : ∃ (a0 : Fin 1) (a1 : Fin 1) (r : Fin 3) (s : Fin 4), j = ix4 a0 a1 r s :=
    ⟨j 0, j 1, j 2, j 3, eq_ix4 j⟩
  obtain ⟨b, tt, r', s', rfl⟩ : ∃ (b : Fin 8) (tt : Fin 8) (r' : Fin 3) (s' : Fin 4), i = ix4 b tt r' s' :=
    ⟨i 0, i 1, i 2, i 3, eq_ix4 i⟩
  obtain rfl : a0 = 0 := Fin.fin_one_eq_zero a0
  obtain rfl : a1 = 0 := Fin.fin_one_eq_zero a1
  obtain rfl : r = r' := (Fin.ext h2).symm
  obtain rfl : s = s' := (Fin.ext h3).symm
  have hY' : ∀ (s : Fin 4) (h : Fin 64) (w : Fin 512), y (ix4 0 s h w) = Y (ix4 b s (tileRow tt h) w) := hY
  have hT' : ∀ (h : Fin 64) (w : Fin 512), tg (ix3 0 h w) = T (ix3 b (tileRow tt h) w) := hT
  have hr := r.isLt
  rcases (by omega : r.val = 0 ∨ r.val = 1 ∨ r.val = 2) with hr0 | hr1 | hr2
  · obtain rfl : r = 0 := Fin.ext hr0
    rw [Blocks.statsS_row0 wt x y tg s, statsArr_row0, tileSum_eq]
    refine Finset.sum_congr rfl fun h _ => Finset.sum_congr rfl fun w _ => ?_
    rw [hY' s h w, superMix_eq wt tg W T b tt hW hT' s h w]
  · obtain rfl : r = 1 := Fin.ext hr1
    rw [Blocks.statsS_row1 wt x y tg s, statsArr_row1, tileSum_eq]
    exact Finset.sum_congr rfl fun h _ => Finset.sum_congr rfl fun w _ => hY' s h w
  · obtain rfl : r = 2 := Fin.ext hr2
    rw [Blocks.statsS_row2 wt x y tg s, statsArr_row2, tileSum_eq]
    exact Finset.sum_congr rfl fun h _ => Finset.sum_congr rfl fun w _ => superMix_eq wt tg W T b tt hW hT' s h w

/-! ## What each grid point writes back -/

/-- Point t writes back block t of the product array. -/
private theorem scores_flushed (c : Dev nD) (t : Fin cfg0.N) :
    (dats m 0 c).flushed 4 t = ((cfg0.win 4).blk t).view.read (Elt Ideal)
      (fun i => clsArr m c i * gatheredBy (wtArr m c) (supArr m c) i) := by
  show (cfg0.win 4).cut (grid0.coords t) ((dats m 0 c).after 4 t) = _
  rw [after0_4]
  funext j
  obtain ⟨e0, e1, e2, e3⟩ := idx_scores t
  have hj0 : (j 0).val < 1 := (j 0).isLt
  refine scores_point (iblk m c 0 t) (iblk m c 1 t) (iblk m c 2 t) (iblk m c 3 t) (wtArr m c) (clsArr m c) (supArr m c)
    ((cfg0.win 4).xinj (grid0.coords t) j) (((cfg0.win 4).blk t).view.emb j) ?_ ?_ ?_ ?_
  · show win0_4.index t (1 : Fin 4) * 12 + 1 * (j 1).val = (j 1).val; omega
  · exact fun k s => tbl_tile m c t k s
  · refine cls_blk m c t _ _ ?_ ?_ ?_ ?_
    · show win0_4.index t (0 : Fin 4) * 1 + 1 * (j 0).val = t.val / 8; omega
    · show win0_4.index t (1 : Fin 4) * 12 + 1 * (j 1).val = (j 1).val; omega
    · show win0_4.index t (2 : Fin 4) * 64 + 1 * (j 2).val = t.val % 8 * 64 + (j 2).val; omega
    · show win0_4.index t (3 : Fin 4) * 512 + 1 * (j 3).val = (j 3).val; omega
  · intro s
    refine sup_blk m c t _ _ ?_ ?_ ?_ ?_
    · show win0_4.index t (0 : Fin 4) * 1 + 1 * (j 0).val = t.val / 8; omega
    · rfl
    · show win0_4.index t (2 : Fin 4) * 64 + 1 * (j 2).val = t.val % 8 * 64 + (j 2).val; omega
    · show win0_4.index t (3 : Fin 4) * 512 + 1 * (j 3).val = (j 3).val; omega

/-- Point t writes back block t of the one-hot array. -/
private theorem onehot_flushed (c : Dev nD) (t : Fin cfg0.N) :
    (dats m 0 c).flushed 5 t = ((cfg0.win 5).blk t).view.read (Elt Ideal) (oneHot (tgtArr m c)) := by
  show (cfg0.win 5).cut (grid0.coords t) ((dats m 0 c).after 5 t) = _
  rw [after0_5]
  funext j
  obtain ⟨e0, e1, e2, e3⟩ := idx_onehot t
  have hj0 : (j 0).val < 1 := (j 0).isLt
  refine onehot_point (iblk m c 0 t) (iblk m c 1 t) (iblk m c 2 t) (iblk m c 3 t) (tgtArr m c)
    ((cfg0.win 5).xinj (grid0.coords t) j) (((cfg0.win 5).blk t).view.emb j) ?_ ?_
  · show win0_5.index t (1 : Fin 4) * 12 + 1 * (j 1).val = (j 1).val; omega
  · refine tgt_blk m c t _ _ ?_ ?_ ?_
    · show win0_5.index t (0 : Fin 4) * 1 + 1 * (j 0).val = t.val / 8; omega
    · show win0_5.index t (2 : Fin 4) * 64 + 1 * (j 2).val = t.val % 8 * 64 + (j 2).val; omega
    · show win0_5.index t (3 : Fin 4) * 512 + 1 * (j 3).val = (j 3).val; omega

/-- Point t writes back block t of the class statistics array. -/
private theorem statsC_flushed (c : Dev nD) (t : Fin cfg0.N) :
    (dats m 0 c).flushed 6 t = ((cfg0.win 6).blk t).view.read (Elt Ideal)
      (statsArr (fun i => clsArr m c i * oneHot (tgtArr m c) i) (clsArr m c) (oneHot (tgtArr m c))) := by
  show (cfg0.win 6).cut (grid0.coords t) ((dats m 0 c).after 6 t) = _
  rw [after0_6]
  funext j
  obtain ⟨e0, e1, e2, e3⟩ := idx_statsC t
  have hj0 : (j 0).val < 1 := (j 0).isLt
  have hj1 : (j 1).val < 1 := (j 1).isLt
  have hb : ((((cfg0.win 6).blk t).view.emb j) 0).val = t.val / 8 := by
    show win0_6.index t (0 : Fin 4) * 1 + 1 * (j 0).val = t.val / 8; omega
  have ht : ((((cfg0.win 6).blk t).view.emb j) 1).val = t.val % 8 := by
    show win0_6.index t (1 : Fin 4) * 1 + 1 * (j 1).val = t.val % 8; omega
  refine statsC_point (iblk m c 0 t) (iblk m c 1 t) (iblk m c 2 t) (iblk m c 3 t) (clsArr m c) (tgtArr m c)
    ((cfg0.win 6).xinj (grid0.coords t) j) (((cfg0.win 6).blk t).view.emb j) ?_ ?_ ?_ ?_
  · show win0_6.index t (2 : Fin 4) * 3 + 1 * (j 2).val = (j 2).val; omega
  · show win0_6.index t (3 : Fin 4) * 12 + 1 * (j 3).val = (j 3).val; omega
  · exact fun k h w => cls_tile m c t _ _ hb ht k h w
  · exact fun h w => tgt_tile m c t _ _ hb ht h w

/-- Point t writes back block t of the superclass statistics array. -/
private theorem statsS_flushed (c : Dev nD) (t : Fin cfg0.N) :
    (dats m 0 c).flushed 7 t = ((cfg0.win 7).blk t).view.read (Elt Ideal)
      (statsArr (fun i => supArr m c i * superHotBy (wtArr m c) (tgtArr m c) i) (supArr m c)
        (superHotBy (wtArr m c) (tgtArr m c))) := by
  show (cfg0.win 7).cut (grid0.coords t) ((dats m 0 c).after 7 t) = _
  rw [after0_7]
  funext j
  obtain ⟨e0, e1, e2, e3⟩ := idx_statsS t
  have hj0 : (j 0).val < 1 := (j 0).isLt
  have hj1 : (j 1).val < 1 := (j 1).isLt
  have hb : ((((cfg0.win 7).blk t).view.emb j) 0).val = t.val / 8 := by
    show win0_7.index t (0 : Fin 4) * 1 + 1 * (j 0).val = t.val / 8; omega
  have ht : ((((cfg0.win 7).blk t).view.emb j) 1).val = t.val % 8 := by
    show win0_7.index t (1 : Fin 4) * 1 + 1 * (j 1).val = t.val % 8; omega
  refine statsS_point (iblk m c 0 t) (iblk m c 1 t) (iblk m c 2 t) (iblk m c 3 t) (wtArr m c) (supArr m c) (tgtArr m c)
    ((cfg0.win 7).xinj (grid0.coords t) j) (((cfg0.win 7).blk t).view.emb j) ?_ ?_ ?_ ?_ ?_
  · show win0_7.index t (2 : Fin 4) * 3 + 1 * (j 2).val = (j 2).val; omega
  · show win0_7.index t (3 : Fin 4) * 4 + 1 * (j 3).val = (j 3).val; omega
  · exact fun k s => tbl_tile m c t k s
  · exact fun s h w => sup_tile m c t _ _ hb ht s h w
  · exact fun h w => tgt_tile m c t _ _ hb ht h w

/-! ## Every index lies in some point's block -/

/-- An index is in point t's block of the product array iff each coordinate is in the block's range. -/
private theorem mem_scores (t : Fin cfg0.N) (i : S8x12x512x512.Idx) :
    i ∈ ((cfg0.win 4).blk t).view.set ↔ ∀ a : Fin 4, win0_4.index t a * S1x12x64x512.size a ≤ (i a).val
      ∧ (i a).val < win0_4.index t a * S1x12x64x512.size a + S1x12x64x512.size a := by
  show i ∈ ((View.whole main_v7_0).slice (win0_4.rect t)).set ↔ _
  rw [View.set_slice_whole, Rect.mem_set_unit]
  exact Iff.rfl

private theorem mem_onehot (t : Fin cfg0.N) (i : S8x12x512x512.Idx) :
    i ∈ ((cfg0.win 5).blk t).view.set ↔ ∀ a : Fin 4, win0_5.index t a * S1x12x64x512.size a ≤ (i a).val
      ∧ (i a).val < win0_5.index t a * S1x12x64x512.size a + S1x12x64x512.size a := by
  show i ∈ ((View.whole main_v7_1).slice (win0_5.rect t)).set ↔ _
  rw [View.set_slice_whole, Rect.mem_set_unit]
  exact Iff.rfl

private theorem mem_statsC (t : Fin cfg0.N) (i : S8x8x3x12.Idx) :
    i ∈ ((cfg0.win 6).blk t).view.set ↔ ∀ a : Fin 4, win0_6.index t a * S1x1x3x12.size a ≤ (i a).val
      ∧ (i a).val < win0_6.index t a * S1x1x3x12.size a + S1x1x3x12.size a := by
  show i ∈ ((View.whole main_v7_2).slice (win0_6.rect t)).set ↔ _
  rw [View.set_slice_whole, Rect.mem_set_unit]
  exact Iff.rfl

private theorem mem_statsS (t : Fin cfg0.N) (i : S8x8x3x4.Idx) :
    i ∈ ((cfg0.win 7).blk t).view.set ↔ ∀ a : Fin 4, win0_7.index t a * S1x1x3x4.size a ≤ (i a).val
      ∧ (i a).val < win0_7.index t a * S1x1x3x4.size a + S1x1x3x4.size a := by
  show i ∈ ((View.whole main_v7_3).slice (win0_7.rect t)).set ↔ _
  rw [View.set_slice_whole, Rect.mem_set_unit]
  exact Iff.rfl

/-- Row H of batch entry b of the product array lies in the block of the point at tile (b, H / 64). -/
private theorem cover_scores (i : S8x12x512x512.Idx) :
    ∃ t : Fin cfg0.N, (cfg0.win 4).flush t = true ∧ i ∈ ((cfg0.win 4).blk t).view.set := by
  have hi0 : (i 0).val < 8 := (i 0).isLt
  have hi1 : (i 1).val < 12 := (i 1).isLt
  have hi2 : (i 2).val < 512 := (i 2).isLt
  have hi3 : (i 3).val < 512 := (i 3).isLt
  have hN : cfg0.N = 64 := N_0
  obtain ⟨t, ht⟩ : ∃ t : Fin cfg0.N, t.val = (i 0).val * 8 + (i 2).val / 64 := ⟨⟨_, by rw [hN]; omega⟩, rfl⟩
  obtain ⟨e0, e1, e2, e3⟩ := idx_scores t
  refine ⟨t, flush0_4 t, ?_⟩
  rw [mem_scores]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 12 ≤ (i 1).val ∧ (i 1).val < win0_4.index t (1 : Fin 4) * 12 + 12; omega
  | ⟨2, _⟩ => show win0_4.index t (2 : Fin 4) * 64 ≤ (i 2).val ∧ (i 2).val < win0_4.index t (2 : Fin 4) * 64 + 64; omega
  | ⟨3, _⟩ => show win0_4.index t (3 : Fin 4) * 512 ≤ (i 3).val ∧ (i 3).val < win0_4.index t (3 : Fin 4) * 512 + 512; omega

/-- The same for the one-hot array. -/
private theorem cover_onehot (i : S8x12x512x512.Idx) :
    ∃ t : Fin cfg0.N, (cfg0.win 5).flush t = true ∧ i ∈ ((cfg0.win 5).blk t).view.set := by
  have hi0 : (i 0).val < 8 := (i 0).isLt
  have hi1 : (i 1).val < 12 := (i 1).isLt
  have hi2 : (i 2).val < 512 := (i 2).isLt
  have hi3 : (i 3).val < 512 := (i 3).isLt
  have hN : cfg0.N = 64 := N_0
  obtain ⟨t, ht⟩ : ∃ t : Fin cfg0.N, t.val = (i 0).val * 8 + (i 2).val / 64 := ⟨⟨_, by rw [hN]; omega⟩, rfl⟩
  obtain ⟨e0, e1, e2, e3⟩ := idx_onehot t
  refine ⟨t, flush0_5 t, ?_⟩
  rw [mem_onehot]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 12 ≤ (i 1).val ∧ (i 1).val < win0_5.index t (1 : Fin 4) * 12 + 12; omega
  | ⟨2, _⟩ => show win0_5.index t (2 : Fin 4) * 64 ≤ (i 2).val ∧ (i 2).val < win0_5.index t (2 : Fin 4) * 64 + 64; omega
  | ⟨3, _⟩ => show win0_5.index t (3 : Fin 4) * 512 ≤ (i 3).val ∧ (i 3).val < win0_5.index t (3 : Fin 4) * 512 + 512; omega

/-- Entry (b, tt, r, k) of the class statistics array lies in the block of the point at tile (b, tt). -/
private theorem cover_statsC (i : S8x8x3x12.Idx) :
    ∃ t : Fin cfg0.N, (cfg0.win 6).flush t = true ∧ i ∈ ((cfg0.win 6).blk t).view.set := by
  have hi0 : (i 0).val < 8 := (i 0).isLt
  have hi1 : (i 1).val < 8 := (i 1).isLt
  have hi2 : (i 2).val < 3 := (i 2).isLt
  have hi3 : (i 3).val < 12 := (i 3).isLt
  have hN : cfg0.N = 64 := N_0
  obtain ⟨t, ht⟩ : ∃ t : Fin cfg0.N, t.val = (i 0).val * 8 + (i 1).val := ⟨⟨_, by rw [hN]; omega⟩, rfl⟩
  obtain ⟨e0, e1, e2, e3⟩ := idx_statsC t
  refine ⟨t, flush0_6 t, ?_⟩
  rw [mem_statsC]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 1 ≤ (i 1).val ∧ (i 1).val < win0_6.index t (1 : Fin 4) * 1 + 1; omega
  | ⟨2, _⟩ => show win0_6.index t (2 : Fin 4) * 3 ≤ (i 2).val ∧ (i 2).val < win0_6.index t (2 : Fin 4) * 3 + 3; omega
  | ⟨3, _⟩ => show win0_6.index t (3 : Fin 4) * 12 ≤ (i 3).val ∧ (i 3).val < win0_6.index t (3 : Fin 4) * 12 + 12; omega

/-- The same for the superclass statistics array. -/
private theorem cover_statsS (i : S8x8x3x4.Idx) :
    ∃ t : Fin cfg0.N, (cfg0.win 7).flush t = true ∧ i ∈ ((cfg0.win 7).blk t).view.set := by
  have hi0 : (i 0).val < 8 := (i 0).isLt
  have hi1 : (i 1).val < 8 := (i 1).isLt
  have hi2 : (i 2).val < 3 := (i 2).isLt
  have hi3 : (i 3).val < 4 := (i 3).isLt
  have hN : cfg0.N = 64 := N_0
  obtain ⟨t, ht⟩ : ∃ t : Fin cfg0.N, t.val = (i 0).val * 8 + (i 1).val := ⟨⟨_, by rw [hN]; omega⟩, rfl⟩
  obtain ⟨e0, e1, e2, e3⟩ := idx_statsS t
  refine ⟨t, flush0_7 t, ?_⟩
  rw [mem_statsS]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 1 ≤ (i 1).val ∧ (i 1).val < win0_7.index t (1 : Fin 4) * 1 + 1; omega
  | ⟨2, _⟩ => show win0_7.index t (2 : Fin 4) * 3 ≤ (i 2).val ∧ (i 2).val < win0_7.index t (2 : Fin 4) * 3 + 3; omega
  | ⟨3, _⟩ => show win0_7.index t (3 : Fin 4) * 4 ≤ (i 3).val ∧ (i 3).val < win0_7.index t (3 : Fin 4) * 4 + 4; omega

/-! ## The four arrays after the whole grid -/

/-- The product array: class score times the super scores mixed through the table. -/
theorem scores_final (c : Dev nD) :
    scoresOut m c = fun i => clsArr m c i * gatheredBy (wtArr m c) (supArr m c) i := by
  exact (dats m 0 c).arrAt_eq_of_cover 4 _ (fun t _ => scores_flushed m c t) cover_scores

/-- The one-hot array. -/
theorem onehot_final (c : Dev nD) : onehotOut m c = oneHot (tgtArr m c) := by
  exact (dats m 0 c).arrAt_eq_of_cover 5 _ (fun t _ => onehot_flushed m c t) cover_onehot

/-- The class statistics array: per tile, the sums of score times one-hot, of the score, of the one-hot. -/
theorem statsC_final (c : Dev nD) :
    statsCOut m c = statsArr (fun i => clsArr m c i * oneHot (tgtArr m c) i) (clsArr m c) (oneHot (tgtArr m c)) := by
  exact (dats m 0 c).arrAt_eq_of_cover 6 _ (fun t _ => statsC_flushed m c t) cover_statsC

/-- The superclass statistics array, over the mixed super one-hot. -/
theorem statsS_final (c : Dev nD) :
    statsSOut m c = statsArr (fun i => supArr m c i * superHotBy (wtArr m c) (tgtArr m c) i) (supArr m c)
      (superHotBy (wtArr m c) (tgtArr m c)) := by
  exact (dats m 0 c).arrAt_eq_of_cover 7 _ (fun t _ => statsS_flushed m c t) cover_statsS

end Cert.KernelIdeal.Arrays

end
-- ==== Proof.LibReduce.lean ====
/-
  A host sum over several axes of a rank-4 array into a result with an axis longer than one, read at an index at the
  extended reals: the initial value plus the iterated sum over the reduced axes' coordinates. Two arrangements:
  axes 0, 2, 3 reduced (axis 1 kept), and axes 0, 1 reduced (axes 2, 3 kept). General in the four extents.

  The road: the sum runs over the source indices that drop to the result index; dropping keeps the coordinates on the
  kept axes, so "drops to the result index" is an equation on those coordinates; a rank-4 index set is the product of its
  four coordinate ranges, so the filtered sum is a fourfold sum of conditional terms, in which only the terms at the
  result's coordinates survive.
-/
import Idealize.ShloMosaic.PureOps.Ideal
import Idealize.ShloMosaic.PureOps.Ideal.Laws
import Idealize.ShloMosaic.PureOps.Reduce
import Idealize.ShloMosaic.Lib.ValueIdx
import Mathlib.Data.Fintype.BigOperators

noncomputable section

namespace Cert.LibReduce

open Idealize.ShloMosaic Idealize.ShloMosaic.ValueIdx

/-- A rank-4 index set is the product of its four coordinate ranges. -/
private def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- So a sum over it is the fourfold sum over the coordinates. -/
private theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f,
    Fintype.sum_prod_type]
  refine Finset.sum_congr rfl fun a _ => ?_
  rw [Fintype.sum_prod_type]
  refine Finset.sum_congr rfl fun b _ => ?_
  rw [Fintype.sum_prod_type]
  rfl

/-- With axes 0, 2, 3 removed the kept axes are the list [1]: the one result coordinate is the source's on axis 1. -/
private theorem drop_keep1_val {n0 n1 n2 n3 : Nat}
    (h : (⟨4, ![n0, n1, n2, n3]⟩ : Shape).ReducesTo [0, 2, 3] ⟨1, ![n1]⟩)
    (i : (⟨4, ![n0, n1, n2, n3]⟩ : Shape).Idx) : ((h.drop i 0 : Fin _) : Nat) = i 1 :=
  h.drop_apply_val_of_eq i 0 1
    (by show (0 : Nat) < ((List.finRange 4).filter (· ∉ ([0, 2, 3] : List (Fin 4)))).length; decide)
    (by show ((List.finRange 4).filter (· ∉ ([0, 2, 3] : List (Fin 4))))[0]'(by decide) = (1 : Fin 4); decide)

/-- With axes 0, 2, 3 dropped, an index lands on k exactly when its coordinate on axis 1 is k. -/
private theorem drop_keep1_iff {n0 n1 n2 n3 : Nat}
    (h : (⟨4, ![n0, n1, n2, n3]⟩ : Shape).ReducesTo [0, 2, 3] ⟨1, ![n1]⟩)
    (i : (⟨4, ![n0, n1, n2, n3]⟩ : Shape).Idx) (k : Fin n1) :
    h.drop i = ix1 k ↔ i 1 = k := by
  have h0 : ((h.drop i 0 : Fin _) : Nat) = i 1 := drop_keep1_val h i
  constructor
  · intro e
    apply Fin.ext
    rw [← h0, e]
    rfl
  · intro e
    funext d
    match d with
    | ⟨0, _⟩ =>
      apply Fin.ext
      exact h0.trans (congrArg Fin.val e)

/-- Reducing axes 0, 2, 3 of [n0, n1, n2, n3] into [n1]: at k, the initial value plus the sum over (a, c, d). -/
theorem hostReduceAdd_keep1 {n0 n1 n2 n3 : Nat}
    (h : (⟨4, ![n0, n1, n2, n3]⟩ : Shape).ReducesTo [0, 2, 3] ⟨1, ![n1]⟩)
    (x : (⟨4, ![n0, n1, n2, n3]⟩ : Shape).Idx → EReal) (init : EReal) (k : Fin n1) :
    Ideal.hostReduceAdd h x init (ix1 k) = init + ∑ a : Fin n0, ∑ c : Fin n2, ∑ d : Fin n3, x (ix4 a k c d) := by
  unfold Ideal.hostReduceAdd
  refine congrArg (init + ·) ?_
  -- the filtered sum as a sum of conditional terms, over the four coordinates
  rw [Finset.sum_filter, sum_idx4]
  refine Finset.sum_congr rfl fun a _ => ?_
  -- on axis 1 only the coordinate k contributes
  rw [Finset.sum_eq_single k]
  · refine Finset.sum_congr rfl fun c _ => Finset.sum_congr rfl fun d _ => ?_
    rw [if_pos ((drop_keep1_iff h _ k).2 rfl)]
  · intro b _ hb
    refine Finset.sum_eq_zero fun c _ => Finset.sum_eq_zero fun d _ => ?_
    rw [if_neg (fun e => hb ((drop_keep1_iff h _ k).1 e))]
  · intro hk
    exact absurd (Finset.mem_univ k) hk

/-- With axes 0, 1 removed the kept axes are the list [2, 3]. -/
private theorem drop_keep23_val0 {n0 n1 n2 n3 : Nat}
    (h : (⟨4, ![n0, n1, n2, n3]⟩ : Shape).ReducesTo [0, 1] ⟨2, ![n2, n3]⟩)
    (i : (⟨4, ![n0, n1, n2, n3]⟩ : Shape).Idx) : ((h.drop i 0 : Fin _) : Nat) = i 2 :=
  h.drop_apply_val_of_eq i 0 2
    (by show (0 : Nat) < ((List.finRange 4).filter (· ∉ ([0, 1] : List (Fin 4)))).length; decide)
    (by show ((List.finRange 4).filter (· ∉ ([0, 1] : List (Fin 4))))[0]'(by decide) = (2 : Fin 4); decide)
private theorem drop_keep23_val1 {n0 n1 n2 n3 : Nat}
    (h : (⟨4, ![n0, n1, n2, n3]⟩ : Shape).ReducesTo [0, 1] ⟨2, ![n2, n3]⟩)
    (i : (⟨4, ![n0, n1, n2, n3]⟩ : Shape).Idx) : ((h.drop i 1 : Fin _) : Nat) = i 3 :=
  h.drop_apply_val_of_eq i 1 3
    (by show (1 : Nat) < ((List.finRange 4).filter (· ∉ ([0, 1] : List (Fin 4)))).length; decide)
    (by show ((List.finRange 4).filter (· ∉ ([0, 1] : List (Fin 4))))[1]'(by decide) = (3 : Fin 4); decide)

/-- With axes 0, 1 dropped, an index lands on (r, k) exactly when its coordinates on axes 2, 3 are r, k. -/
private theorem drop_keep23_iff {n0 n1 n2 n3 : Nat}
    (h : (⟨4, ![n0, n1, n2, n3]⟩ : Shape).ReducesTo [0, 1] ⟨2, ![n2, n3]⟩)
    (i : (⟨4, ![n0, n1, n2, n3]⟩ : Shape).Idx) (r : Fin n2) (k : Fin n3) :
    h.drop i = ix2 r k ↔ (i 2 = r ∧ i 3 = k) := by
  have h0 : ((h.drop i 0 : Fin _) : Nat) = i 2 := drop_keep23_val0 h i
  have h1 : ((h.drop i 1 : Fin _) : Nat) = i 3 := drop_keep23_val1 h i
  constructor
  · intro e
    constructor
    · apply Fin.ext
      rw [← h0, e]
      rfl
    · apply Fin.ext
      rw [← h1, e]
      rfl
  · rintro ⟨e2, e3⟩
    funext d
    match d with
    | ⟨0, _⟩ =>
      apply Fin.ext
      exact h0.trans (congrArg Fin.val e2)
    | ⟨1, _⟩ =>
      apply Fin.ext
      exact h1.trans (congrArg Fin.val e3)

/-- Reducing axes 0, 1 of [n0, n1, n2, n3] into [n2, n3]: at (r, k), the initial value plus the sum over (a, b). -/
theorem hostReduceAdd_keep23 {n0 n1 n2 n3 : Nat}
    (h : (⟨4, ![n0, n1, n2, n3]⟩ : Shape).ReducesTo [0, 1] ⟨2, ![n2, n3]⟩)
    (x : (⟨4, ![n0, n1, n2, n3]⟩ : Shape).Idx → EReal) (init : EReal) (r : Fin n2) (k : Fin n3) :
    Ideal.hostReduceAdd h x init (ix2 r k) = init + ∑ a : Fin n0, ∑ b : Fin n1, x (ix4 a b r k) := by
  unfold Ideal.hostReduceAdd
  refine congrArg (init + ·) ?_
  -- the filtered sum as a sum of conditional terms, over the four coordinates
  rw [Finset.sum_filter, sum_idx4]
  refine Finset.sum_congr rfl fun a _ => Finset.sum_congr rfl fun b _ => ?_
  -- on axes 2, 3 only the coordinates (r, k) contribute
  rw [Finset.sum_eq_single r]
  · rw [Finset.sum_eq_single k]
    · rw [if_pos ((drop_keep23_iff h _ r k).2 ⟨rfl, rfl⟩)]
    · intro d _ hd
      rw [if_neg (fun e => hd ((drop_keep23_iff h _ r k).1 e).2)]
    · intro hk
      exact absurd (Finset.mem_univ k) hk
  · intro c _ hc
    refine Finset.sum_eq_zero fun d _ => ?_
    rw [if_neg (fun e => hc ((drop_keep23_iff h _ r k).1 e).1)]
  · intro hr
    exact absurd (Finset.mem_univ r) hr

end Cert.LibReduce

end
-- ==== Proof.KernelHost.lean ====
/-
  The host lines around the region. Before it: the table wt[c, s] = hot (sub[c]) s, made by comparing sub against
  0 … 3. After it: the two statistics arrays summed over the 8 x 8 tiles, their three rows sliced apart, and the dice
  loss from the six families of sums and the class weights.
-/
import proofs.«402975_j51522427682884_1_alg».proof.Proof.Gen.KernelIdeal.Frame
import proofs.«402975_j51522427682884_1_alg».proof.Proof.Spec
import proofs.«402975_j51522427682884_1_alg».proof.Proof.LibReduce
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

namespace Cert.KernelIdeal.HostSide

open Cert.KernelIdeal Cert.KernelIdeal.Gen Cert.Dice
open Idealize.ShloMosaic Idealize.ShloMosaic.TcCoe Idealize.ShloMosaic.ValueIdx Idealize.SL.Sem

variable (m : (ℓ : Loc nD τ sig) → Buf (Elt Ideal) ℓ)

/-! ## Small readings of the host lines, over variables -/

/-- A rank-1 index set is its one coordinate's range … -/
private def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
private theorem sum_idx1 {n : Nat} (f : (⟨1, ![n]⟩ : Shape).Idx → EReal) :
    ∑ i, f i = ∑ k : Fin n, f (ix1 k) := by
  rw [← Equiv.sum_comp (idxEquiv1 (n := n)).symm f]
  rfl

/-- A host sum of a vector into a scalar, from the zero word: zero plus the sum over the coordinate. -/
private theorem scalarSum {n : Nat} (x : (⟨1, ![n]⟩ : Shape).Idx → EReal)
    (h : (⟨1, ![n]⟩ : Shape).ReducesTo [0] ⟨0, ![]⟩) (hu : 0 < (⟨0, ![]⟩ : Shape).numel) (j : (⟨0, ![]⟩ : Shape).Idx) :
    (Host.reduceAdd (F := Ideal) (φ := .f32) x (constant (F := Ideal) ⟨0, ![]⟩ .f32 0x00000000#32) h hu) j
      = 0 + ∑ k : Fin n, x (ix1 k) := by
  rw [hostReduceAdd_apply, Ideal.hostReduceAdd_total h (fun b => b.elim0) x _ j, constant_apply, Ideal.ofBits_zero_f32,
    sum_idx1]

/-- A host sum of a statistics array over its two tile axes, from the zero word, at (r, k): the tiles' sum. -/
private theorem tileRows {K : Nat} (A : (⟨4, ![8, 8, 3, K]⟩ : Shape).Idx → EReal)
    (h : (⟨4, ![8, 8, 3, K]⟩ : Shape).ReducesTo [0, 1] ⟨2, ![3, K]⟩) (hu : 0 < (⟨0, ![]⟩ : Shape).numel)
    (r : Fin 3) (k : Fin K) :
    (Host.reduceAdd (F := Ideal) (φ := .f32) A (constant (F := Ideal) ⟨0, ![]⟩ .f32 0x00000000#32) h hu) (ix2 r k)
      = tilesSum A r k := by
  rw [hostReduceAdd_apply, Cert.LibReduce.hostReduceAdd_keep23 h A _ r k, constant_apply, Ideal.ofBits_zero_f32]
  rfl

/-- Row r of a [3, K] array sliced out and flattened, at k: the array at (r, k). -/
private theorem rowRead {K : Nat} (X : (⟨2, ![3, K]⟩ : Shape).Idx → EReal) (r : Nat) (hr : r < 3)
    (hs : (⟨2, ![3, K]⟩ : Shape).Slices ![r, 0] ⟨2, ![1, K]⟩)
    (hc : (⟨2, ![1, K]⟩ : Shape).ShapeCasts ⟨1, ![K]⟩) (k : Fin K) :
    shapeCast ⟨1, ![K]⟩ (extractStridedSlice ⟨2, ![1, K]⟩ ![r, 0] X hs) hc (ix1 k) = X (ix2 (⟨r, hr⟩ : Fin 3) k) := by
  refine (shapeCast_apply _ hc (ix1 k) (ix2 (0 : Fin 1) k) ?_).trans ?_
  · rw [Shape.rowMajor_val_two, Shape.rowMajor_val_one]
    show (0 : Nat) * K + k.val = k.val
    omega
  · exact extractStridedSlice_apply ![r, 0] X hs (ix2 (0 : Fin 1) k) (ix2 (⟨r, hr⟩ : Fin 3) k)
      (fun a => by
        match a with
        | ⟨0, _⟩ => show r = r + 0; rfl
        | ⟨1, _⟩ => show k.val = 0 + k.val; omega)

/-- The dice vector of one family of channels, as the lines after the region compute it from a statistics array:
    the three rows of the tiles' sums sliced apart, then one minus the quotient, channel by channel. -/
private theorem diceRow {K : Nat} (A : (⟨4, ![8, 8, 3, K]⟩ : Shape).Idx → EReal)
    (hred : (⟨4, ![8, 8, 3, K]⟩ : Shape).ReducesTo [0, 1] ⟨2, ![3, K]⟩) (hu : 0 < (⟨0, ![]⟩ : Shape).numel)
    (hb : (⟨0, ![]⟩ : Shape).BroadcastsInDim ⟨1, ![K]⟩ ![])
    (hs0 : (⟨2, ![3, K]⟩ : Shape).Slices ![0, 0] ⟨2, ![1, K]⟩)
    (hs1 : (⟨2, ![3, K]⟩ : Shape).Slices ![1, 0] ⟨2, ![1, K]⟩)
    (hs2 : (⟨2, ![3, K]⟩ : Shape).Slices ![2, 0] ⟨2, ![1, K]⟩)
    (hc : (⟨2, ![1, K]⟩ : Shape).ShapeCasts ⟨1, ![K]⟩) (k : Fin K) :
    subf (F := Ideal) (φ := .f32)
      (broadcastInDim ⟨1, ![K]⟩ ![] hb (constant (F := Ideal) ⟨0, ![]⟩ .f32 0x3F800000#32))
      (Host.divf
        (addf
          (mulf (broadcastInDim ⟨1, ![K]⟩ ![] hb (constant (F := Ideal) ⟨0, ![]⟩ .f32 0x40000000#32))
            (fun i => shapeCast ⟨1, ![K]⟩ (extractStridedSlice ⟨2, ![1, K]⟩ ![0, 0]
              (Host.reduceAdd (F := Ideal) (φ := .f32) A (constant (F := Ideal) ⟨0, ![]⟩ .f32 0x00000000#32) hred hu) hs0) hc i))
          (broadcastInDim ⟨1, ![K]⟩ ![] hb (constant (F := Ideal) ⟨0, ![]⟩ .f32 0x33D6BF95#32)))
        (addf
          (addf
            (fun i => shapeCast ⟨1, ![K]⟩ (extractStridedSlice ⟨2, ![1, K]⟩ ![1, 0]
              (Host.reduceAdd (F := Ideal) (φ := .f32) A (constant (F := Ideal) ⟨0, ![]⟩ .f32 0x00000000#32) hred hu) hs1) hc i)
            (fun i => shapeCast ⟨1, ![K]⟩ (extractStridedSlice ⟨2, ![1, K]⟩ ![2, 0]
              (Host.reduceAdd (F := Ideal) (φ := .f32) A (constant (F := Ideal) ⟨0, ![]⟩ .f32 0x00000000#32) hred hu) hs2) hc i))
          (broadcastInDim ⟨1, ![K]⟩ ![] hb (constant (F := Ideal) ⟨0, ![]⟩ .f32 0x33D6BF95#32))))
      (ix1 k)
      = dice (tilesSum A 0 k) (tilesSum A 1 k) (tilesSum A 2 k) := by
  rw [subf_apply, hostDivf_apply, addf_apply, addf_apply, addf_apply, mulf_apply]
  simp only [broadcastInDim_scalar_apply, constant_apply]
  rw [rowRead _ 0 (by omega) hs0 hc k, rowRead _ 1 (by omega) hs1 hc k, rowRead _ 2 (by omega) hs2 hc k,
    tileRows A hred hu _ k, tileRows A hred hu _ k, tileRows A hred hu _ k]
  rfl

/-- The last lines: a tenth of the superclass dice sum over four, plus the weighted class dice sum over the weights'
    sum, each sum taken from zero. -/
private theorem tailScalar (DS : (⟨1, ![4]⟩ : Shape).Idx → EReal) (DCW w : (⟨1, ![12]⟩ : Shape).Idx → EReal)
    (dS : Fin 4 → EReal) (dC : Fin 12 → EReal)
    (hS : ∀ s, DS (ix1 s) = dS s) (hC : ∀ k, DCW (ix1 k) = dC k * w (ix1 k))
    (h4 : (⟨1, ![4]⟩ : Shape).ReducesTo [0] ⟨0, ![]⟩) (h12 : (⟨1, ![12]⟩ : Shape).ReducesTo [0] ⟨0, ![]⟩)
    (hu : 0 < (⟨0, ![]⟩ : Shape).numel) (j : (⟨0, ![]⟩ : Shape).Idx) :
    addf (F := Ideal) (φ := .f32)
      (Host.divf
        (mulf (constant (F := Ideal) ⟨0, ![]⟩ .f32 0x3DCCCCCD#32)
          (Host.reduceAdd (F := Ideal) (φ := .f32) DS (constant (F := Ideal) ⟨0, ![]⟩ .f32 0x00000000#32) h4 hu))
        (constant (F := Ideal) ⟨0, ![]⟩ .f32 0x40800000#32))
      (Host.divf
        (Host.reduceAdd (F := Ideal) (φ := .f32) DCW (constant (F := Ideal) ⟨0, ![]⟩ .f32 0x00000000#32) h12 hu)
        (Host.reduceAdd (F := Ideal) (φ := .f32) w (constant (F := Ideal) ⟨0, ![]⟩ .f32 0x00000000#32) h12 hu))
      j
      = Ideal.div (Ideal.ofBits .f32 0x3DCCCCCD#32 * (0 + ∑ s : Fin 4, dS s)) (Ideal.ofBits .f32 0x40800000#32)
        + Ideal.div (0 + ∑ k : Fin 12, dC k * w (ix1 k)) (0 + ∑ k : Fin 12, w (ix1 k)) := by
  rw [addf_apply, hostDivf_apply, hostDivf_apply, mulf_apply, constant_apply, constant_apply,
    scalarSum DS h4 hu j, scalarSum DCW h12 hu j, scalarSum w h12 hu j]
  simp only [hS, hC]

/-- The table's word comparison at an index: class p's superclass word against the number q. -/
private theorem table_at (sub : S12.Idx → BitVec 32)
    (h0 : S12.BroadcastsInDim S12x1 (![0] : Fin 1 → Fin S12x1.rank))
    (h1 : S4.BroadcastsInDim S1x4 (![1] : Fin 1 → Fin S1x4.rank))
    (h2 : S12x1.BroadcastsInDim S12x4 (![0, 1] : Fin 2 → Fin S12x4.rank))
    (h3 : S1x4.BroadcastsInDim S12x4 (![0, 1] : Fin 2 → Fin S12x4.rank))
    (p : Fin 12) (q : Fin 4) :
    (uitofp (F := Ideal) .f32 (cmpi .eq
        (broadcastInDim S12x4 ![0, 1] h2 (broadcastInDim S12x1 ![0] h0 sub))
        (broadcastInDim S12x4 ![0, 1] h3 (broadcastInDim S1x4 ![1] h1 (iotaInDim S4 32 0))))
      : S12x4.Idx → EReal) (ix2 p q) = hot (sub (ix1 p)) q.val := by
  have e1 : broadcastInDim S12x4 ![0, 1] h2 (broadcastInDim S12x1 ![0] h0 sub) (ix2 p q) = sub (ix1 p) := by
    refine (broadcastInDim_apply _ h2 _ (ix2 p q) (ix2 p (0 : Fin 1))
      (fun a => by match a with | ⟨0, _⟩ => rfl | ⟨1, _⟩ => rfl)).trans ?_
    exact broadcastInDim_apply _ h0 sub (ix2 p (0 : Fin 1)) (ix1 p) (fun a => by match a with | ⟨0, _⟩ => rfl)
  have e2 : broadcastInDim S12x4 ![0, 1] h3 (broadcastInDim S1x4 ![1] h1 (iotaInDim S4 32 0)) (ix2 p q)
      = BitVec.ofNat 32 q.val := by
    refine (broadcastInDim_apply _ h3 _ (ix2 p q) (ix2 (0 : Fin 1) q)
      (fun a => by match a with | ⟨0, _⟩ => rfl | ⟨1, _⟩ => rfl)).trans ?_
    exact broadcastInDim_apply _ h1 (iotaInDim S4 32 0) (ix2 (0 : Fin 1) q) (ix1 q) (fun a => by match a with | ⟨0, _⟩ => rfl)
  show FloatOps.uitofp (F := Ideal) .f32 (IntOp.cmpi .eq
      (broadcastInDim S12x4 ![0, 1] h2 (broadcastInDim S12x1 ![0] h0 sub) (ix2 p q))
      (broadcastInDim S12x4 ![0, 1] h3 (broadcastInDim S1x4 ![1] h1 (iotaInDim S4 32 0)) (ix2 p q))) = _
  rw [e1, e2]
  unfold hot
  by_cases h : sub (ix1 p) = BitVec.ofNat 32 q.val
  · rw [if_pos h, h]
    show (((IntOp.cmpi .eq (BitVec.ofNat 32 q.val) (BitVec.ofNat 32 q.val)).toNat : ℝ) : EReal) = 1
    have : IntOp.cmpi .eq (BitVec.ofNat 32 q.val) (BitVec.ofNat 32 q.val) = 1#1 := by
      simp [IntOp.cmpi]
    rw [this]; simp
  · rw [if_neg h]
    show (((IntOp.cmpi .eq (sub (ix1 p)) (BitVec.ofNat 32 q.val)).toNat : ℝ) : EReal) = 0
    have : IntOp.cmpi .eq (sub (ix1 p)) (BitVec.ofNat 32 q.val) = 0#1 := by
      show BitVec.ofBool (sub (ix1 p) == BitVec.ofNat 32 q.val) = 0#1
      rw [beq_eq_false_iff_ne.mpr h]; rfl
    rw [this]; simp

/-- The table the region finds is the one-hot of the class-to-superclass map. -/
theorem table_eq (c : Dev nD) :
    (V m c main_v6 : S12x4.Idx → EReal) = mixW (m ((c : Thread nD τ).loc main_arg4)) := by
  show StableHlo.after hostOps0 (fun b => m (c, b)) (Proc.devRef .tc main_v6) = _
  after_results
  funext i
  obtain ⟨p, q, rfl⟩ : ∃ (p : Fin 12) (q : Fin 4), i = ix2 p q := ⟨i 0, i 1, eq_ix2 i⟩
  exact table_at _ _ _ _ _ p q

set_option maxHeartbeats 4000000 in
/-- The loss the lines after the region leave, from the two statistics arrays as the region left them. -/
theorem loss_tail (c : Dev nD) :
    (Pipeline.afterTail₀ cfgs (dats m) 0 (V0 m) [hostOps1] c main_v49 : S_.Idx → EReal)
      = fun _ => lossOf
          (tilesSum ((dats m 0 c).arrAt 6 cfg0.N : S8x8x3x12.Idx → EReal) 0)
          (tilesSum ((dats m 0 c).arrAt 6 cfg0.N : S8x8x3x12.Idx → EReal) 1)
          (tilesSum ((dats m 0 c).arrAt 6 cfg0.N : S8x8x3x12.Idx → EReal) 2)
          (tilesSum ((dats m 0 c).arrAt 7 cfg0.N : S8x8x3x4.Idx → EReal) 0)
          (tilesSum ((dats m 0 c).arrAt 7 cfg0.N : S8x8x3x4.Idx → EReal) 1)
          (tilesSum ((dats m 0 c).arrAt 7 cfg0.N : S8x8x3x4.Idx → EReal) 2)
          (fun k => (m ((c : Thread nD τ).loc main_arg2) : S12.Idx → EReal) (ix1 k)) := by
  unfold Pipeline.afterTail₀
  simp only [hostOps1, List.flatten_cons, List.flatten_nil, List.append_nil]
  after_results_simp
  -- the three buffers the lines read: the two statistics arrays as the region left them, the weights as launched
  have h6 : Pipeline.withArrays (cfgs 0).spec c (V0 m c) (fun w => (dats m 0 c).arrAt w (cfgs 0).N)
      (Proc.devRef .tc main_v7_2) = (dats m 0 c).arrAt 6 cfg0.N :=
    Pipeline.withArrays_arr spec0 launch0.win.arr_inj c _ _ 6
  have h7 : Pipeline.withArrays (cfgs 0).spec c (V0 m c) (fun w => (dats m 0 c).arrAt w (cfgs 0).N)
      (Proc.devRef .tc main_v7_3) = (dats m 0 c).arrAt 7 cfg0.N :=
    Pipeline.withArrays_arr spec0 launch0.win.arr_inj c _ _ 7
  have h2 : Pipeline.withArrays (cfgs 0).spec c (V0 m c) (fun w => (dats m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  rw [h6, h7, h2]
  generalize ((dats m 0 c).arrAt 6 cfg0.N : S8x8x3x12.Idx → EReal) = A6
  generalize ((dats m 0 c).arrAt 7 cfg0.N : S8x8x3x4.Idx → EReal) = A7
  generalize (m ((c : Thread nD τ).loc main_arg2) : S12.Idx → EReal) = w
  funext j
  refine (tailScalar _ _ w
    (fun s => dice (tilesSum A7 0 s) (tilesSum A7 1 s) (tilesSum A7 2 s))
    (fun k => dice (tilesSum A6 0 k) (tilesSum A6 1 k) (tilesSum A6 2 k)) ?_ ?_ _ _ _ j).trans ?_
  · intro s
    exact diceRow A7 _ _ _ _ _ _ _ s
  · intro k
    rw [mulf_apply]
    exact congrArg (· * w (ix1 k)) (diceRow A6 _ _ _ _ _ _ _ k)
  · rfl

end Cert.KernelIdeal.HostSide

end
-- ==== Proof.Bridge.lean ====
/-
  The two sides meet. With every label inside 0 … 11 and every class's superclass inside 0 … 3:
  * the kernel's product array, class score times the super scores mixed through the table hot (sub[c]) s, is the class
    score times the super score gathered at sub[c];
  * the kernel's statistics, summed over the 8 x 8 tiles, are the sums over (batch, row, column) of each channel; and the
    mixed super one-hot under those sums is the super one-hot read directly; so the loss is the same function of the
    same six families of sums.
  Stated over the arrays as the kernel's program is launched with them.
-/
import proofs.«402975_j51522427682884_1_alg».proof.Proof.SpecLaws
import proofs.«402975_j51522427682884_1_alg».proof.Proof.KernelArrays
import proofs.«402975_j51522427682884_1_alg».proof.Proof.KernelHost

set_option maxRecDepth 16384

noncomputable section

namespace Cert.KernelIdeal.Bridge

open Cert.KernelIdeal Cert.KernelIdeal.Gen Cert.Dice
open Idealize.ShloMosaic Idealize.ShloMosaic.TcCoe Idealize.ShloMosaic.ValueIdx Idealize.SL.Sem

variable (m : (ℓ : Loc nD τ sig) → Buf (Elt Ideal) ℓ)

/-- The five argument arrays as launched, at their literal types. -/
abbrev supA (c : Dev nD) : S8x4x512x512.Idx → EReal := m ((c : Thread nD τ).loc main_arg0)
abbrev clsA (c : Dev nD) : S8x12x512x512.Idx → EReal := m ((c : Thread nD τ).loc main_arg1)
abbrev wtsA (c : Dev nD) : S12.Idx → EReal := m ((c : Thread nD τ).loc main_arg2)
abbrev tgtA (c : Dev nD) : S8x512x512.Idx → BitVec 32 := m ((c : Thread nD τ).loc main_arg3)
abbrev subA (c : Dev nD) : S12.Idx → BitVec 32 := m ((c : Thread nD τ).loc main_arg4)

/-- The three results as functions of the arguments. -/
def lossFn (c : Dev nD) : S_.Idx → EReal :=
  fun _ => lossOf
    (chanSum fun i => clsA m c i * oneHot (tgtA m c) i) (chanSum (clsA m c)) (chanSum (oneHot (tgtA m c)))
    (chanSum fun i => supA m c i * superHotAt (subA m c) (tgtA m c) i) (chanSum (supA m c))
    (chanSum (superHotAt (subA m c) (tgtA m c)))
    (fun k => wtsA m c (ix1 k))
def scoresFn (c : Dev nD) : S8x12x512x512.Idx → EReal :=
  fun i => clsA m c i * gatheredAt (subA m c) (supA m c) i
def onehotFn (c : Dev nD) : S8x12x512x512.Idx → EReal := oneHot (tgtA m c)

/-- Each row of a statistics array, summed over the tiles, is a channel sum: as functions of the channel. -/
theorem tiles0 {K : Nat} (x0 x1 x2 : (⟨4, ![8, K, 512, 512]⟩ : Shape).Idx → EReal) :
    tilesSum (statsArr x0 x1 x2) 0 = chanSum x0 := funext fun k => tilesSum_statsArr0 x0 x1 x2 k
theorem tiles1 {K : Nat} (x0 x1 x2 : (⟨4, ![8, K, 512, 512]⟩ : Shape).Idx → EReal) :
    tilesSum (statsArr x0 x1 x2) 1 = chanSum x1 := funext fun k => tilesSum_statsArr1 x0 x1 x2 k
theorem tiles2 {K : Nat} (x0 x1 x2 : (⟨4, ![8, K, 512, 512]⟩ : Shape).Idx → EReal) :
    tilesSum (statsArr x0 x1 x2) 2 = chanSum x2 := funext fun k => tilesSum_statsArr2 x0 x1 x2 k

/-- The region finds the arguments as launched. -/
theorem cls_eq (c : Dev nD) : Arrays.clsArr m c = clsA m c := V_main_arg1 m c
theorem sup_eq (c : Dev nD) : Arrays.supArr m c = supA m c := V_main_arg0 m c
theorem tgt_eq (c : Dev nD) : Arrays.tgtArr m c = tgtA m c := V_main_arg3 m c
theorem wt_eq (c : Dev nD) : Arrays.wtArr m c = mixW (subA m c) := HostSide.table_eq m c

/-- The product array. -/
theorem scores_eq (c : Dev nD) (hs : ∀ k, (subA m c k).toNat < 4) : Arrays.scoresOut m c = scoresFn m c := by
  rw [Arrays.scores_final, cls_eq, sup_eq, wt_eq]
  funext i
  show clsA m c i * gatheredBy (mixW (subA m c)) (supA m c) i = clsA m c i * gatheredAt (subA m c) (supA m c) i
  rw [gatheredBy_mixW _ _ _ (hs _)]

/-- The one-hot array. -/
theorem onehot_eq (c : Dev nD) : Arrays.onehotOut m c = onehotFn m c := by
  rw [Arrays.onehot_final, tgt_eq]; rfl

/-- The loss. -/
theorem loss_eq (c : Dev nD) (ht : ∀ i, (tgtA m c i).toNat < 12) :
    (Pipeline.afterTail₀ cfgs (dats m) 0 (V0 m) [hostOps1] c main_v49 : S_.Idx → EReal) = lossFn m c := by
  rw [HostSide.loss_tail]
  have e6 : ((dats m 0 c).arrAt 6 cfg0.N : S8x8x3x12.Idx → EReal)
      = statsArr (fun i => clsA m c i * oneHot (tgtA m c) i) (clsA m c) (oneHot (tgtA m c)) := by
    have := Arrays.statsC_final m c
    rw [cls_eq, tgt_eq] at this
    exact this
  have hmix : superHotBy (mixW (subA m c)) (tgtA m c) = superHotAt (subA m c) (tgtA m c) :=
    funext fun i => superHotBy_mixW _ _ i (ht _)
  have e7 : ((dats m 0 c).arrAt 7 cfg0.N : S8x8x3x4.Idx → EReal)
      = statsArr (fun i => supA m c i * superHotAt (subA m c) (tgtA m c) i) (supA m c) (superHotAt (subA m c) (tgtA m c)) := by
    have := Arrays.statsS_final m c
    rw [sup_eq, tgt_eq, wt_eq, hmix] at this
    exact this
  rw [e6, e7]
  simp only [tiles0, tiles1, tiles2]
  rfl

end Cert.KernelIdeal.Bridge

end
-- ==== Proof.RefSide.lean ====
/-
  The reference's three results as functions of its arguments: the label one-hot; the class score times the super score
  gathered at the class's superclass; and the dice loss from the six families of sums over (batch, row, column).
  The reference indexes sub by the label and sup by sub; an index is first wrapped (a negative one has the extent
  added) and then held inside the array, both of which leave an index inside the range as it is.
-/
import proofs.«402975_j51522427682884_1_alg».proof.Proof.Gen.ReferenceIdeal.Run
import proofs.«402975_j51522427682884_1_alg».proof.Proof.Gen.ReferenceIdeal.Read
import proofs.«402975_j51522427682884_1_alg».proof.Proof.Spec
import proofs.«402975_j51522427682884_1_alg».proof.Proof.LibReduce
import Idealize.ShloMosaic.Lib.Pipeline.Value
import Idealize.ShloMosaic.Lib.ValueIdx
import Idealize.ShloMosaic.PureOps.Ideal.Laws

set_option maxRecDepth 16384

noncomputable section

namespace Cert.ReferenceIdeal.RefSide

open Cert.ReferenceIdeal Cert.ReferenceIdeal.Gen Cert.ReferenceIdeal.Read Cert.Dice
open Idealize.ShloMosaic Idealize.ShloMosaic.ValueIdx

/-! ## Words: the equality bit as a number, and an index inside its range through the wrap and the clamp -/

/-- The equality bit of two words, read as a number, is the indicator of the equality. -/
private theorem uitofp_cmpi_eq (t : BitVec 32) (k : Nat) :
    (FloatOps.uitofp (F := Ideal) .f32 (IntOp.cmpi .eq t (BitVec.ofNat 32 k)) : EReal) = hot t k := by
  unfold hot
  by_cases h : t = BitVec.ofNat 32 k
  · rw [if_pos h]
    have hb : IntOp.cmpi .eq t (BitVec.ofNat 32 k) = 1#1 := by
      show BitVec.ofBool (t == BitVec.ofNat 32 k) = 1#1
      rw [beq_iff_eq.mpr h]; rfl
    rw [hb]
    show (((1#1 : BitVec 1).toNat : ℝ) : EReal) = 1
    simp
  · rw [if_neg h]
    have hb : IntOp.cmpi .eq t (BitVec.ofNat 32 k) = 0#1 := by
      show BitVec.ofBool (t == BitVec.ofNat 32 k) = 0#1
      rw [beq_eq_false_iff_ne.mpr h]; rfl
    rw [hb]
    show (((0#1 : BitVec 1).toNat : ℝ) : EReal) = 0
    simp

/-- A word below 2 ^ 31 is not negative read signed, so the wrap of a negative index keeps it. -/
private theorem wrap_of_small (x y : BitVec 32) (hx : x.toNat < 2147483648) :
    Scalar.select (IntOp.cmpi .slt x 0#32) y x = x := by
  have hb : IntOp.cmpi .slt x 0#32 = 0#1 := by
    show BitVec.ofBool (x.slt 0#32) = 0#1
    have hf : x.slt 0#32 = false := by
      rw [BitVec.slt_zero_eq_msb, BitVec.msb_eq_false_iff_two_mul_lt]; omega
    rw [hf]; rfl
  rw [hb]; exact select_zero _ _

/-- A word below 2 ^ 31 read signed is the word read unsigned. -/
private theorem toInt_toNat_of_small (x : BitVec 32) (hx : x.toNat < 2147483648) : x.toInt.toNat = x.toNat := by
  rw [BitVec.toInt_eq_toNat_of_lt (by omega)]
  exact Int.toNat_natCast _

/-! ## A sum over a rank-1 index set is the sum over its coordinate -/

private def rank1Equiv {n : Nat} : (⟨1, ![n]⟩ : Shape).Idx ≃ Fin n where
  toFun i := i 0
  invFun := ix1
  left_inv i := (eq_ix1 i).symm
  right_inv _ := rfl

private theorem sum_rank1 {M : Type*} [AddCommMonoid M] {n : Nat} (f : (⟨1, ![n]⟩ : Shape).Idx → M) :
    ∑ i, f i = ∑ a : Fin n, f (ix1 a) := by
  rw [← Equiv.sum_comp (rank1Equiv (n := n)).symm f]
  rfl

/-! ## The two gathers read at an index -/

/-- sup gathered along its channel axis at a [12, 1] array of start indices: result (b, c, h, w) is sup at
    (b, the start index at (c, 0) read signed and held inside 0 … 3, h, w). -/
private theorem gather_sup_apply (x : S8x4x512x512.Idx → EReal) (idx : S12x1.Idx → BitVec 32)
    (b : Fin 8) (c : Fin 12) (h w : Fin 512) (k : Fin 4)
    (hk : min (idx (ix2 c (0 : Fin 1))).toInt.toNat 3 = k.val) :
    Host.gather gather_S8x4x512x512_S12x1_S8x12x512x512_023_1_n_n_1_1_81512512 x idx (ix4 b c h w)
      = x (ix4 b k h w) := by
  unfold Host.gather
  congr 1
  funext a
  refine Fin.ext ?_
  match a with
  | ⟨0, _⟩ =>
    show GatherDims.start gather_S8x4x512x512_S12x1_S8x12x512x512_023_1_n_n_1_1_81512512 (ix4 b c h w) idx (0 : Fin 4)
        + GatherDims.batchCoord gather_S8x4x512x512_S12x1_S8x12x512x512_023_1_n_n_1_1_81512512 (ix4 b c h w) (0 : Fin 4)
        + GatherDims.offCoord gather_S8x4x512x512_S12x1_S8x12x512x512_023_1_n_n_1_1_81512512 (ix4 b c h w) (0 : Fin 4) = b.val
    rw [GatherDims.batchCoord_eq_zero _ _ _ List.not_mem_nil]
    unfold GatherDims.start GatherDims.offCoord
    rw [dif_neg (by decide), dif_pos (by decide)]
    simp only [Nat.zero_add]
    rfl
  | ⟨1, _⟩ =>
    show GatherDims.start gather_S8x4x512x512_S12x1_S8x12x512x512_023_1_n_n_1_1_81512512 (ix4 b c h w) idx (1 : Fin 4)
        + GatherDims.batchCoord gather_S8x4x512x512_S12x1_S8x12x512x512_023_1_n_n_1_1_81512512 (ix4 b c h w) (1 : Fin 4)
        + GatherDims.offCoord gather_S8x4x512x512_S12x1_S8x12x512x512_023_1_n_n_1_1_81512512 (ix4 b c h w) (1 : Fin 4) = k.val
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (1 : Fin 4) ∈ (gather_S8x4x512x512_S12x1_S8x12x512x512_023_1_n_n_1_1_81512512).startIndexMap from
      List.mem_singleton.mpr rfl)]
    have hsi : (gather_S8x4x512x512_S12x1_S8x12x512x512_023_1_n_n_1_1_81512512).siIdx (ix4 b c h w)
        ⟨List.idxOf (1 : Fin 4) (gather_S8x4x512x512_S12x1_S8x12x512x512_023_1_n_n_1_1_81512512).startIndexMap,
          List.idxOf_lt_length_iff.2 (List.mem_singleton.mpr rfl)⟩ = ix2 c (0 : Fin 1) := by
      funext b'; refine Fin.ext ?_
      match b' with
      | ⟨0, _⟩ => rfl
      | ⟨1, _⟩ => rfl
    rw [hsi]
    exact hk
  | ⟨2, _⟩ =>
    show GatherDims.start gather_S8x4x512x512_S12x1_S8x12x512x512_023_1_n_n_1_1_81512512 (ix4 b c h w) idx (2 : Fin 4)
        + GatherDims.batchCoord gather_S8x4x512x512_S12x1_S8x12x512x512_023_1_n_n_1_1_81512512 (ix4 b c h w) (2 : Fin 4)
        + GatherDims.offCoord gather_S8x4x512x512_S12x1_S8x12x512x512_023_1_n_n_1_1_81512512 (ix4 b c h w) (2 : Fin 4) = h.val
    rw [GatherDims.batchCoord_eq_zero _ _ _ List.not_mem_nil]
    unfold GatherDims.start GatherDims.offCoord
    rw [dif_neg (by decide), dif_pos (by decide)]
    simp only [Nat.zero_add]
    rfl
  | ⟨3, _⟩ =>
    show GatherDims.start gather_S8x4x512x512_S12x1_S8x12x512x512_023_1_n_n_1_1_81512512 (ix4 b c h w) idx (3 : Fin 4)
        + GatherDims.batchCoord gather_S8x4x512x512_S12x1_S8x12x512x512_023_1_n_n_1_1_81512512 (ix4 b c h w) (3 : Fin 4)
        + GatherDims.offCoord gather_S8x4x512x512_S12x1_S8x12x512x512_023_1_n_n_1_1_81512512 (ix4 b c h w) (3 : Fin 4) = w.val
    rw [GatherDims.batchCoord_eq_zero _ _ _ List.not_mem_nil]
    unfold GatherDims.start GatherDims.offCoord
    rw [dif_neg (by decide), dif_pos (by decide)]
    simp only [Nat.zero_add]
    rfl

/-- sub gathered at an [8, 512, 512, 1] array of start indices: result (b, h, w) is sub at the start index at
    (b, h, w, 0) read signed and held inside 0 … 11. -/
private theorem gather_sub_apply (x : S12.Idx → BitVec 32) (idx : S8x512x512x1.Idx → BitVec 32)
    (b : Fin 8) (h w : Fin 512) (k : Fin 12)
    (hk : min (idx (ix4 b h w (0 : Fin 1))).toInt.toNat 11 = k.val) :
    Host.gather gather_S12_S8x512x512x1_S8x512x512_n_0_n_n_0_3_1 x idx (ix3 b h w) = x (ix1 k) := by
  unfold Host.gather
  congr 1
  funext a
  refine Fin.ext ?_
  match a with
  | ⟨0, _⟩ =>
    show GatherDims.start gather_S12_S8x512x512x1_S8x512x512_n_0_n_n_0_3_1 (ix3 b h w) idx (0 : Fin 1)
        + GatherDims.batchCoord gather_S12_S8x512x512x1_S8x512x512_n_0_n_n_0_3_1 (ix3 b h w) (0 : Fin 1)
        + GatherDims.offCoord gather_S12_S8x512x512x1_S8x512x512_n_0_n_n_0_3_1 (ix3 b h w) (0 : Fin 1) = k.val
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 1) ∈ (gather_S12_S8x512x512x1_S8x512x512_n_0_n_n_0_3_1).startIndexMap from
      List.mem_singleton.mpr rfl)]
    have hsi : (gather_S12_S8x512x512x1_S8x512x512_n_0_n_n_0_3_1).siIdx (ix3 b h w)
        ⟨List.idxOf (0 : Fin 1) (gather_S12_S8x512x512x1_S8x512x512_n_0_n_n_0_3_1).startIndexMap,
          List.idxOf_lt_length_iff.2 (List.mem_singleton.mpr rfl)⟩ = ix4 b h w (0 : Fin 1) := by
      funext b'; refine Fin.ext ?_
      match b' with
      | ⟨0, _⟩ => rfl
      | ⟨1, _⟩ => rfl
      | ⟨2, _⟩ => rfl
      | ⟨3, _⟩ => rfl
    rw [hsi]
    exact hk

/-! ## A host sum over batch, row and column from the zero word, read at a channel -/

private theorem reduce_chan {K : Nat} (hr : (⟨4, ![8, K, 512, 512]⟩ : Shape).ReducesTo [0, 2, 3] ⟨1, ![K]⟩)
    (hu : 0 < S_.numel) (x : (⟨4, ![8, K, 512, 512]⟩ : Shape).Idx → EReal) (init : S_.Idx → EReal)
    (hi : ∀ j, init j = Ideal.ofBits .f32 0x00000000#32) (k : Fin K) :
    Host.reduceAdd (F := Ideal) (φ := .f32) x init hr hu (ix1 k) = chanSum x k := by
  simp only [Host.reduceAdd, Ideal.hostReduceAdd_def]
  refine (Cert.LibReduce.hostReduceAdd_keep1 hr x _ k).trans ?_
  rw [hi, Ideal.ofBits_zero_f32, zero_add]
  rfl

variable (sup : S8x4x512x512.Idx → EReal) (cls : S8x12x512x512.Idx → EReal) (wts : S12.Idx → EReal)
  (tgt : S8x512x512.Idx → BitVec 32) (sub : S12.Idx → BitVec 32)

/-- The reference's one-hot result. -/
theorem onehot_ref : val_main_v13 (F := Ideal) tgt = oneHot tgt := by
  funext i
  obtain ⟨b, c, h, w, rfl⟩ : ∃ (b : Fin 8) (c : Fin 12) (h : Fin 512) (w : Fin 512), i = ix4 b c h w :=
    ⟨i 0, i 1, i 2, i 3, eq_ix4 i⟩
  -- the two chains of broadcasts read the label at (b, h, w) and the class number c
  have e1 : idx_main_v8 (idx_main_v10 (ix4 b c h w)) = ix3 b h w :=
    funext fun a => Fin.ext (by match a with | ⟨0, _⟩ => rfl | ⟨1, _⟩ => rfl | ⟨2, _⟩ => rfl)
  have e2 : idx_main_v9 (idx_main_v11 (ix4 b c h w)) = ix1 c :=
    funext fun a => Fin.ext (by match a with | ⟨0, _⟩ => rfl)
  rw [val_main_v13_apply, val_main_v12_apply, val_main_v10_apply, val_main_v8_apply, val_main_v11_apply,
    val_main_v9_apply, val_main_v7_apply, e1, e2]
  exact uitofp_cmpi_eq (tgt (ix3 b h w)) c.val

/-- The reference's product result, where every superclass index is inside 0 … 3. -/
theorem scores_ref (hs : ∀ k, (sub k).toNat < 4) :
    val_main_v64 (F := Ideal) sup cls sub = fun i => cls i * gatheredAt sub sup i := by
  funext i
  obtain ⟨b, c, h, w, rfl⟩ : ∃ (b : Fin 8) (c : Fin 12) (h : Fin 512) (w : Fin 512), i = ix4 b c h w :=
    ⟨i 0, i 1, i 2, i 3, eq_ix4 i⟩
  have hc : (sub (ix1 c)).toNat < 4 := hs (ix1 c)
  -- the start index at (c, 0) is sub c: the wrap keeps a word that is not negative
  have e62 : val_main_v62 (F := Ideal) sub (ix2 c (0 : Fin 1)) = sub (ix1 c) := by
    have e : idx_main_v62 (ix2 c (0 : Fin 1)) = ix1 c :=
      funext fun a => Fin.ext (by match a with | ⟨0, _⟩ => rfl)
    rw [val_main_v62_apply, val_main_v61_apply, val_main_v58_apply, val_main_v57_apply, val_main_c_19_apply, e]
    exact wrap_of_small _ _ (by omega)
  rw [val_main_v64_apply]
  show cls (ix4 b c h w) * val_main_v63 (F := Ideal) sup sub (ix4 b c h w)
    = cls (ix4 b c h w) * sup (ix4 b (⟨min (sub (ix1 c)).toNat 3, by omega⟩ : Fin 4) h w)
  congr 1
  unfold val_main_v63
  refine gather_sup_apply sup _ b c h w _ ?_
  show min (val_main_v62 (F := Ideal) sub (ix2 c (0 : Fin 1))).toInt.toNat 3 = min (sub (ix1 c)).toNat 3
  rw [e62, toInt_toNat_of_small _ (by omega)]

/-- The super one-hot the reference builds, where every label is inside 0 … 11. -/
private theorem superhot_ref (ht : ∀ i, (tgt i).toNat < 12) :
    val_main_v20 (F := Ideal) tgt sub = superHotAt sub tgt := by
  funext i
  obtain ⟨b, s, h, w, rfl⟩ : ∃ (b : Fin 8) (s : Fin 4) (h : Fin 512) (w : Fin 512), i = ix4 b s h w :=
    ⟨i 0, i 1, i 2, i 3, eq_ix4 i⟩
  have hb : (tgt (ix3 b h w)).toNat < 12 := ht (ix3 b h w)
  have e1 : idx_main_v15 (idx_main_v17 (ix4 b s h w)) = ix3 b h w :=
    funext fun a => Fin.ext (by match a with | ⟨0, _⟩ => rfl | ⟨1, _⟩ => rfl | ⟨2, _⟩ => rfl)
  have e2 : idx_main_v16 (idx_main_v18 (ix4 b s h w)) = ix1 s :=
    funext fun a => Fin.ext (by match a with | ⟨0, _⟩ => rfl)
  -- the start index at (b, h, w, 0) is the label: the wrap keeps a word that is not negative
  have e5 : val_main_v5 (F := Ideal) tgt (ix4 b h w (0 : Fin 1)) = tgt (ix3 b h w) := by
    have e : idx_main_v5 (ix4 b h w (0 : Fin 1)) = ix3 b h w :=
      funext fun a => Fin.ext (by match a with | ⟨0, _⟩ => rfl | ⟨1, _⟩ => rfl | ⟨2, _⟩ => rfl)
    rw [val_main_v5_apply, val_main_v4_apply, val_main_v1_apply, val_main_v0_apply, val_main_c_apply, e]
    exact wrap_of_small _ _ (by omega)
  have e6 : val_main_v6 (F := Ideal) tgt sub (ix3 b h w)
      = sub (ix1 (⟨min (tgt (ix3 b h w)).toNat 11, by omega⟩ : Fin 12)) := by
    unfold val_main_v6
    refine gather_sub_apply sub _ b h w _ ?_
    show min (val_main_v5 (F := Ideal) tgt (ix4 b h w (0 : Fin 1))).toInt.toNat 11 = min (tgt (ix3 b h w)).toNat 11
    rw [e5, toInt_toNat_of_small _ (by omega)]
  rw [val_main_v20_apply, val_main_v19_apply, val_main_v17_apply, val_main_v15_apply, val_main_v18_apply,
    val_main_v16_apply, val_main_v14_apply, e1, e2, e6]
  exact uitofp_cmpi_eq _ s.val

/-- One dice term of the superclass family: the reference's three sums at superclass k are the channel sums. -/
private theorem dice_sup (ht : ∀ i, (tgt i).toNat < 12) (k : Fin 4) :
    val_main_v34 (F := Ideal) sup tgt sub (ix1 k)
      = dice (chanSum (fun i => sup i * superHotAt sub tgt i) k) (chanSum sup k) (chanSum (superHotAt sub tgt) k) := by
  have e20 : val_main_v20 (F := Ideal) tgt sub = superHotAt sub tgt := superhot_ref tgt sub ht
  have e21 : val_main_v21 (F := Ideal) sup tgt sub = fun i => sup i * superHotAt sub tgt i := by
    funext i; rw [val_main_v21_apply, e20]; rfl
  have h22 : val_main_v22 (F := Ideal) sup tgt sub (ix1 k) = chanSum (fun i => sup i * superHotAt sub tgt i) k := by
    unfold val_main_v22; rw [e21]; exact reduce_chan _ _ _ _ (fun _ => rfl) k
  have h23 : val_main_v23 (F := Ideal) sup (ix1 k) = chanSum sup k := by
    unfold val_main_v23; exact reduce_chan _ _ _ _ (fun _ => rfl) k
  have h24 : val_main_v24 (F := Ideal) tgt sub (ix1 k) = chanSum (superHotAt sub tgt) k := by
    unfold val_main_v24; rw [e20]; exact reduce_chan _ _ _ _ (fun _ => rfl) k
  rw [val_main_v34_apply, val_main_v33_apply, val_main_v32_apply, val_main_v28_apply, val_main_v26_apply,
    val_main_v25_apply, val_main_v27_apply, val_main_v31_apply, val_main_v29_apply, val_main_v30_apply, h22, h23, h24]
  generalize chanSum (fun i => sup i * superHotAt sub tgt i) k = p
  generalize chanSum sup k = q
  generalize chanSum (superHotAt sub tgt) k = r
  rfl

/-- One dice term of the class family: the reference's three sums at class k are the channel sums. -/
private theorem dice_cls (k : Fin 12) :
    val_main_v49 (F := Ideal) cls tgt (ix1 k)
      = dice (chanSum (fun i => cls i * oneHot tgt i) k) (chanSum cls k) (chanSum (oneHot tgt) k) := by
  have e13 : val_main_v13 (F := Ideal) tgt = oneHot tgt := onehot_ref tgt
  have e36 : val_main_v36 (F := Ideal) cls tgt = fun i => cls i * oneHot tgt i := by
    funext i; rw [val_main_v36_apply, e13]; rfl
  have h37 : val_main_v37 (F := Ideal) cls tgt (ix1 k) = chanSum (fun i => cls i * oneHot tgt i) k := by
    unfold val_main_v37; rw [e36]; exact reduce_chan _ _ _ _ (fun _ => rfl) k
  have h38 : val_main_v38 (F := Ideal) cls (ix1 k) = chanSum cls k := by
    unfold val_main_v38; exact reduce_chan _ _ _ _ (fun _ => rfl) k
  have h39 : val_main_v39 (F := Ideal) tgt (ix1 k) = chanSum (oneHot tgt) k := by
    unfold val_main_v39; rw [e13]; exact reduce_chan _ _ _ _ (fun _ => rfl) k
  rw [val_main_v49_apply, val_main_v48_apply, val_main_v47_apply, val_main_v43_apply, val_main_v41_apply,
    val_main_v40_apply, val_main_v42_apply, val_main_v46_apply, val_main_v44_apply, val_main_v45_apply, h37, h38, h39]
  generalize chanSum (fun i => cls i * oneHot tgt i) k = p
  generalize chanSum cls k = q
  generalize chanSum (oneHot tgt) k = r
  rfl

/-- The reference's loss, where every label is inside 0 … 11. -/
theorem loss_ref (ht : ∀ i, (tgt i).toNat < 12) :
    val_main_v56 (F := Ideal) sup cls wts tgt sub
      = fun _ => lossOf
          (chanSum fun i => cls i * oneHot tgt i) (chanSum cls) (chanSum (oneHot tgt))
          (chanSum fun i => sup i * superHotAt sub tgt i) (chanSum sup) (chanSum (superHotAt sub tgt))
          (fun k => wts (ix1 k)) := by
  funext i
  -- the two final sums, over the four superclasses and the twelve classes, by their coordinate
  rw [val_main_v56_apply, val_main_v53_apply, val_main_v55_apply, val_main_v52_apply, val_main_v51_apply,
    val_main_v54_apply, val_main_v35_apply, sum_rank1, sum_rank1, sum_rank1]
  simp only [val_main_v50_apply, dice_sup sup tgt sub ht, dice_cls cls tgt]
  generalize chanSum (fun i => cls i * oneHot tgt i) = ic
  generalize chanSum cls = sc
  generalize chanSum (oneHot tgt) = tc
  generalize chanSum (fun i => sup i * superHotAt sub tgt i) = is
  generalize chanSum sup = ss
  generalize chanSum (superHotAt sub tgt) = ts
  show Ideal.div (Ideal.ofBits .f32 0x3DCCCCCD#32
          * (Ideal.ofBits .f32 0x00000000#32 + ∑ s : Fin 4, dice (is s) (ss s) (ts s))) (Ideal.ofBits .f32 0x40800000#32)
      + Ideal.div (Ideal.ofBits .f32 0x00000000#32 + ∑ c : Fin 12, dice (ic c) (sc c) (tc c) * wts (ix1 c))
          (Ideal.ofBits .f32 0x00000000#32 + ∑ c : Fin 12, wts (ix1 c))
    = lossOf ic sc tc is ss ts (fun k => wts (ix1 k))
  rw [Ideal.ofBits_zero_f32]
  rfl

end Cert.ReferenceIdeal.RefSide

end
-- ==== Proof.lean ====
/-
  The certificate of the super-label dice loss kernel against its jnp reference, over the extended reals.

  The precondition: every float input finite, every label inside 0 … 11 and every class's superclass inside 0 … 3 (outside
  those ranges the reference indexes out of range).

  The three frames are the generated ones (the reference's from its generated run). The idealization rewrote nothing, so
  its conjunct is trivial. For the value claim both programs are shown to end with the same three functions of the
  arguments: the loss, the class scores times the super score gathered at the class's superclass, and the label one-hot.
  The kernel's side is read off its frame run — its two big outputs are arrays of the region, its loss is what the host
  lines after the region make of the two statistics arrays — and joined to those functions under the two ranges; the
  reference's side is its generated run read one operation at a time.
-/
import proofs.«402975_j51522427682884_1_alg».proof.Defs
import proofs.«402975_j51522427682884_1_alg».proof.Proof.Gen.Kernel
import proofs.«402975_j51522427682884_1_alg».proof.Proof.Gen.Kernel.Frame
import proofs.«402975_j51522427682884_1_alg».proof.Proof.Gen.KernelIdeal
import proofs.«402975_j51522427682884_1_alg».proof.Proof.Gen.KernelIdeal.Frame
import proofs.«402975_j51522427682884_1_alg».proof.Proof.Gen.ReferenceIdeal
import proofs.«402975_j51522427682884_1_alg».proof.Proof.Gen.ReferenceIdeal.Run
import proofs.«402975_j51522427682884_1_alg».proof.Proof.Gen.ReferenceIdeal.Read
import proofs.«402975_j51522427682884_1_alg».proof.Proof.Gen.Pre_finite_inputs
import proofs.«402975_j51522427682884_1_alg».proof.Proof.PreDecode
import proofs.«402975_j51522427682884_1_alg».proof.Proof.Bridge
import proofs.«402975_j51522427682884_1_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem Cert.Dice

/-! ## The kernel's run, with its three results named -/

section KernelRun

open Cert.KernelIdeal Cert.KernelIdeal.Gen Cert.KernelIdeal.Bridge

variable (m : (ℓ : Loc nD τ sig) → Buf (Elt Ideal) ℓ) (ρ : Dev nD → PrngReg)

/-- Under the two ranges the kernel's program ends with the loss, the product array and the one-hot array at their
    functions of the arguments, and the arguments unchanged. The arrays are the region's (windows 4 and 5 of its
    pipeline); the loss is what the host lines after the region leave; the arguments are read back as in the frame. -/
theorem kernel_run (ht : ∀ c i, (tgtA m c i).toNat < 12) (hs : ∀ c k, (subA m c k).toNat < 4) :
    θ_run (defs (F := Ideal)) (onTc (τ := τ) (main (F := Ideal))) ⟨m, fun _ => 0, ρ⟩ (fun r => ∀ c : Dev nD,
      r.2.mem ((c.tc : Thread nD τ).loc main_v49) = lossFn m c
      ∧ r.2.mem ((c.tc : Thread nD τ).loc main_v7_0) = scoresFn m c
      ∧ r.2.mem ((c.tc : Thread nD τ).loc main_v7_1) = onehotFn m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v49 (Pipeline.mem_restRefs_of main_v49 (by decide) (by decide))).trans (loss_eq m c (ht c)),
      ((h c).1 4).trans (scores_eq m c (hs c)),
      ((h c).1 5).trans (onehot_eq m c),
      ((h c).1 2).trans ((((dats m) 0 c).arrAt_in 2 rfl _).trans ((A_eq m c 2).trans (V_main_arg0 m c))),
      ((h c).1 1).trans ((((dats m) 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans ((((dats m) 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end KernelRun

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the same three functions of the arguments. -/
theorem algebraic : Cert.algebraic_KernelIdeal_ReferenceIdeal := by
  intro m ρ m' ρ' hpre hagree
  have hr := fun c => Cert.Pre_finite_inputs.Decode.ranges_of_pre _ _ _ _ _ (hpre c)
  have ht : ∀ c i, (Cert.KernelIdeal.Bridge.tgtA m c i).toNat < 12 := fun c => (hr c).1
  have hs : ∀ c k, (Cert.KernelIdeal.Bridge.subA m c k).toNat < 4 := fun c => (hr c).2
  refine ⟨_, _, _, kernel_run m ρ ht hs, ?_⟩
  refine (θ_run Cert.ReferenceIdeal.defs _ _).mono (fun _ h c => ?_) (Cert.ReferenceIdeal.Value.run (F := Ideal) m' ρ')
  obtain ⟨h0, h1, h2, hargs⟩ := h c
  obtain ⟨a0, a1, a2, a3, a4⟩ := hagree c
  refine ⟨h0.trans ?_, h1.trans ?_, h2.trans ?_, hargs⟩
  · rw [Cert.ReferenceIdeal.Read.val_main_v56_eq, a0, a1, a2, a3, a4]
    exact Cert.ReferenceIdeal.RefSide.loss_ref _ _ _ _ _ (ht c)
  · rw [Cert.ReferenceIdeal.Read.val_main_v64_eq, a0, a1, a4]
    exact Cert.ReferenceIdeal.RefSide.scores_ref _ _ _ (hs c)
  · rw [Cert.ReferenceIdeal.Read.val_main_v13_eq, a3]
    exact Cert.ReferenceIdeal.RefSide.onehot_ref _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
